-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S1000000x64 : Shape := ⟨2, ![1000000, 64]⟩
abbrev S64x64 : Shape := ⟨2, ![64, 64]⟩
abbrev S64 : Shape := ⟨1, ![64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S65536 : S_.BroadcastsInDim S65536 (![] : Fin 0 → Fin S65536.rank)
  reducesTo_S65536_S_d0 : S65536.ReducesTo [0] S_

variable [Facts]

def fn_part2 {F : FTy → Type} [FloatOps F] (main_arg1 : IVec S65536 32) (main_arg2 : IVec S65536 32) (main_v28 : IVec S_ 1) (main_v33 : IVec S65536 1) : IVec S_ 1 :=
  let main_c_12 : IVec S_ 1 := constantI S_ 1 1#1
  let main_v34 : IVec S_ 1 := (fun x v => Host.reduce IntOp.andi x v reducesTo_S65536_S_d0 h_S_) main_v33 main_c_12
  let main_v35 : IVec S_ 1 := andi main_v28 main_v34
  let main_c_13 : IVec S_ 32 := constantI S_ 32 0#32
  let main_v36 : IVec S65536 32 := broadcastInDim S65536 ![] bcast_S_S65536 main_c_13
  let main_v37 : IVec S65536 1 := cmpi .sge main_arg1 main_v36
  let main_c_14 : IVec S_ 32 := constantI S_ 32 1000000#32
  let main_v38 : IVec S65536 32 := broadcastInDim S65536 ![] bcast_S_S65536 main_c_14
  let main_v39 : IVec S65536 1 := cmpi .slt main_arg1 main_v38
  let main_v40 : IVec S65536 1 := andi main_v37 main_v39
  let main_c_15 : IVec S_ 1 := constantI S_ 1 1#1
  let main_v41 : IVec S_ 1 := (fun x v => Host.reduce IntOp.andi x v reducesTo_S65536_S_d0 h_S_) main_v40 main_c_15
  let main_v42 : IVec S_ 1 := andi main_v35 main_v41
  let main_c_16 : IVec S_ 32 := constantI S_ 32 0#32
  let main_v43 : IVec S65536 32 := broadcastInDim S65536 ![] bcast_S_S65536 main_c_16
  let main_v44 : IVec S65536 1 := cmpi .sge main_arg2 main_v43
  let main_c_17 : IVec S_ 32 := constantI S_ 32 1000000#32
  let main_v45 : IVec S65536 32 := broadcastInDim S65536 ![] bcast_S_S65536 main_c_17
  let main_v46 : IVec S65536 1 := cmpi .slt main_arg2 main_v45
  let main_v47 : IVec S65536 1 := andi main_v44 main_v46
  let main_c_18 : IVec S_ 1 := constantI S_ 1 1#1
  let main_v48 : IVec S_ 1 := (fun x v => Host.reduce IntOp.andi x v reducesTo_S65536_S_d0 h_S_) main_v47 main_c_18
  let main_v49 : IVec S_ 1 := andi main_v42 main_v48
  main_v49

def fn_part1 {F : FTy → Type} [FloatOps F] (main_arg0 : IVec S65536 32) (main_arg1 : IVec S65536 32) (main_arg2 : IVec S65536 32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S65536 32 := broadcastInDim S65536 ![] bcast_S_S65536 main_c_10
  let main_v30 : IVec S65536 1 := cmpi .sge main_arg0 main_v29
  let main_c_11 : IVec S_ 32 := constantI S_ 32 1000000#32
  let main_v31 : IVec S65536 32 := broadcastInDim S65536 ![] bcast_S_S65536 main_c_11
  let main_v32 : IVec S65536 1 := cmpi .slt main_arg0 main_v31
  let main_v33 : IVec S65536 1 := andi main_v30 main_v32
  fn_part2 (F := F) main_arg1 main_arg2 main_v28 main_v33

def fn {F : FTy → Type} [FloatOps F] (main_arg0 : IVec S65536 32) (main_arg1 : IVec S65536 32) (main_arg2 : IVec S65536 32) (main_arg3 : FVec F S1000000x64 .f32) (main_arg4 : FVec F S1000000x64 .f32) (main_arg5 : FVec F S64x64 .f32) (main_arg6 : FVec F S64 .f32) (main_arg7 : FVec F S64x64 .f32) (main_arg8 : FVec F S64 .f32) : IVec S_ 1 :=
  let main_v0 : FVec F S1000000x64 .f32 := Host.absf main_arg3
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg4
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S64x64 .f32 := Host.absf main_arg5
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg1 main_arg2 main_arg7 main_arg8 main_v13 main_v16
-- ==== Kernel.lean ====
abbrev S65536 : Shape := ⟨1, ![65536]⟩
abbrev S1000000x64 : Shape := ⟨2, ![1000000, 64]⟩
abbrev S64x64 : Shape := ⟨2, ![64, 64]⟩
abbrev S64 : Shape := ⟨1, ![64]⟩
abbrev S_ : Shape := ⟨0, ![]⟩
abbrev S65536x1 : Shape := ⟨2, ![65536, 1]⟩
abbrev S1 : Shape := ⟨1, ![1]⟩
abbrev S1x1 : Shape := ⟨2, ![1, 1]⟩
abbrev S65536x64 : Shape := ⟨2, ![65536, 64]⟩
abbrev S1x64 : Shape := ⟨2, ![1, 64]⟩
abbrev S512x128 : Shape := ⟨2, ![512, 128]⟩
abbrev S65536x128 : Shape := ⟨2, ![65536, 128]⟩
abbrev S4096x64 : Shape := ⟨2, ![4096, 64]⟩
abbrev S32x128 : Shape := ⟨2, ![32, 128]⟩
abbrev S4096x128 : Shape := ⟨2, ![4096, 128]⟩
abbrev S4096 : Shape := ⟨1, ![4096]⟩

abbrev nBuf : Space → Nat
  | .hbm => 91
  | .vmem => 18
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S65536, .i32⟩
  | .hbm, ⟨3, _⟩ => ⟨S1000000x64, .f32⟩
  | .hbm, ⟨4, _⟩ => ⟨S1000000x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S65536, .i32⟩
  | .hbm, ⟨11, _⟩ => ⟨S65536, .i1⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S65536x1, .i32⟩
  | .hbm, ⟨17, _⟩ => ⟨S1, .i32⟩
  | .hbm, ⟨18, _⟩ => ⟨S_, .i32⟩
  | .hbm, ⟨19, _⟩ => ⟨S65536x1, .i32⟩
  | .hbm, ⟨20, _⟩ => ⟨S65536x1, .i1⟩
  | .hbm, ⟨21, _⟩ => ⟨S1x1, .i32⟩
  | .hbm, ⟨22, _⟩ => ⟨S65536x1, .i32⟩
  | .hbm, ⟨23, _⟩ => ⟨S65536x1, .i1⟩
  | .hbm, ⟨24, _⟩ => ⟨S65536x1, .i1⟩
  | .hbm, ⟨25, _⟩ => ⟨S_, .i1⟩
  | .hbm, ⟨26, _⟩ => ⟨S65536, .i1⟩
  | .hbm, ⟨27, _⟩ => ⟨S65536x64, .f32⟩
  | .hbm, ⟨28, _⟩ => ⟨S65536x64, .i1⟩
  | .hbm, ⟨29, _⟩ => ⟨S_, .f32⟩
  | .hbm, ⟨30, _⟩ => ⟨S65536x64, .f32⟩
  | .hbm, ⟨31, _⟩ => ⟨S65536x64, .f32⟩
  | .hbm, ⟨32, _⟩ => ⟨S65536x64, .bf16⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S65536, .i32⟩
  | .hbm, ⟨40, _⟩ => ⟨S65536x1, .i32⟩
  | .hbm, ⟨41, _⟩ => ⟨S1, .i32⟩
  | .hbm, ⟨42, _⟩ => ⟨S_, .i32⟩
  | .hbm, ⟨43, _⟩ => ⟨S65536x1, .i32⟩
  | .hbm, ⟨44, _⟩ => ⟨S65536x1, .i1⟩
  | .hbm, ⟨45, _⟩ => ⟨S1x1, .i32⟩
  | .hbm, ⟨46, _⟩ => ⟨S65536x1, .i32⟩
  | .hbm, ⟨47, _⟩ => ⟨S65536x1, .i1⟩
  | .hbm, ⟨48, _⟩ => ⟨S65536x1, .i1⟩
  | .hbm, ⟨49, _⟩ => ⟨S_, .i1⟩
  | .hbm, ⟨50, _⟩ => ⟨S65536, .i1⟩
  | .hbm, ⟨51, _⟩ => ⟨S65536x64, .f32⟩
  | .hbm, ⟨52, _⟩ => ⟨S65536x64, .i1⟩
  | .hbm, ⟨53, _⟩ => ⟨S_, .f32⟩
  | .hbm, ⟨54, _⟩ => ⟨S65536x64, .f32⟩
  | .hbm, ⟨55, _⟩ => ⟨S65536x64, .f32⟩
  | .hbm, ⟨56, _⟩ => ⟨S65536x64, .bf16⟩
  | .hbm, ⟨57, _⟩ => ⟨S_, .i32⟩
  | .hbm, ⟨58, _⟩ => ⟨S65536, .i32⟩
  | .hbm, ⟨59, _⟩ => ⟨S65536, .i1⟩
  | .hbm, ⟨60, _⟩ => ⟨S_, .i32⟩
  | .hbm, ⟨61, _⟩ => ⟨S65536, .i32⟩
  | .hbm, ⟨62, _⟩ => ⟨S65536, .i32⟩
  | .hbm, ⟨63, _⟩ => ⟨S65536, .i32⟩
  | .hbm, ⟨64, _⟩ => ⟨S65536x1, .i32⟩
  | .hbm, ⟨65, _⟩ => ⟨S1, .i32⟩
  | .hbm, ⟨66, _⟩ => ⟨S_, .i32⟩
  | .hbm, ⟨67, _⟩ => ⟨S65536x1, .i32⟩
  | .hbm, ⟨68, _⟩ => ⟨S65536x1, .i1⟩
  | .hbm, ⟨69, _⟩ => ⟨S1x1, .i32⟩
  | .hbm, ⟨70, _⟩ => ⟨S65536x1, .i32⟩
  | .hbm, ⟨71, _⟩ => ⟨S65536x1, .i1⟩
  | .hbm, ⟨72, _⟩ => ⟨S65536x1, .i1⟩
  | .hbm, ⟨73, _⟩ => ⟨S_, .i1⟩
  | .hbm, ⟨74, _⟩ => ⟨S65536, .i1⟩
  | .hbm, ⟨75, _⟩ => ⟨S65536x64, .f32⟩
  | .hbm, ⟨76, _⟩ => ⟨S65536x64, .i1⟩
  | .hbm, ⟨77, _⟩ => ⟨S_, .f32⟩
  | .hbm, ⟨78, _⟩ => ⟨S65536x64, .f32⟩
  | .hbm, ⟨79, _⟩ => ⟨S65536x64, .f32⟩
  | .hbm, ⟨80, _⟩ => ⟨S65536x64, .bf16⟩
  | .hbm, ⟨81, _⟩ => ⟨S64x64, .bf16⟩
  | .hbm, ⟨82, _⟩ => ⟨S64x64, .bf16⟩
  | .hbm, ⟨83, _⟩ => ⟨S1x64, .f32⟩
  | .hbm, ⟨84, _⟩ => ⟨S1x64, .f32⟩
  | .hbm, ⟨85, _⟩ => ⟨S512x128, .f32⟩
  | .hbm, ⟨86, _⟩ => ⟨S512x128, .f32⟩
  | .hbm, ⟨87, _⟩ => ⟨S65536x128, .f32⟩
  | .hbm, ⟨88, _⟩ => ⟨S65536x64, .f32⟩
  | .hbm, ⟨89, _⟩ => ⟨S65536x1, .f32⟩
  | .hbm, ⟨90, _⟩ => ⟨S65536x1, .f32⟩
  | .local _ .vmem, ⟨0, _⟩ => ⟨S4096x64, .bf16⟩
  | .local _ .vmem, ⟨1, _⟩ => ⟨S4096x64, .bf16⟩
  | .local _ .vmem, ⟨2, _⟩ => ⟨S4096x64, .bf16⟩
  | .local _ .vmem, ⟨3, _⟩ => ⟨S4096x64, .bf16⟩
  | .local _ .vmem, ⟨4, _⟩ => ⟨S4096x64, .bf16⟩
  | .local _ .vmem, ⟨5, _⟩ => ⟨S4096x64, .bf16⟩
  | .local _ .vmem, ⟨6, _⟩ => ⟨S64x64, .bf16⟩
  | .local _ .vmem, ⟨7, _⟩ => ⟨S1x64, .f32⟩
  | .local _ .vmem, ⟨8, _⟩ => ⟨S64x64, .bf16⟩
  | .local _ .vmem, ⟨9, _⟩ => ⟨S1x64, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S4096x128, .f32⟩
  | .local _ .vmem, ⟨15, _⟩ => ⟨S4096x128, .f32⟩
  | .local _ .vmem, ⟨16, _⟩ => ⟨S4096x64, .f32⟩
  | .local _ .vmem, ⟨17, _⟩ => ⟨S4096x64, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v2 : Ref sig .tc := ⟨.hbm, 55, rfl⟩
abbrev main_v3 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v4 : Ref sig .tc := ⟨.hbm, 79, rfl⟩
abbrev main_v5 : Ref sig .tc := ⟨.hbm, 80, rfl⟩
abbrev main_v6 : Ref sig .tc := ⟨.hbm, 81, rfl⟩
abbrev main_v7 : Ref sig .tc := ⟨.hbm, 82, rfl⟩
abbrev main_v8 : Ref sig .tc := ⟨.hbm, 83, rfl⟩
abbrev main_v9 : Ref sig .tc := ⟨.hbm, 84, rfl⟩
abbrev main_v10_0 : Ref sig .tc := ⟨.hbm, 85, rfl⟩
abbrev main_v10_1 : Ref sig .tc := ⟨.hbm, 86, rfl⟩
abbrev main_v10_2 : Ref sig .tc := ⟨.hbm, 87, rfl⟩
abbrev main_v10_3 : Ref sig .tc := ⟨.hbm, 88, rfl⟩
abbrev main_v11 : Ref sig .tc := ⟨.hbm, 89, rfl⟩
abbrev main_v12 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S65536_d1 : S65536x1.ReducesTo [1] S65536
  h_S_ : 0 < S_.numel
  bcast_S65536_S65536x64_0 : S65536.BroadcastsInDim S65536x64 (![0] : Fin 1 → Fin S65536x64.rank)
  bcast_S_S65536x64 : S_.BroadcastsInDim S65536x64 (![] : Fin 0 → Fin S65536x64.rank)
  bitsLt_bf16_f32 : FTy.bits .bf16 < FTy.bits .f32
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S32x128 : S4096.ShapeCasts S32x128
  inb_S32x128_S32x128_0_0 : ∀ a, (![0, 0] : Fin 2 → Nat) a + S32x128.size a ≤ S32x128.size a
  h_S32x128 : 0 < S32x128.numel
  concatenates_S4096x64_S4096x64_S4096x128_d1 : Shape.Concatenates [S4096x64, S4096x64] S4096x128 1
  inb_S4096x128_S4096x128_0_0 : ∀ a, (![0, 0] : Fin 2 → Nat) a + S4096x128.size a ≤ S4096x128.size a
  h_S4096x128 : 0 < S4096x128.numel
  shapeCasts_S512x128_S65536x1 : S512x128.ShapeCasts S65536x1
  gather_S1000000x64_S65536x1_S65536x64_1_0_n_n_0_1_164_wf : GatherDims.WF S1000000x64 S65536x1 S65536x64 [1] [0] [] [0] [] 1 ![1, 64]
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S65536x64.size a
  hwx0_0 : ∀ i : grid0.Coords, EltTy.bits .bf16 = 32 ∨ (Rect.block (s := S65536x64) S4096x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S65536x64.size a
  hwx0_1 : ∀ i : grid0.Coords, EltTy.bits .bf16 = 32 ∨ (Rect.block (s := S65536x64) S4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S65536x64.size a
  hwx0_2 : ∀ i : grid0.Coords, EltTy.bits .bf16 = 32 ∨ (Rect.block (s := S65536x64) S4096x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S512x128.size a
  hwx0_7 : ∀ i : grid0.Coords, EltTy.bits .f32 = 32 ∨ (Rect.block (s := S512x128) S32x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x128.size a ≤ S512x128.size a
  hwx0_8 : ∀ i : grid0.Coords, EltTy.bits .f32 = 32 ∨ (Rect.block (s := S512x128) S32x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x128.size a ≤ S65536x128.size a
  hwx0_9 : ∀ i : grid0.Coords, EltTy.bits .f32 = 32 ∨ (Rect.block (s := S65536x128) S4096x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x64.size a ≤ S65536x64.size a
  hwx0_10 : ∀ i : grid0.Coords, EltTy.bits .f32 = 32 ∨ (Rect.block (s := S65536x64) S4096x64.size (cc0_transform_10 i) (hinb0_10 i)).WholeWords (EltTy.packing .f32)

variable [Facts₀]

def gather_S1000000x64_S65536x1_S65536x64_1_0_n_n_0_1_164 : GatherDims S1000000x64 S65536x1 S65536x64 where
  offsetDims := [1]
  collapsedSliceDims := [0]
  operandBatchingDims := []
  startIndicesBatchingDims := []
  startIndexMap := [0]
  indexVectorDim := 1
  sliceSizes := ![1, 64]
  wf := gather_S1000000x64_S65536x1_S65536x64_1_0_n_n_0_1_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v1) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S32x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S32x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S4096x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_3) S4096x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536 : Shape := ⟨1, ![65536]⟩
abbrev S1000000x64 : Shape := ⟨2, ![1000000, 64]⟩
abbrev S64x64 : Shape := ⟨2, ![64, 64]⟩
abbrev S64 : Shape := ⟨1, ![64]⟩
abbrev S_ : Shape := ⟨0, ![]⟩
abbrev S65536x1 : Shape := ⟨2, ![65536, 1]⟩
abbrev S65536x64 : Shape := ⟨2, ![65536, 64]⟩
abbrev S196608 : Shape := ⟨1, ![196608]⟩
abbrev S327680 : Shape := ⟨1, ![327680]⟩
abbrev S327680x1 : Shape := ⟨2, ![327680, 1]⟩
abbrev S196608x64 : Shape := ⟨2, ![196608, 64]⟩
abbrev S327680x64 : Shape := ⟨2, ![327680, 64]⟩
abbrev S1x64 : Shape := ⟨2, ![1, 64]⟩
abbrev S65536x128 : Shape := ⟨2, ![65536, 128]⟩

abbrev nBuf : Space → Nat
  | .hbm => 131
  | .vmem => 0
  | .smem => 0
  | _ => 0

abbrev hbmTy0_0 (i : Nat) : BufTy := match i % 128 with
  | 0 => ⟨S65536, .i32⟩
  | 1 => ⟨S65536, .i32⟩
  | 2 => ⟨S65536, .i32⟩
  | 3 => ⟨S1000000x64, .f32⟩
  | 4 => ⟨S1000000x64, .f32⟩
  | 5 => ⟨S64x64, .f32⟩
  | 6 => ⟨S64, .f32⟩
  | 7 => ⟨S64x64, .f32⟩
  | 8 => ⟨S64, .f32⟩
  | 9 => ⟨S_, .i32⟩
  | 10 => ⟨S65536, .i32⟩
  | 11 => ⟨S65536, .i1⟩
  | 12 => ⟨S_, .i32⟩
  | 13 => ⟨S65536, .i32⟩
  | 14 => ⟨S65536, .i32⟩
  | 15 => ⟨S65536, .i32⟩
  | 16 => ⟨S65536x1, .i32⟩
  | 17 => ⟨S65536x64, .f32⟩
  | 18 => ⟨S_, .i32⟩
  | 19 => ⟨S65536, .i32⟩
  | 20 => ⟨S65536, .i1⟩
  | 21 => ⟨S_, .i32⟩
  | 22 => ⟨S65536, .i32⟩
  | 23 => ⟨S65536, .i32⟩
  | 24 => ⟨S65536, .i32⟩
  | 25 => ⟨S65536x1, .i32⟩
  | 26 => ⟨S65536x64, .f32⟩
  | 27 => ⟨S_, .i32⟩
  | 28 => ⟨S65536, .i32⟩
  | 29 => ⟨S65536, .i1⟩
  | 30 => ⟨S_, .i32⟩
  | 31 => ⟨S65536, .i32⟩
  | 32 => ⟨S65536, .i32⟩
  | 33 => ⟨S65536, .i32⟩
  | 34 => ⟨S65536x1, .i32⟩
  | 35 => ⟨S65536x64, .f32⟩
  | 36 => ⟨S65536, .i32⟩
  | 37 => ⟨S_, .i32⟩
  | 38 => ⟨S65536, .i32⟩
  | 39 => ⟨S65536, .i32⟩
  | 40 => ⟨S196608, .i32⟩
  | 41 => ⟨S327680, .i32⟩
  | 42 => ⟨S327680, .i32⟩
  | 43 => ⟨S_, .f32⟩
  | 44 => ⟨S327680, .f32⟩
  | 45 => ⟨S_, .f32⟩
  | 46 => ⟨S196608, .f32⟩
  | 47 => ⟨S327680x1, .i32⟩
  | 48 => ⟨S196608, .f32⟩
  | 49 => ⟨S_, .f32⟩
  | 50 => ⟨S196608, .f32⟩
  | 51 => ⟨S196608, .i1⟩
  | 52 => ⟨S196608, .f32⟩
  | 53 => ⟨S_, .f32⟩
  | 54 => ⟨S_, .f32⟩
  | 55 => ⟨S196608, .f32⟩
  | 56 => ⟨S196608, .f32⟩
  | 57 => ⟨S_, .i32⟩
  | 58 => ⟨S327680, .i32⟩
  | 59 => ⟨S327680, .i1⟩
  | 60 => ⟨S_, .i32⟩
  | 61 => ⟨S327680, .i32⟩
  | 62 => ⟨S327680, .i32⟩
  | 63 => ⟨S327680, .i32⟩
  | 64 => ⟨S327680x1, .i32⟩
  | 65 => ⟨S327680, .f32⟩
  | 66 => ⟨S_, .i32⟩
  | 67 => ⟨S327680, .i32⟩
  | 68 => ⟨S327680, .i1⟩
  | 69 => ⟨S_, .i32⟩
  | 70 => ⟨S327680, .i32⟩
  | 71 => ⟨S327680, .i32⟩
  | 72 => ⟨S327680, .i32⟩
  | 73 => ⟨S327680x1, .i32⟩
  | 74 => ⟨S327680, .f32⟩
  | 75 => ⟨S327680, .f32⟩
  | 76 => ⟨S327680x1, .f32⟩
  | 77 => ⟨S196608x64, .f32⟩
  | 78 => ⟨S196608x64, .f32⟩
  | 79 => ⟨S_, .i32⟩
  | 80 => ⟨S327680, .i32⟩
  | 81 => ⟨S327680, .i1⟩
  | 82 => ⟨S_, .i32⟩
  | 83 => ⟨S327680, .i32⟩
  | 84 => ⟨S327680, .i32⟩
  | 85 => ⟨S327680, .i32⟩
  | 86 => ⟨S327680x1, .i32⟩
  | 87 => ⟨S327680x64, .f32⟩
  | 88 => ⟨S327680x64, .f32⟩
  | 89 => ⟨S327680x64, .f32⟩
  | 90 => ⟨S_, .f32⟩
  | 91 => ⟨S196608x64, .f32⟩
  | 92 => ⟨S327680x1, .i32⟩
  | 93 => ⟨S196608x64, .f32⟩
  | 94 => ⟨S1x64, .f32⟩
  | 95 => ⟨S196608x64, .f32⟩
  | 96 => ⟨S196608x64, .f32⟩
  | 97 => ⟨S_, .f32⟩
  | 98 => ⟨S196608x64, .f32⟩
  | 99 => ⟨S196608x64, .f32⟩
  | 100 => ⟨S196608x64, .f32⟩
  | 101 => ⟨S_, .i32⟩
  | 102 => ⟨S327680, .i32⟩
  | 103 => ⟨S327680, .i1⟩
  | 104 => ⟨S_, .i32⟩
  | 105 => ⟨S327680, .i32⟩
  | 106 => ⟨S327680, .i32⟩
  | 107 => ⟨S327680, .i32⟩
  | 108 => ⟨S327680x1, .i32⟩
  | 109 => ⟨S327680x64, .f32⟩
  | 110 => ⟨S327680x64, .f32⟩
  | 111 => ⟨S327680x64, .f32⟩
  | 112 => ⟨S_, .f32⟩
  | 113 => ⟨S196608x64, .f32⟩
  | 114 => ⟨S327680x1, .i32⟩
  | 115 => ⟨S196608x64, .f32⟩
  | 116 => ⟨S1x64, .f32⟩
  | 117 => ⟨S196608x64, .f32⟩
  | 118 => ⟨S196608x64, .f32⟩
  | 119 => ⟨S65536x64, .f32⟩
  | 120 => ⟨S65536x64, .f32⟩
  | 121 => ⟨S65536x64, .f32⟩
  | 122 => ⟨S65536x64, .f32⟩
  | 123 => ⟨S_, .f32⟩
  | 124 => ⟨S65536, .f32⟩
  | 125 => ⟨S65536x1, .f32⟩
  | 126 => ⟨S65536x64, .f32⟩
  | 127 => ⟨S_, .f32⟩
  | _ => ⟨S65536, .i32⟩

abbrev hbmTy0_1 (i : Nat) : BufTy := match i % 128 with
  | 0 => ⟨S65536, .f32⟩
  | 1 => ⟨S65536x1, .f32⟩
  | 2 => ⟨S65536x128, .f32⟩
  | _ => ⟨S65536, .i32⟩

abbrev hbmTy (i : Nat) : BufTy := match i / 128 with
  | 0 => hbmTy0_0 i
  | 1 => hbmTy0_1 i
  | _ => ⟨S65536, .i32⟩

abbrev bufTy : (tb : Table) → Fin (tcTables nBuf tb) → BufTy
  | .hbm, ⟨i, _⟩ => hbmTy i
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_call0_v0 : Ref sig .tc := ⟨.hbm, 54, rfl⟩
abbrev main_call0_v1 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_13 : Ref sig .tc := ⟨.hbm, 79, rfl⟩
abbrev main_v53 : Ref sig .tc := ⟨.hbm, 80, rfl⟩
abbrev main_v54 : Ref sig .tc := ⟨.hbm, 81, rfl⟩
abbrev main_c_14 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_15 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call1_cst : Ref sig .tc := ⟨.hbm, 97, rfl⟩
abbrev main_call1_v0 : Ref sig .tc := ⟨.hbm, 98, rfl⟩
abbrev main_v68 : Ref sig .tc := ⟨.hbm, 99, rfl⟩
abbrev main_v69 : Ref sig .tc := ⟨.hbm, 100, rfl⟩
abbrev main_c_16 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_20 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  concatenates_S65536_S65536_S196608_S327680_d0 : Shape.Concatenates [S65536, S65536, S196608] S327680 0
  bcast_S_S327680 : S_.BroadcastsInDim S327680 (![] : Fin 0 → Fin S327680.rank)
  bcast_S_S196608 : S_.BroadcastsInDim S196608 (![] : Fin 0 → Fin S196608.rank)
  bcast_S327680_S327680x1_0 : S327680.BroadcastsInDim S327680x1 (![0] : Fin 1 → Fin S327680x1.rank)
  concatenates_S65536x64_S65536x64_S65536x64_S196608x64_d0 : Shape.Concatenates [S65536x64, S65536x64, S65536x64] S196608x64 0
  bcast_S327680x1_S327680x64_0_1 : S327680x1.BroadcastsInDim S327680x64 (![0, 1] : Fin 2 → Fin S327680x64.rank)
  bcast_S_S196608x64 : S_.BroadcastsInDim S196608x64 (![] : Fin 0 → Fin S196608x64.rank)
  bcast_S64_S1x64_1 : S64.BroadcastsInDim S1x64 (![1] : Fin 1 → Fin S1x64.rank)
  bcast_S1x64_S196608x64_0_1 : S1x64.BroadcastsInDim S196608x64 (![0, 1] : Fin 2 → Fin S196608x64.rank)
  slices_S196608x64_S65536x64_0_0 : S196608x64.Slices ![0, 0] S65536x64
  slices_S196608x64_S65536x64_65536_0 : S196608x64.Slices ![65536, 0] S65536x64
  slices_S196608x64_S65536x64_131072_0 : S196608x64.Slices ![131072, 0] S65536x64
  reducesTo_S65536x64_S65536_d1 : S65536x64.ReducesTo [1] S65536
  h_S_ : 0 < S_.numel
  concatenates_S65536x64_S65536x64_S65536x128_d1 : Shape.Concatenates [S65536x64, S65536x64] S65536x128 1
  gather_S1000000x64_S65536x1_S65536x64_1_0_n_n_0_1_164_wf : GatherDims.WF S1000000x64 S65536x1 S65536x64 [1] [0] [] [0] [] 1 ![1, 64]
  scatter_S196608_S327680x1_S327680_n_0_0_1_wf : ScatterDims.WF S196608 S327680x1 S327680 [] [0] [0] 1
  gather_S196608_S327680x1_S327680_n_0_n_n_0_1_1_wf : GatherDims.WF S196608 S327680x1 S327680 [] [0] [] [0] [] 1 ![1]
  dot_S196608x64_S64x64_S196608x64_1_0_0_1_n_n_wf : DotDims.WF S196608x64 S64x64 S196608x64 [1] [0] [0] [1] [] []
  gather_S196608x64_S327680x1_S327680x64_1_0_n_n_0_1_164_wf : GatherDims.WF S196608x64 S327680x1 S327680x64 [1] [0] [] [0] [] 1 ![1, 64]
  scatter_S196608x64_S327680x1_S327680x64_1_0_0_1_wf : ScatterDims.WF S196608x64 S327680x1 S327680x64 [1] [0] [0] 1

variable [Facts₀]

def gather_S1000000x64_S65536x1_S65536x64_1_0_n_n_0_1_164 : GatherDims S1000000x64 S65536x1 S65536x64 where
  offsetDims := [1]
  collapsedSliceDims := [0]
  operandBatchingDims := []
  startIndicesBatchingDims := []
  startIndexMap := [0]
  indexVectorDim := 1
  sliceSizes := ![1, 64]
  wf := gather_S1000000x64_S65536x1_S65536x64_1_0_n_n_0_1_164_wf
def scatter_S196608_S327680x1_S327680_n_0_0_1 : ScatterDims S196608 S327680x1 S327680 where
  updateWindowDims := []
  insertedWindowDims := [0]
  scatterDimsToOperandDims := [0]
  indexVectorDim := 1
  wf := scatter_S196608_S327680x1_S327680_n_0_0_1_wf
def gather_S196608_S327680x1_S327680_n_0_n_n_0_1_1 : GatherDims S196608 S327680x1 S327680 where
  offsetDims := []
  collapsedSliceDims := [0]
  operandBatchingDims := []
  startIndicesBatchingDims := []
  startIndexMap := [0]
  indexVectorDim := 1
  sliceSizes := ![1]
  wf := gather_S196608_S327680x1_S327680_n_0_n_n_0_1_1_wf
def dot_S196608x64_S64x64_S196608x64_1_0_0_1_n_n : DotDims S196608x64 S64x64 S196608x64 where
  lhsContracting := [1]
  rhsContracting := [0]
  lhsNonContracting := [0]
  rhsNonContracting := [1]
  lhsBatch := []
  rhsBatch := []
  wf := dot_S196608x64_S64x64_S196608x64_1_0_0_1_n_n_wf
def gather_S196608x64_S327680x1_S327680x64_1_0_n_n_0_1_164 : GatherDims S196608x64 S327680x1 S327680x64 where
  offsetDims := [1]
  collapsedSliceDims := [0]
  operandBatchingDims := []
  startIndicesBatchingDims := []
  startIndexMap := [0]
  indexVectorDim := 1
  sliceSizes := ![1, 64]
  wf := gather_S196608x64_S327680x1_S327680x64_1_0_n_n_0_1_164_wf
def scatter_S196608x64_S327680x1_S327680x64_1_0_0_1 : ScatterDims S196608x64 S327680x1 S327680x64 where
  updateWindowDims := [1]
  insertedWindowDims := [0]
  scatterDimsToOperandDims := [0]
  indexVectorDim := 1
  wf := scatter_S196608x64_S327680x1_S327680x64_1_0_0_1_wf

class Facts : Prop extends Facts₀ where

variable [Facts]
-- ==== Proof.Graph.lean ====
/-
  The graph of the convolution: 3·B nodes (B = 65536: users, their positive items, negative items) and 5·B edges, listed
  as the reference lists them — B edges user → positive item, B edges positive item → user, then one self-loop per node.
  Edge `k` goes from node `srcN k` to node `dstN k`. The edges INTO a node are: for a user `n`, the edge from its positive
  item (`n + B`) and its self-loop (`n + 2B`); for a positive item `n`, the edge from its user (`n − B`) and its self-loop;
  for a negative item only its self-loop.
-/
import Idealize.ShloMosaic.Lib.ValueIdx

noncomputable section

namespace Cert.Gcn

open Idealize.ShloMosaic
open scoped BigOperators

/-- The node edge `k` starts from. -/
def srcN (k : Fin 327680) : ℕ := if k.val < 131072 then k.val else k.val - 131072

/-- The node edge `k` goes into. -/
def dstN (k : Fin 327680) : ℕ :=
  if k.val < 65536 then k.val + 65536 else if k.val < 131072 then k.val - 65536 else k.val - 131072

theorem srcN_lt (k : Fin 327680) : srcN k < 196608 := by
  unfold srcN; split <;> omega

theorem dstN_lt (k : Fin 327680) : dstN k < 196608 := by
  unfold dstN; split
  · omega
  · split <;> omega

/-- A sum over the edges into node `n`: the cross edge first, then the self-loop. -/
theorem sum_into {M : Type*} [AddCommMonoid M] (f : Fin 327680 → M) (n : Fin 196608) :
    ∑ k ∈ Finset.univ.filter (fun k : Fin 327680 => (dstN k : ℤ) = (n.val : ℤ)), f k =
      if h : n.val < 65536 then f ⟨n.val + 65536, by omega⟩ + f ⟨n.val + 131072, by omega⟩
      else if h2 : n.val < 131072 then f ⟨n.val - 65536, by omega⟩ + f ⟨n.val + 131072, by omega⟩
      else f ⟨n.val + 131072, by omega⟩ := by
  obtain ⟨n, hn⟩ := n
  simp only [Nat.cast_inj]
  by_cases h : n < 65536
  · -- a user: the edge from its positive item and its self-loop
    rw [dif_pos h]
    have hset : Finset.univ.filter (fun k : Fin 327680 => dstN k = n)
        = {(⟨n + 65536, by omega⟩ : Fin 327680), ⟨n + 131072, by omega⟩} := by
      ext k
      have hk := k.isLt
      simp only [Finset.mem_filter, Finset.mem_univ, true_and, Finset.mem_insert, Finset.mem_singleton, Fin.ext_iff]
      unfold dstN
      split_ifs <;> omega
    rw [hset, Finset.sum_pair (by simp only [ne_eq, Fin.ext_iff]; omega)]
  · rw [dif_neg h]
    by_cases h2 : n < 131072
    · -- a positive item: the edge from its user and its self-loop
      rw [dif_pos h2]
      have hset : Finset.univ.filter (fun k : Fin 327680 => dstN k = n)
          = {(⟨n - 65536, by omega⟩ : Fin 327680), ⟨n + 131072, by omega⟩} := by
        ext k
        have hk := k.isLt
        simp only [Finset.mem_filter, Finset.mem_univ, true_and, Finset.mem_insert, Finset.mem_singleton, Fin.ext_iff]
        unfold dstN
        split_ifs <;> omega
      rw [hset, Finset.sum_pair (by simp only [ne_eq, Fin.ext_iff]; omega)]
    · -- a negative item: only its self-loop
      rw [dif_neg h2]
      have hset : Finset.univ.filter (fun k : Fin 327680 => dstN k = n)
          = {(⟨n + 131072, by omega⟩ : Fin 327680)} := by
        ext k
        have hk := k.isLt
        simp only [Finset.mem_filter, Finset.mem_univ, true_and, Finset.mem_singleton, Fin.ext_iff]
        unfold dstN
        split_ifs <;> omega
      rw [hset, Finset.sum_singleton]

end Cert.Gcn

end
-- ==== Proof.RefIndex.lean ====
/-
  The reference's edge lists, read at an index.

  The source list is `[0..B) ++ [B..2B) ++ [0..3B)` and the target list `[B..2B) ++ [0..B) ++ [0..3B)` (B = 65536), both
  as 32-bit words: entry `k`, read signed, is `srcN k` and `dstN k`. Every entry is non-negative, so numpy's wrap of
  negative indices (add 3B where negative), which the reference applies before each gather, changes nothing.
-/
import proofs.«412559_j43920335569005_3_alg».proof.Proof.RefVals
import proofs.«412559_j43920335569005_3_alg».proof.Proof.Graph
import Idealize.ShloMosaic.Lib.Pipeline.Value

noncomputable section

namespace Cert.ReferenceIdeal.RV

open Cert.ReferenceIdeal Cert.ReferenceIdeal.Gen Cert.ReferenceIdeal.ReadP Idealize.ShloMosaic Idealize.ShloMosaic.ValueIdx
open scoped BigOperators

/-- Three pieces of 65536, 65536 and 196608 entries laid end to end, read at entry `k`: the piece whose span holds `k`,
    at `k` less the extents before it. -/
private theorem cat3_apply {α : Type} (x0 x1 : S65536.Idx → α) (x2 : S196608.Idx → α) (k : Fin 327680) :
    concatenate S327680 0 [⟨S65536, x0⟩, ⟨S65536, x1⟩, ⟨S196608, x2⟩] concatenates_S65536_S65536_S196608_S327680_d0 (ix1 k)
      = if h : k.val < 65536 then x0 (ix1 ⟨k.val, h⟩)
        else if h2 : k.val < 131072 then x1 (ix1 ⟨k.val - 65536, by omega⟩)
        else x2 (ix1 ⟨k.val - 131072, by have := k.isLt; omega⟩) := by
  have hk := k.isLt
  have hoff : ∀ (s₁ : Shape) (hr : s₁.rank = S327680.rank) (b : Fin s₁.rank), b.cast hr ≠ (0 : Fin 1) → False := by
    intro s₁ hr b hb
    have hb1 : (b.cast hr).val < 1 := (b.cast hr).isLt
    exact hb (Fin.ext (by show (b.cast hr).val = 0; omega))
  by_cases h : k.val < 65536
  · rw [dif_pos h]
    exact concatenate_apply_piece (t := S327680) (0 : Fin 1) ([⟨S65536, x0⟩, ⟨S65536, x1⟩, ⟨S196608, x2⟩] : List ((s : Shape) × (s.Idx → α)))
      concatenates_S65536_S65536_S196608_S327680_d0 (ix1 k) 0 (show 0 < 3 by omega)
      S65536 x0 rfl rfl 0 rfl (ix1 ⟨k.val, h⟩) (fun b hb => (hoff _ rfl b hb).elim) (by show 0 + k.val = k.val; omega)
  · rw [dif_neg h]
    by_cases h2 : k.val < 131072
    · rw [dif_pos h2]
      exact concatenate_apply_piece (t := S327680) (0 : Fin 1) ([⟨S65536, x0⟩, ⟨S65536, x1⟩, ⟨S196608, x2⟩] : List ((s : Shape) × (s.Idx → α)))
        concatenates_S65536_S65536_S196608_S327680_d0 (ix1 k) 1 (show 1 < 3 by omega)
        S65536 x1 rfl rfl 65536 rfl (ix1 ⟨k.val - 65536, by omega⟩) (fun b hb => (hoff _ rfl b hb).elim)
        (by show 65536 + (k.val - 65536) = k.val; omega)
    · rw [dif_neg h2]
      exact concatenate_apply_piece (t := S327680) (0 : Fin 1) ([⟨S65536, x0⟩, ⟨S65536, x1⟩, ⟨S196608, x2⟩] : List ((s : Shape) × (s.Idx → α)))
        concatenates_S65536_S65536_S196608_S327680_d0 (ix1 k) 2 (show 2 < 3 by omega)
        S196608 x2 rfl rfl 131072 rfl (ix1 ⟨k.val - 131072, by omega⟩) (fun b hb => (hoff _ rfl b hb).elim)
        (by show 131072 + (k.val - 131072) = k.val; omega)

/-- A 32-bit word whose unsigned value is below 2³¹ reads the same signed. -/
private theorem toInt_of_toNat {x : BitVec 32} {n : Nat} (h : x.toNat = n) (hn : n < 2147483648) : x.toInt = (n : ℤ) := by
  rw [BitVec.toInt_eq_toNat_of_lt (by omega), h]

/-- Entry `j` of a count from zero, read signed. -/
private theorem iota_toInt (n : Nat) (hn : n < 2147483648) : (BitVec.ofNat 32 n).toInt = (n : ℤ) :=
  toInt_of_toNat (by rw [BitVec.toNat_ofNat]; omega) hn

/-- Entry `j` of a count from zero shifted by 65536, read signed. -/
private theorem shifted_toInt (n : Nat) (hn : n < 65536) :
    (IntOp.addi (BitVec.ofNat 32 n) 65536#32).toInt = ((n + 65536 : ℕ) : ℤ) :=
  toInt_of_toNat (by unfold IntOp.addi; rw [BitVec.toNat_add, BitVec.toNat_ofNat]; simp only [BitVec.toNat_ofNat]; omega) (by omega)

/-- Entry `k` of the source list. -/
theorem v25_toInt (k : Fin 327680) : (val_main_v25 (F := Ideal) (ix1 k)).toInt = (Cert.Gcn.srcN k : ℤ) := by
  have hk := k.isLt
  unfold val_main_v25
  rw [cat3_apply]
  unfold Cert.Gcn.srcN
  by_cases h : k.val < 65536
  · rw [dif_pos h, if_pos (by omega), val_main_v21_apply]
    exact iota_toInt _ (by show k.val < _; omega)
  · rw [dif_neg h]
    by_cases h2 : k.val < 131072
    · rw [dif_pos h2, if_pos h2, val_main_v23_apply, val_main_v21_apply, val_main_v22_apply, val_main_c_5_apply]
      rw [shifted_toInt _ (by show k.val - 65536 < _; omega)]
      show ((k.val - 65536 + 65536 : ℕ) : ℤ) = _
      congr 1; omega
    · rw [dif_neg h2, if_neg h2, val_main_v24_apply]
      exact iota_toInt _ (by show k.val - 131072 < _; omega)

/-- Entry `k` of the target list. -/
theorem v26_toInt (k : Fin 327680) : (val_main_v26 (F := Ideal) (ix1 k)).toInt = (Cert.Gcn.dstN k : ℤ) := by
  have hk := k.isLt
  unfold val_main_v26
  rw [cat3_apply]
  unfold Cert.Gcn.dstN
  by_cases h : k.val < 65536
  · rw [dif_pos h, if_pos h, val_main_v23_apply, val_main_v21_apply, val_main_v22_apply, val_main_c_5_apply]
    exact shifted_toInt _ (by show k.val < _; omega)
  · rw [dif_neg h, if_neg h]
    by_cases h2 : k.val < 131072
    · rw [dif_pos h2, if_pos h2, val_main_v21_apply]
      exact iota_toInt _ (by show k.val - 65536 < _; omega)
    · rw [dif_neg h2, if_neg h2, val_main_v24_apply]
      exact iota_toInt _ (by show k.val - 131072 < _; omega)

/-- A word that is non-negative read signed is not below zero: the signed comparison with zero gives the bit 0. -/
private theorem slt_zero_of_nonneg {x : BitVec 32} (h : 0 ≤ x.toInt) : IntOp.cmpi .slt x 0#32 = 0#1 := by
  unfold IntOp.cmpi
  have : x.slt 0#32 = false := by
    rw [BitVec.slt, decide_eq_false_iff_not]
    simp only [BitVec.toInt_zero]; omega
  simp only [this]; rfl

/-- The wrapped source list is the source list (three uses) and the wrapped target list the target list. -/
theorem v39_eq : val_main_v39 (F := Ideal) = val_main_v25 (F := Ideal) := by
  funext i
  obtain ⟨k, rfl⟩ : ∃ k, i = ix1 k := ⟨i 0, eq_ix1 i⟩
  rw [val_main_v39_apply, val_main_v36_apply, val_main_v35_apply, val_main_c_9_apply,
    slt_zero_of_nonneg (by rw [v25_toInt]; exact Int.natCast_nonneg _)]
  exact select_zero _ _

theorem v46_eq : val_main_v46 (F := Ideal) = val_main_v26 (F := Ideal) := by
  funext i
  obtain ⟨k, rfl⟩ : ∃ k, i = ix1 k := ⟨i 0, eq_ix1 i⟩
  rw [val_main_v46_apply, val_main_v43_apply, val_main_v42_apply, val_main_c_11_apply,
    slt_zero_of_nonneg (by rw [v26_toInt]; exact Int.natCast_nonneg _)]
  exact select_zero _ _

theorem v57_eq : val_main_v57 (F := Ideal) = val_main_v25 (F := Ideal) := by
  funext i
  obtain ⟨k, rfl⟩ : ∃ k, i = ix1 k := ⟨i 0, eq_ix1 i⟩
  rw [val_main_v57_apply, val_main_v54_apply, val_main_v53_apply, val_main_c_13_apply,
    slt_zero_of_nonneg (by rw [v25_toInt]; exact Int.natCast_nonneg _)]
  exact select_zero _ _

theorem v74_eq : val_main_v74 (F := Ideal) = val_main_v25 (F := Ideal) := by
  funext i
  obtain ⟨k, rfl⟩ : ∃ k, i = ix1 k := ⟨i 0, eq_ix1 i⟩
  rw [val_main_v74_apply, val_main_v71_apply, val_main_v70_apply, val_main_c_16_apply,
    slt_zero_of_nonneg (by rw [v25_toInt]; exact Int.natCast_nonneg _)]
  exact select_zero _ _

end Cert.ReferenceIdeal.RV

end
-- ==== Proof.Spec.lean ====
/-
  What both programs compute, row by row.

  Every output row `r` depends on three embedding rows (the user's, the positive item's, the negative item's) and the
  two small weight matrices and biases. With `lin x W c = ∑ k, x k · W[k, c]`:

    x1U = max (½ · (lin eU W1 + lin eP W1) + b1) 0      (the user and its positive item share this row)
    x1N = max (lin eN W1 + b1) 0
    uu  = lin x1U W2 + b2                               (again shared by the user and its positive item)
    ng  = lin x1N W2 + b2

  and the four results are `∑ c, uu c · uu c`, `∑ c, uu c · ng c`, the row `uu ++ ng` and the row `uu`.
  The graph convolution of the reference reduces to these rows because node `i` and node `i + B` are joined by one edge
  in each direction and every node carries a self-loop: the two neighbours' degrees are 2, the third block's are 1, so
  every message into the first two blocks is weighted `rsqrt 2 · rsqrt 2 = ½` and the self-loop of the third block `1`.
  All values are extended reals; the laws used (`½ · (a + b) = a · ½ + b · ½`, `a · ½ + a · ½ = a`) hold on all of them,
  infinities included, so finiteness of the inputs is never used.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx
open scoped BigOperators

/-- The index vectors' shape, the embedding tables', the weight matrices' and the biases'. -/
abbrev SIdx : Shape := ⟨1, ![65536]⟩
abbrev STbl : Shape := ⟨2, ![1000000, 64]⟩
abbrev SW : Shape := ⟨2, ![64, 64]⟩
abbrev SB : Shape := ⟨1, ![64]⟩

/-- The literal one half both the kernel's body spells, and zero, as their bit patterns denote them. -/
def half : EReal := Ideal.ofBits .f32 0x3F000000#32
def zero : EReal := Ideal.ofBits .f32 0x00000000#32

/-- A negative index counts from the end of an axis of extent 1000000: both programs print this wrap. -/
def wrapIdx (v : BitVec 32) : BitVec 32 :=
  Scalar.select (IntOp.cmpi .slt v 0#32) (IntOp.addi v 1000000#32) v

/-- The table row that entry `r` of an index vector selects: wrapped, read signed, clamped into the table. -/
def rowOf (idx : SIdx.Idx → BitVec 32) (r : Fin 65536) : Fin 1000000 :=
  ⟨min (wrapIdx (idx (ix1 r))).toInt.toNat 999999, by omega⟩

/-- Row `r` of the gathered embedding. -/
def embRow (tbl : STbl.Idx → EReal) (idx : SIdx.Idx → BitVec 32) (r : Fin 65536) : Fin 64 → EReal :=
  fun k => tbl (ix2 (rowOf idx r) k)

/-- A bias vector as a function of the column. -/
def biasRow (b : SB.Idx → EReal) : Fin 64 → EReal := fun k => b (ix1 k)

/-- One row times a 64 × 64 matrix. -/
def lin (x : Fin 64 → EReal) (W : SW.Idx → EReal) (c : Fin 64) : EReal := ∑ k : Fin 64, x k * W (ix2 k c)

def x1U (eU eP : Fin 64 → EReal) (W1 : SW.Idx → EReal) (b1 : Fin 64 → EReal) (c : Fin 64) : EReal :=
  max (half * (lin eU W1 c + lin eP W1 c) + b1 c) zero

def x1N (eN : Fin 64 → EReal) (W1 : SW.Idx → EReal) (b1 : Fin 64 → EReal) (c : Fin 64) : EReal :=
  max (lin eN W1 c + b1 c) zero

def uu (eU eP : Fin 64 → EReal) (W1 : SW.Idx → EReal) (b1 : Fin 64 → EReal) (W2 : SW.Idx → EReal) (b2 : Fin 64 → EReal)
    (c : Fin 64) : EReal :=
  lin (x1U eU eP W1 b1) W2 c + b2 c

def ng (eN : Fin 64 → EReal) (W1 : SW.Idx → EReal) (b1 : Fin 64 → EReal) (W2 : SW.Idx → EReal) (b2 : Fin 64 → EReal)
    (c : Fin 64) : EReal :=
  lin (x1N eN W1 b1) W2 c + b2 c

/-- The two scores of a row. -/
def posScore (u : Fin 64 → EReal) : EReal := ∑ c : Fin 64, u c * u c
def negScore (u n : Fin 64 → EReal) : EReal := ∑ c : Fin 64, u c * n c

/-- The row `u ++ n` of 128 entries. -/
def catRow (u n : Fin 64 → EReal) (c : Fin 128) : EReal :=
  if h : c.val < 64 then u ⟨c.val, h⟩ else n ⟨c.val - 64, by omega⟩

/-! ## The four result arrays as functions of the nine argument arrays -/

section Arrays
variable (user pos neg : SIdx.Idx → BitVec 32) (tblU tblI : STbl.Idx → EReal) (W1 : SW.Idx → EReal) (b1 : SB.Idx → EReal)
  (W2 : SW.Idx → EReal) (b2 : SB.Idx → EReal)

/-- Row `r` of `u` (and of `pos`, which is the same row). -/
def uRow (r : Fin 65536) : Fin 64 → EReal :=
  uu (embRow tblU user r) (embRow tblI pos r) W1 (biasRow b1) W2 (biasRow b2)

/-- Row `r` of `neg`. -/
def nRow (r : Fin 65536) : Fin 64 → EReal :=
  ng (embRow tblI neg r) W1 (biasRow b1) W2 (biasRow b2)

def outPos : (⟨2, ![65536, 1]⟩ : Shape).Idx → EReal := fun j =>
  posScore (uRow user pos tblU tblI W1 b1 W2 b2 ⟨(j 0).val, idx2_lt0 j⟩)

def outNeg : (⟨2, ![65536, 1]⟩ : Shape).Idx → EReal := fun j =>
  negScore (uRow user pos tblU tblI W1 b1 W2 b2 ⟨(j 0).val, idx2_lt0 j⟩) (nRow neg tblI W1 b1 W2 b2 ⟨(j 0).val, idx2_lt0 j⟩)

def outCat : (⟨2, ![65536, 128]⟩ : Shape).Idx → EReal := fun j =>
  catRow (uRow user pos tblU tblI W1 b1 W2 b2 ⟨(j 0).val, idx2_lt0 j⟩) (nRow neg tblI W1 b1 W2 b2 ⟨(j 0).val, idx2_lt0 j⟩)
    ⟨(j 1).val, idx2_lt1 j⟩

def outU : (⟨2, ![65536, 64]⟩ : Shape).Idx → EReal := fun j =>
  uRow user pos tblU tblI W1 b1 W2 b2 ⟨(j 0).val, idx2_lt0 j⟩ ⟨(j 1).val, idx2_lt1 j⟩

end Arrays

/-! ## The convolution's weights and aggregate

Nodes are numbered users, positive items, negative items (65536 each); edges: user → positive item, positive item → user,
then one self-loop per node (5 · 65536 in all). -/

/-- The weight of edge `k`: one half on every edge that touches the first two blocks, one on a negative item's self-loop. -/
def normW (k : Fin 327680) : EReal := if k.val < 262144 then half else 1

/-- The convolution's aggregate at node `n` of a per-node value `g` (one column of the transformed features): from
    zero, the weighted messages over the edges into `n`, the edge from the partner node first, then the self-loop. -/
def aggr (g : Fin 196608 → EReal) (n : Fin 196608) : EReal :=
  if h : n.val < 65536 then zero + (g ⟨n.val + 65536, by omega⟩ * half + g n * half)
  else if h2 : n.val < 131072 then zero + (g ⟨n.val - 65536, by omega⟩ * half + g n * half)
  else zero + g n * 1

/-! ## The constants and the two laws -/

theorem zero_eq : zero = 0 := by unfold zero; exact Ideal.ofBits_zero_f32

theorem half_eq : half = ((1 / 2 : ℝ) : EReal) := by
  unfold half
  simp [Ideal.ofBits, Ideal.ieee, -EReal.coe_mul]; norm_num

/-- One half distributes over a sum of any two extended reals. -/
theorem half_nonneg : (0 : EReal) ≤ half := by
  rw [half_eq]; exact_mod_cast (by norm_num : (0 : ℝ) ≤ 1 / 2)

theorem half_ne_top : half ≠ ⊤ := by rw [half_eq]; exact EReal.coe_ne_top _

theorem half_mul_add (a b : EReal) : half * (a + b) = a * half + b * half := by
  rw [EReal.left_distrib_of_nonneg_of_ne_top half_nonneg half_ne_top, mul_comm half a, mul_comm half b]

/-- Two halves of one extended real make it. -/
theorem half_add_half (a : EReal) : a * half + a * half = a := by
  rw [← EReal.left_distrib_of_nonneg half_nonneg half_nonneg]
  have h : half + half = 1 := by
    rw [half_eq, ← EReal.coe_add]; norm_num
  rw [h, mul_one]

end Cert.Gcn

end
-- ==== Proof.LibRowGather.lean ====
/-
  A ROW GATHER read at an index (general in the extents).

  `x[idx]` of a matrix `x : [N, C]` at an index column `idx : [R, 1]` lowers to a gather with offset_dims [1],
  collapsed_slice_dims [0], start_index_map [0], index_vector_dim 1 and slice sizes [1, C]: row `r` of the result is the
  row of `x` whose number is `idx[r, 0]` read as a signed integer and clamped into [0, N − 1]. The same for a vector
  `x : [N]` (offset_dims [], slice sizes [1]): entry `r` of the result is the entry of `x` at that clamped number.
  The dimension numbers are taken as hypotheses on the record's fields, so the lemmas apply to any printed record.
-/
import Idealize.ShloMosaic.Lib.ValueIdx

noncomputable section

namespace Cert.RowGather

open Idealize.ShloMosaic Idealize.ShloMosaic.ValueIdx

variable {α : Type}

/-- Row `r`, column `c` of a row gather: the operand at the clamped row `idx[r, 0]`, column `c`. -/
theorem gather_rows_apply {N R C w : Nat} (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) (hN : 0 < N)
    (x : (⟨2, ![N, C]⟩ : Shape).Idx → α) (idx : IVec ⟨2, ![R, 1]⟩ w) (r : Fin R) (c : Fin C) :
    Host.gather d x idx (ix2 r c)
      = x (ix2 ⟨min (idx (ix2 r ⟨0, Nat.one_pos⟩)).toInt.toNat (N - 1), by omega⟩ c) := by
  -- the record's fields become the stated lists and numbers
  obtain ⟨od, cd, ob, sb, sm, iv, ss, wf⟩ := d
  simp only at hod hcd hob hsb hsm hiv hss
  subst hod hcd hob hsb hsm hiv hss
  -- the gather reads the operand at the operand index: compare the two indices axis by axis
  unfold Host.gather
  congr 1
  funext a
  refine Fin.ext ?_
  match a with
  | ⟨0, _⟩ =>
    -- axis 0 is collapsed and mapped: no batching or offset part, the start is idx[r, 0] clamped into [0, N - 1]
    show GatherDims.start _ _ _ 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    have hmem : (0 : Fin 2) ∈ ([0] : List (Fin 2)) := List.mem_singleton.mpr rfl
    rw [dif_pos (show (0 : Fin 2) ∈ (GatherDims.mk (s := ⟨2, ![N, C]⟩) (si := ⟨2, ![R, 1]⟩) (t := ⟨2, ![R, C]⟩)
      [1] [0] [] [] [0] 1 ![1, C] wf).startIndexMap from hmem)]
    have hsi : (GatherDims.mk (s := ⟨2, ![N, C]⟩) (si := ⟨2, ![R, 1]⟩) (t := ⟨2, ![R, C]⟩)
        [1] [0] [] [] [0] 1 ![1, C] wf).siIdx (ix2 r c) ⟨List.idxOf (0 : Fin 2) [0],
          List.idxOf_lt_length_iff.2 hmem⟩ = ix2 r ⟨0, Nat.one_pos⟩ := by
      funext b; refine Fin.ext ?_
      match b with
      | ⟨0, _⟩ => rfl
      | ⟨1, _⟩ => rfl
    rw [hsi]
    rfl
  | ⟨1, _⟩ =>
    -- axis 1 is the one offset axis and is not mapped: start 0, no batching part, the offset is the result's column
    show GatherDims.start _ _ _ 1 + GatherDims.batchCoord _ _ 1 + GatherDims.offCoord _ _ 1 = _
    rw [GatherDims.batchCoord_eq_zero _ _ _ List.not_mem_nil]
    have hnm : (1 : Fin 2) ∉ ([0] : List (Fin 2)) := by decide
    have hst : (GatherDims.mk (s := ⟨2, ![N, C]⟩) (si := ⟨2, ![R, 1]⟩) (t := ⟨2, ![R, C]⟩)
        [1] [0] [] [] [0] 1 ![1, C] wf).start (ix2 r c) idx 1 = 0 := by
      unfold GatherDims.start; exact dif_neg hnm
    rw [hst, Nat.add_zero, Nat.zero_add]
    unfold GatherDims.offCoord
    rw [dif_pos ((GatherDims.mem_sKept _ _).mpr ⟨hnm, List.not_mem_nil⟩)]
    rfl

/-- Entry `r` of a gather of single entries of a vector: the operand at the clamped position `idx[r, 0]`. -/
theorem gather_elems_apply {N R w : Nat} (d : GatherDims ⟨1, ![N]⟩ ⟨2, ![R, 1]⟩ ⟨1, ![R]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1]) (hN : 0 < N)
    (x : (⟨1, ![N]⟩ : Shape).Idx → α) (idx : IVec ⟨2, ![R, 1]⟩ w) (r : Fin R) :
    Host.gather d x idx (ix1 r)
      = x (ix1 ⟨min (idx (ix2 r ⟨0, Nat.one_pos⟩)).toInt.toNat (N - 1), by omega⟩) := by
  -- the record's fields become the stated lists and numbers
  obtain ⟨od, cd, ob, sb, sm, iv, ss, wf⟩ := d
  simp only at hod hcd hob hsb hsm hiv hss
  subst hod hcd hob hsb hsm hiv hss
  -- the one operand axis is collapsed and mapped: no batching or offset part, the start is idx[r, 0] clamped into [0, N - 1]
  unfold Host.gather
  congr 1
  funext a
  obtain rfl : a = 0 := Subsingleton.elim _ _
  refine Fin.ext ?_
  show GatherDims.start _ _ _ 0 + GatherDims.batchCoord _ _ 0 + GatherDims.offCoord _ _ 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  have hmem : (0 : Fin 1) ∈ ([0] : List (Fin 1)) := List.mem_singleton.mpr rfl
  rw [dif_pos (show (0 : Fin 1) ∈ (GatherDims.mk (s := ⟨1, ![N]⟩) (si := ⟨2, ![R, 1]⟩) (t := ⟨1, ![R]⟩)
    [] [0] [] [] [0] 1 ![1] wf).startIndexMap from hmem)]
  have hsi : (GatherDims.mk (s := ⟨1, ![N]⟩) (si := ⟨2, ![R, 1]⟩) (t := ⟨1, ![R]⟩)
      [] [0] [] [] [0] 1 ![1] wf).siIdx (ix1 r) ⟨List.idxOf (0 : Fin 1) [0],
        List.idxOf_lt_length_iff.2 hmem⟩ = ix2 r ⟨0, Nat.one_pos⟩ := by
    funext b; refine Fin.ext ?_
    match b with
    | ⟨0, _⟩ => rfl
    | ⟨1, _⟩ => rfl
  rw [hsi]
  rfl

end Cert.RowGather

end
-- ==== Proof.LibRowScatterAdd.lean ====
/-
  An ACCUMULATING ROW SCATTER read at an index, at the ideal values (general in the extents).

  `x.at[idx].add(upd)` for a matrix `x : [N, C]`, an index column `idx : [R, 1]` and updates `upd : [R, C]` lowers to a
  scatter with update_window_dims [1], inserted_window_dims [0], scatter_dims_to_operand_dims [0], index_vector_dim 1
  and an `add` body. At the ideal values its entry `(n, c)` is the operand's entry plus the sum of `upd[k, c]` over the rows
  `k` whose index `idx[k, 0]`, read signed, is `n` (an index outside [0, N) lands nowhere). The same for vectors
  (`x : [N]`, `upd : [R]`, update_window_dims []).
  The dimension numbers are taken as hypotheses on the record's fields, so the lemmas apply to any printed record.
-/
import Idealize.ShloMosaic.Lib.ValueIdx
import Idealize.ShloMosaic.PureOps.Ideal.Laws

noncomputable section

namespace Cert.RowScatter

open Idealize.ShloMosaic Idealize.ShloMosaic.ValueIdx
open scoped BigOperators

/-- Where update `(k, c')` of the row scatter lands: on axis 0 (inserted, named by the index map) the start is the signed
    index `idx[k, 0]` and the window coordinate is 0; on axis 1 (a window axis) the start is 0 and the window coordinate is
    `c'`. So it lands at `(n, c)` exactly when the signed index is `n` and `c' = c`; an index outside `[0, N)` lands nowhere. -/
private theorem rows_resultIdx {N R C w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (n : Fin N) (c : Fin C) :
    (ScatterDims.mk (s := ⟨2, ![N, C]⟩) (si := ⟨2, ![R, 1]⟩) (u := ⟨2, ![R, C]⟩) [1] [0] [0] 1 wf).resultIdx? (ix2 k c') idx
        = some (ix2 n c)
      ↔ (idx (ix2 k ⟨0, Nat.one_pos⟩)).toInt = (n.val : ℤ) ∧ c' = c := by
  set d : ScatterDims ⟨2, ![N, C]⟩ ⟨2, ![R, 1]⟩ ⟨2, ![R, C]⟩ := ⟨[1], [0], [0], 1, wf⟩ with hd
  have hs0 : d.start (ix2 k c') idx 0 = (idx (ix2 k ⟨0, Nat.one_pos⟩)).toInt := by
    unfold ScatterDims.start
    rw [dif_pos (show (0 : Fin 2) ∈ d.scatterDimsToOperandDims from List.mem_singleton.mpr rfl)]
    congr 2
    funext b; refine Fin.ext ?_
    match b with
    | ⟨0, _⟩ => rfl
    | ⟨1, _⟩ => rfl
  have hs1 : d.start (ix2 k c') idx 1 = 0 := by
    unfold ScatterDims.start
    rw [dif_neg (show ¬ (1 : Fin 2) ∈ d.scatterDimsToOperandDims from (by decide : ¬ (1 : Fin 2) ∈ ([0] : List (Fin 2))))]
  have hw0 : d.window (ix2 k c') 0 = 0 := by
    unfold ScatterDims.window
    rw [dif_neg (show ¬ (0 : Fin 2) ∈ d.sKept from (by decide : ¬ (0 : Fin 2) ∈ (List.finRange 2).filter (fun a => a ∉ ([0] : List (Fin 2)))))]
  have hw1 : d.window (ix2 k c') 1 = c'.val := by
    unfold ScatterDims.window
    rw [dif_pos (show (1 : Fin 2) ∈ d.sKept from (by decide : (1 : Fin 2) ∈ (List.finRange 2).filter (fun a => a ∉ ([0] : List (Fin 2)))))]
    rfl
  have hn := n.isLt
  have hc := c.isLt
  have hc' := c'.isLt
  unfold ScatterDims.resultIdx?
  split
  · rename_i h
    rw [Option.some_inj]
    constructor
    · intro hf
      have h0 := congrArg (fun f => (f 0).val) hf
      have h1 := congrArg (fun f => (f 1).val) hf
      simp only [hs0, hs1, hw0, hw1] at h0 h1
      have hh := (h 0).1
      rw [hs0, hw0] at hh
      refine ⟨?_, Fin.ext ?_⟩
      · change _ = n.val at h0
        omega
      · change _ = c.val at h1
        omega
    · rintro ⟨ht, rfl⟩
      funext a; refine Fin.ext ?_
      match a with
      | ⟨0, _⟩ =>
        show (d.start (ix2 k c') idx 0 + d.window (ix2 k c') 0).toNat = n.val
        rw [hs0, hw0, ht]; omega
      | ⟨1, _⟩ =>
        show (d.start (ix2 k c') idx 1 + d.window (ix2 k c') 1).toNat = c'.val
        rw [hs1, hw1]; omega
  · rename_i h
    constructor
    · intro hf; exact absurd hf (by simp)
    · rintro ⟨ht, rfl⟩
      exfalso; apply h
      intro a
      match a with
      | ⟨0, _⟩ =>
        show 0 ≤ d.start (ix2 k c') idx 0 + d.window (ix2 k c') 0 ∧ d.start (ix2 k c') idx 0 + d.window (ix2 k c') 0 < (N : ℤ)
        rw [hs0, hw0, ht]; omega
      | ⟨1, _⟩ =>
        show 0 ≤ d.start (ix2 k c') idx 1 + d.window (ix2 k c') 1 ∧ d.start (ix2 k c') idx 1 + d.window (ix2 k c') 1 < (C : ℤ)
        rw [hs1, hw1]; omega

/-- Where update `k` of the vector scatter lands: on the one axis (inserted, named by the index map) the start is the signed
    index `idx[k, 0]` and the window coordinate is 0. So it lands at `n` exactly when the signed index is `n`. -/
private theorem elems_resultIdx {N R w : Nat}
    (wf : ScatterDims.WF ⟨1, ![N]⟩ ⟨2, ![R, 1]⟩ ⟨1, ![R]⟩ [] [0] [0] 1)
    (idx : IVec ⟨2, ![R, 1]⟩ w) (k : Fin R) (n : Fin N) :
    (ScatterDims.mk (s := ⟨1, ![N]⟩) (si := ⟨2, ![R, 1]⟩) (u := ⟨1, ![R]⟩) [] [0] [0] 1 wf).resultIdx? (ix1 k) idx
        = some (ix1 n)
      ↔ (idx (ix2 k ⟨0, Nat.one_pos⟩)).toInt = (n.val : ℤ) := by
  set d : ScatterDims ⟨1, ![N]⟩ ⟨2, ![R, 1]⟩ ⟨1, ![R]⟩ := ⟨[], [0], [0], 1, wf⟩ with hd
  have hs0 : d.start (ix1 k) idx 0 = (idx (ix2 k ⟨0, Nat.one_pos⟩)).toInt := by
    unfold ScatterDims.start
    rw [dif_pos (show (0 : Fin 1) ∈ d.scatterDimsToOperandDims from List.mem_singleton.mpr rfl)]
    congr 2
    funext b; refine Fin.ext ?_
    match b with
    | ⟨0, _⟩ => rfl
    | ⟨1, _⟩ => rfl
  have hw0 : d.window (ix1 k) 0 = 0 := by
    unfold ScatterDims.window
    rw [dif_neg (show ¬ (0 : Fin 1) ∈ d.sKept from
      (by decide : ¬ (0 : Fin 1) ∈ (List.finRange 1).filter (fun a => a ∉ ([0] : List (Fin 1)))))]
  have hn := n.isLt
  unfold ScatterDims.resultIdx?
  split
  · rename_i h
    rw [Option.some_inj]
    constructor
    · intro hf
      have h0 := congrArg (fun f => (f 0).val) hf
      simp only [hs0, hw0] at h0
      have hh := (h 0).1
      rw [hs0, hw0] at hh
      change _ = n.val at h0
      omega
    · intro ht
      funext a; refine Fin.ext ?_
      match a with
      | ⟨0, _⟩ =>
        show (d.start (ix1 k) idx 0 + d.window (ix1 k) 0).toNat = n.val
        rw [hs0, hw0, ht]; omega
  · rename_i h
    constructor
    · intro hf; exact absurd hf (by simp)
    · intro ht
      exfalso; apply h
      intro a
      match a with
      | ⟨0, _⟩ =>
        show 0 ≤ d.start (ix1 k) idx 0 + d.window (ix1 k) 0 ∧ d.start (ix1 k) idx 0 + d.window (ix1 k) 0 < (N : ℤ)
        rw [hs0, hw0, ht]; omega

/-- A rank-1 index set is its coordinate's range. -/
private def idxEquiv1 {n : Nat} : (⟨1, ![n]⟩ : Shape).Idx ≃ Fin n where
  toFun i := i 0
  invFun a := ix1 a
  left_inv i := (eq_ix1 i).symm
  right_inv _ := rfl

/-- Entry `(n, c)` of an accumulating row scatter: the operand there plus the updates of the rows sent to `n`. -/
theorem scatterAdd_rows_apply {N R C w : Nat} {φ : FTy} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![R, 1]⟩ w) (upd : FVec Ideal ⟨2, ![R, C]⟩ φ) (n : Fin N) (c : Fin C) :
    Host.scatterAdd d x idx upd (ix2 n c)
      = x (ix2 n c) + ∑ k ∈ Finset.univ.filter (fun k : Fin R => (idx (ix2 k ⟨0, Nat.one_pos⟩)).toInt = (n.val : ℤ)),
          upd (ix2 k c) := by
  obtain ⟨uw, iw, sd, iv, wf⟩ := d
  dsimp only at huw hiw hsd hiv
  subst huw hiw hsd hiv
  simp only [Host.scatterAdd, Ideal.hostScatterAdd_def, Ideal.hostScatterAdd]
  congr 1
  -- the sum over the updates' index (k, c') as a double sum; in row k only c' = c can land at (n, c)
  rw [Finset.sum_filter, Finset.sum_filter, sum_idx2]
  refine Finset.sum_congr rfl fun k _ => ?_
  refine (Finset.sum_congr rfl fun c' _ => if_congr (rows_resultIdx wf idx k c' n c) rfl rfl).trans ?_
  by_cases ht : (idx (ix2 k ⟨0, Nat.one_pos⟩)).toInt = (n.val : ℤ)
  · simp only [ht, true_and, if_true]
    rw [Finset.sum_ite_eq' Finset.univ c (fun c' => upd (ix2 k c'))]
    simp
  · simp only [ht, false_and, if_false, Finset.sum_const_zero]

/-- Entry `n` of an accumulating scatter of single entries into a vector. -/
theorem scatterAdd_elems_apply {N R w : Nat} {φ : FTy} (d : ScatterDims ⟨1, ![N]⟩ ⟨2, ![R, 1]⟩ ⟨1, ![R]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![R, 1]⟩ w) (upd : FVec Ideal ⟨1, ![R]⟩ φ) (n : Fin N) :
    Host.scatterAdd d x idx upd (ix1 n)
      = x (ix1 n) + ∑ k ∈ Finset.univ.filter (fun k : Fin R => (idx (ix2 k ⟨0, Nat.one_pos⟩)).toInt = (n.val : ℤ)),
          upd (ix1 k) := by
  obtain ⟨uw, iw, sd, iv, wf⟩ := d
  dsimp only at huw hiw hsd hiv
  subst huw hiw hsd hiv
  simp only [Host.scatterAdd, Ideal.hostScatterAdd_def, Ideal.hostScatterAdd]
  congr 1
  -- the updates' index is its one coordinate k
  rw [Finset.sum_filter, Finset.sum_filter]
  rw [← Equiv.sum_comp (idxEquiv1 (n := R)).symm]
  refine Finset.sum_congr rfl fun k _ => ?_
  exact if_congr (elems_resultIdx wf idx k n) rfl rfl

end Cert.RowScatter

end
-- ==== Proof.NormConsts.lean ====
/-
  The scalars of the convolution's normalisation.

  A node's degree is a sum of ones onto zero: `zero + (one + one)` for a node with two incoming edges, `zero + one`
  for a node with one. Its inverse square root is taken where the degree is positive (it always is), and an edge's weight
  is the product of the two at its ends: `rsqrt 2 · rsqrt 2 = ½` between nodes of degree two, `rsqrt 1 · rsqrt 1 = 1`
  on the self-loop of a node of degree one.
-/
import proofs.«412559_j43920335569005_3_alg».proof.Proof.Spec
import Idealize.ShloMosaic.PureOps.Ideal
import Idealize.ShloMosaic.PureOps.Ideal.Laws

noncomputable section

namespace Cert.Gcn

open Idealize.ShloMosaic Idealize.ShloMosaic.ValueIdx

/-- The literal one, as its bit pattern denotes it. -/
def one : EReal := Ideal.ofBits .f32 0x3F800000#32

theorem one_eq : one = 1 := by
  unfold one
  simp [Ideal.ofBits, Ideal.ieee, -EReal.coe_mul]; norm_num

/-! ## The degrees -/

/-- Two ones added onto zero make two. -/
theorem deg_two : zero + (one + one) = ((2 : ℝ) : EReal) := by
  rw [zero_eq, one_eq, zero_add, ← EReal.coe_one, ← EReal.coe_add]
  norm_num

/-- One added onto zero makes one. -/
theorem deg_one : zero + one = ((1 : ℝ) : EReal) := by
  rw [zero_eq, one_eq, zero_add, EReal.coe_one]

/-! ## The inverse square root of a positive degree -/

/-- The comparison "greater than zero" of a positive extended real is the bit one. -/
theorem cmp_ogt_zero_of_pos {x : EReal} (h : zero < x) : Ideal.cmp .ogt x zero = 1#1 := by
  show BitVec.ofBool (decide (zero < x)) = 1#1
  rw [decide_eq_true h]
  rfl

theorem zero_lt_two : zero < ((2 : ℝ) : EReal) := by
  rw [zero_eq]; exact_mod_cast (by norm_num : (0 : ℝ) < 2)

theorem zero_lt_one : zero < ((1 : ℝ) : EReal) := by
  rw [zero_eq]; exact_mod_cast (by norm_num : (0 : ℝ) < 1)

/-- The guarded inverse square root of a degree of two. -/
theorem dinv_two :
    Scalar.select (FloatOps.cmpf (F := Ideal) (φ := .f32) .ogt (zero + (one + one)) zero)
        (FloatOps.hostUnary (F := Ideal) .rsqrt (φ := .f32) (zero + (one + one))) zero
      = Ideal.rsqrt ((2 : ℝ) : EReal) := by
  rw [deg_two]
  show Scalar.select (Ideal.cmp .ogt ((2 : ℝ) : EReal) zero) (Ideal.rsqrt ((2 : ℝ) : EReal)) zero = _
  rw [cmp_ogt_zero_of_pos zero_lt_two]
  exact select_one _ _

/-- The guarded inverse square root of a degree of one. -/
theorem dinv_one :
    Scalar.select (FloatOps.cmpf (F := Ideal) (φ := .f32) .ogt (zero + one) zero)
        (FloatOps.hostUnary (F := Ideal) .rsqrt (φ := .f32) (zero + one)) zero
      = Ideal.rsqrt ((1 : ℝ) : EReal) := by
  rw [deg_one]
  show Scalar.select (Ideal.cmp .ogt ((1 : ℝ) : EReal) zero) (Ideal.rsqrt ((1 : ℝ) : EReal)) zero = _
  rw [cmp_ogt_zero_of_pos zero_lt_one]
  exact select_one _ _

/-! ## The edge weights -/

/-- Between two nodes of degree two the weight is one half. -/
theorem rsqrt_two_sq : Ideal.rsqrt ((2 : ℝ) : EReal) * Ideal.rsqrt ((2 : ℝ) : EReal) = half := by
  rw [Ideal.rsqrt_coe, if_neg (by norm_num), if_neg (by norm_num), ← EReal.coe_mul, half_eq]
  congr 1
  rw [← mul_inv, Real.mul_self_sqrt (by norm_num)]
  norm_num

/-- On the self-loop of a node of degree one the weight is one. -/
theorem rsqrt_one_sq : Ideal.rsqrt ((1 : ℝ) : EReal) * Ideal.rsqrt ((1 : ℝ) : EReal) = 1 := by
  rw [Ideal.rsqrt_coe, if_neg (by norm_num), if_neg (by norm_num), Real.sqrt_one, inv_one, EReal.coe_one, mul_one]

end Cert.Gcn

end
-- ==== Proof.RefNorm.lean ====
/-
  The reference's edge weights.

  The degree of a node is the number of edges into it (a scatter of ones over the target list): 2 for a user and for a
  positive item, 1 for a negative item. Its inverse square root is taken where the degree is positive, and an edge's
  weight is the product of the two at its ends: `rsqrt 2 · rsqrt 2 = ½` on every edge between or on the first two
  blocks, `rsqrt 1 · rsqrt 1 = 1` on a negative item's self-loop.
-/
import proofs.«412559_j43920335569005_3_alg».proof.Proof.RefIndex
import proofs.«412559_j43920335569005_3_alg».proof.Proof.Spec
import proofs.«412559_j43920335569005_3_alg».proof.Proof.LibRowGather
import proofs.«412559_j43920335569005_3_alg».proof.Proof.LibRowScatterAdd
import proofs.«412559_j43920335569005_3_alg».proof.Proof.NormConsts

noncomputable section

namespace Cert.ReferenceIdeal.RV

open Cert.ReferenceIdeal Cert.ReferenceIdeal.Gen Cert.ReferenceIdeal.ReadP Idealize.ShloMosaic Idealize.ShloMosaic.ValueIdx
open scoped BigOperators

/-! ## The index columns -/

/-- The target list as a column, at row `k`: entry `k` of the list. -/
private theorem col29 (k : Fin 327680) : idx_main_v29 (ix2 k ⟨0, Nat.one_pos⟩) = ix1 k :=
  funext fun a => Fin.ext (by match a with | ⟨0, _⟩ => rfl)

private theorem col40 (k : Fin 327680) : idx_main_v40 (ix2 k ⟨0, Nat.one_pos⟩) = ix1 k :=
  funext fun a => Fin.ext (by match a with | ⟨0, _⟩ => rfl)

private theorem col47 (k : Fin 327680) : idx_main_v47 (ix2 k ⟨0, Nat.one_pos⟩) = ix1 k :=
  funext fun a => Fin.ext (by match a with | ⟨0, _⟩ => rfl)

/-! ## The degrees -/

/-- The degree of node `n`: ones added onto zero over the edges into `n`, two of them for a user or a positive item,
    one for a negative item. -/
private theorem deg_apply (n : Fin 196608) :
    val_main_v30 (F := Ideal) (ix1 n)
      = if n.val < 131072 then Cert.Gcn.zero + (Cert.Gcn.one + Cert.Gcn.one) else Cert.Gcn.zero + Cert.Gcn.one := by
  unfold val_main_v30
  refine (Cert.RowScatter.scatterAdd_elems_apply scatter_S196608_S327680x1_S327680_n_0_0_1 rfl rfl rfl rfl
    (val_main_v28 (F := Ideal)) (val_main_v29 (F := Ideal)) (val_main_v27 (F := Ideal)) n).trans ?_
  have hx : val_main_v28 (F := Ideal) (ix1 n) = Cert.Gcn.zero := by rw [val_main_v28_apply]; rfl
  have hu : ∀ k : Fin 327680, val_main_v27 (F := Ideal) (ix1 k) = Cert.Gcn.one := fun k => by
    rw [val_main_v27_apply]; rfl
  have hi : ∀ k : Fin 327680,
      (val_main_v29 (F := Ideal) (ix2 k ⟨0, Nat.one_pos⟩)).toInt = (Cert.Gcn.dstN k : ℤ) := fun k => by
    rw [val_main_v29_apply, col29]; exact v26_toInt k
  have hset : Finset.univ.filter (fun k : Fin 327680 =>
        (val_main_v29 (F := Ideal) (ix2 k ⟨0, Nat.one_pos⟩)).toInt = (n.val : ℤ))
      = Finset.univ.filter (fun k : Fin 327680 => (Cert.Gcn.dstN k : ℤ) = (n.val : ℤ)) :=
    Finset.filter_congr fun k _ => by rw [hi k]
  rw [hx, hset, Finset.sum_congr rfl (fun k _ => hu k), Cert.Gcn.sum_into (fun _ => Cert.Gcn.one) n]
  by_cases h : n.val < 65536
  · rw [dif_pos h, if_pos (by omega)]
  · rw [dif_neg h]
    by_cases h2 : n.val < 131072
    · rw [dif_pos h2, if_pos h2]
    · rw [dif_neg h2, if_neg h2]

/-- The guarded inverse square root of the degree of node `n`. -/
private theorem dinv_apply (n : Fin 196608) :
    val_main_v34 (F := Ideal) (ix1 n)
      = if n.val < 131072 then Ideal.rsqrt ((2 : ℝ) : EReal) else Ideal.rsqrt ((1 : ℝ) : EReal) := by
  rw [val_main_v34_apply, val_main_v32_apply, val_main_v33_apply, val_main_call0_v1_apply, val_main_call0_v0_apply,
    val_main_v31_apply, deg_apply]
  by_cases h : n.val < 131072
  · rw [if_pos h, if_pos h]; exact Cert.Gcn.dinv_two
  · rw [if_neg h, if_neg h]; exact Cert.Gcn.dinv_one

/-! ## The two ends of an edge -/

/-- The inverse square root gathered at the source of edge `k`. -/
private theorem v41_apply (k : Fin 327680) :
    val_main_v41 (F := Ideal) (ix1 k) = val_main_v34 (F := Ideal) (ix1 (⟨Cert.Gcn.srcN k, Cert.Gcn.srcN_lt k⟩ : Fin 196608)) := by
  unfold val_main_v41
  refine (Cert.RowGather.gather_elems_apply gather_S196608_S327680x1_S327680_n_0_n_n_0_1_1 rfl rfl rfl rfl rfl rfl rfl
    (by decide) (val_main_v34 (F := Ideal)) (val_main_v40 (F := Ideal)) k).trans ?_
  have hi : (val_main_v40 (F := Ideal) (ix2 k ⟨0, Nat.one_pos⟩)).toInt = (Cert.Gcn.srcN k : ℤ) := by
    rw [val_main_v40_apply, col40, v39_eq]; exact v25_toInt k
  refine congrArg (fun r : Fin 196608 => val_main_v34 (F := Ideal) (ix1 r)) (Fin.ext ?_)
  show min (val_main_v40 (F := Ideal) (ix2 k ⟨0, Nat.one_pos⟩)).toInt.toNat (196608 - 1) = Cert.Gcn.srcN k
  rw [hi, Int.toNat_natCast]
  have := Cert.Gcn.srcN_lt k
  omega

/-- The inverse square root gathered at the target of edge `k`. -/
private theorem v48_apply (k : Fin 327680) :
    val_main_v48 (F := Ideal) (ix1 k) = val_main_v34 (F := Ideal) (ix1 (⟨Cert.Gcn.dstN k, Cert.Gcn.dstN_lt k⟩ : Fin 196608)) := by
  unfold val_main_v48
  refine (Cert.RowGather.gather_elems_apply gather_S196608_S327680x1_S327680_n_0_n_n_0_1_1 rfl rfl rfl rfl rfl rfl rfl
    (by decide) (val_main_v34 (F := Ideal)) (val_main_v47 (F := Ideal)) k).trans ?_
  have hi : (val_main_v47 (F := Ideal) (ix2 k ⟨0, Nat.one_pos⟩)).toInt = (Cert.Gcn.dstN k : ℤ) := by
    rw [val_main_v47_apply, col47, v46_eq]; exact v26_toInt k
  refine congrArg (fun r : Fin 196608 => val_main_v34 (F := Ideal) (ix1 r)) (Fin.ext ?_)
  show min (val_main_v47 (F := Ideal) (ix2 k ⟨0, Nat.one_pos⟩)).toInt.toNat (196608 - 1) = Cert.Gcn.dstN k
  rw [hi, Int.toNat_natCast]
  have := Cert.Gcn.dstN_lt k
  omega

/-! ## The weights -/

/-- Entry `k` of the edge weights. -/
theorem v49_apply (k : Fin 327680) : val_main_v49 (F := Ideal) (ix1 k) = Cert.Gcn.normW k := by
  rw [val_main_v49_apply, v41_apply, v48_apply, dinv_apply, dinv_apply]
  show (if Cert.Gcn.srcN k < 131072 then Ideal.rsqrt ((2 : ℝ) : EReal) else Ideal.rsqrt ((1 : ℝ) : EReal))
      * (if Cert.Gcn.dstN k < 131072 then Ideal.rsqrt ((2 : ℝ) : EReal) else Ideal.rsqrt ((1 : ℝ) : EReal)) = Cert.Gcn.normW k
  unfold Cert.Gcn.normW
  have hk := k.isLt
  by_cases h : k.val < 262144
  · -- an edge between or on the first two blocks: both ends have degree two
    have hs : Cert.Gcn.srcN k < 131072 := by unfold Cert.Gcn.srcN; split_ifs <;> omega
    have hd : Cert.Gcn.dstN k < 131072 := by unfold Cert.Gcn.dstN; split_ifs <;> omega
    rw [if_pos h, if_pos hs, if_pos hd]
    exact Cert.Gcn.rsqrt_two_sq
  · -- a negative item's self-loop: both ends are that item, of degree one
    have hs : ¬ Cert.Gcn.srcN k < 131072 := by unfold Cert.Gcn.srcN; split_ifs <;> omega
    have hd : ¬ Cert.Gcn.dstN k < 131072 := by unfold Cert.Gcn.dstN; split_ifs <;> omega
    rw [if_neg h, if_neg hs, if_neg hd]
    exact Cert.Gcn.rsqrt_one_sq

end Cert.ReferenceIdeal.RV

end
-- ==== Proof.RefConv.lean ====
/-
  One graph convolution of the reference, read at an index.

  The transformed features `h` (3B × 64) are gathered along the source list, each row scaled by its edge's weight, and
  summed into a zero array along the target list. Entry (n, c) is therefore zero plus the weighted values of `h[·, c]` over
  the edges into node `n`: `aggr`. The reference does this twice, with the first and the second layer's features.
-/
import proofs.«412559_j43920335569005_3_alg».proof.Proof.RefNorm
import proofs.«412559_j43920335569005_3_alg».proof.Proof.Spec
import proofs.«412559_j43920335569005_3_alg».proof.Proof.Graph
import proofs.«412559_j43920335569005_3_alg».proof.Proof.LibRowGather
import proofs.«412559_j43920335569005_3_alg».proof.Proof.LibRowScatterAdd

noncomputable section

namespace Cert.ReferenceIdeal.RV

open Cert.ReferenceIdeal Cert.ReferenceIdeal.Gen Cert.ReferenceIdeal.ReadP Idealize.ShloMosaic Idealize.ShloMosaic.ValueIdx
open scoped BigOperators

/-- One convolution over arbitrary transformed features `h`: a zero array `z`, the source and target lists as columns
    `src` and `tgt` (entry `k` the nodes `srcN k`, `dstN k`) and the edge weights `wgt` spread over the 64 columns. -/
private theorem conv_apply (h z : FVec Ideal S196608x64 .f32)
    (src tgt : IVec S327680x1 32) (wgt : FVec Ideal S327680x64 .f32)
    (hz : ∀ i, z i = Cert.Gcn.zero)
    (hsrc : ∀ k : Fin 327680, (src (ix2 k ⟨0, Nat.one_pos⟩)).toInt = (Cert.Gcn.srcN k : ℤ))
    (htgt : ∀ k : Fin 327680, (tgt (ix2 k ⟨0, Nat.one_pos⟩)).toInt = (Cert.Gcn.dstN k : ℤ))
    (hw : ∀ (k : Fin 327680) (c : Fin 64), wgt (ix2 k c) = Cert.Gcn.normW k)
    (n : Fin 196608) (c : Fin 64) :
    Host.scatterAdd (F := Ideal) scatter_S196608x64_S327680x1_S327680x64_1_0_0_1 z tgt
        (mulf (F := Ideal) (Host.gather gather_S196608x64_S327680x1_S327680x64_1_0_n_n_0_1_164 h src) wgt) (ix2 n c)
      = Cert.Gcn.aggr (fun n' => h (ix2 n' c)) n := by
  -- an update row: the features' row at the edge's source times the edge's weight
  have hupd : ∀ (k : Fin 327680) (s : Fin 196608) (w : EReal), Cert.Gcn.srcN k = s.val → Cert.Gcn.normW k = w →
      mulf (F := Ideal) (Host.gather gather_S196608x64_S327680x1_S327680x64_1_0_n_n_0_1_164 h src) wgt (ix2 k c) = h (ix2 s c) * w := by
    intro k s w hs hwk
    rw [mulf_apply, Cert.RowGather.gather_rows_apply _ rfl rfl rfl rfl rfl rfl rfl (by decide)]
    refine congrArg₂ (· * ·) (congrArg h (congrArg (fun r => ix2 r c) (Fin.ext ?_))) ((hw k c).trans hwk)
    show min (src (ix2 k ⟨0, Nat.one_pos⟩)).toInt.toNat (196608 - 1) = s.val
    rw [hsrc k, Int.toNat_natCast, ← hs]
    have := Cert.Gcn.srcN_lt k
    omega
  -- the scatter: zero plus the updates of the edges into `n`
  rw [Cert.RowScatter.scatterAdd_rows_apply _ rfl rfl rfl rfl, hz,
    Finset.filter_congr (fun k _ => by rw [htgt k] : ∀ k ∈ (Finset.univ : Finset (Fin 327680)),
      ((tgt (ix2 k ⟨0, Nat.one_pos⟩)).toInt = (n.val : ℤ)) ↔ ((Cert.Gcn.dstN k : ℤ) = (n.val : ℤ))),
    Cert.Gcn.sum_into]
  unfold Cert.Gcn.aggr
  by_cases h1 : n.val < 65536
  · -- a user: its positive item's edge, then its self-loop, both of weight one half
    rw [dif_pos h1, dif_pos h1,
      hupd _ ⟨n.val + 65536, by omega⟩ Cert.Gcn.half
        (by show (if n.val + 65536 < 131072 then n.val + 65536 else n.val + 65536 - 131072) = n.val + 65536; rw [if_pos (by omega)])
        (by show (if n.val + 65536 < 262144 then Cert.Gcn.half else 1) = Cert.Gcn.half; rw [if_pos (by omega)]),
      hupd _ n Cert.Gcn.half
        (by show (if n.val + 131072 < 131072 then n.val + 131072 else n.val + 131072 - 131072) = n.val; rw [if_neg (by omega)]; omega)
        (by show (if n.val + 131072 < 262144 then Cert.Gcn.half else 1) = Cert.Gcn.half; rw [if_pos (by omega)])]
  · rw [dif_neg h1, dif_neg h1]
    by_cases h2 : n.val < 131072
    · -- a positive item: its user's edge, then its self-loop, both of weight one half
      rw [dif_pos h2, dif_pos h2,
        hupd _ ⟨n.val - 65536, by omega⟩ Cert.Gcn.half
          (by show (if n.val - 65536 < 131072 then n.val - 65536 else n.val - 65536 - 131072) = n.val - 65536; rw [if_pos (by omega)])
          (by show (if n.val - 65536 < 262144 then Cert.Gcn.half else 1) = Cert.Gcn.half; rw [if_pos (by omega)]),
        hupd _ n Cert.Gcn.half
          (by show (if n.val + 131072 < 131072 then n.val + 131072 else n.val + 131072 - 131072) = n.val; rw [if_neg (by omega)]; omega)
          (by show (if n.val + 131072 < 262144 then Cert.Gcn.half else 1) = Cert.Gcn.half; rw [if_pos (by omega)])]
    · -- a negative item: only its self-loop, of weight one
      rw [dif_neg h2, dif_neg h2,
        hupd _ n 1
          (by show (if n.val + 131072 < 131072 then n.val + 131072 else n.val + 131072 - 131072) = n.val; rw [if_neg (by omega)]; omega)
          (by show (if n.val + 131072 < 262144 then Cert.Gcn.half else 1) = 1; rw [if_neg (by omega)])]

/-! ## The arrays the two convolutions are built from -/

/-- The first layer's zero array. -/
private theorem zeros1 (i : S196608x64.Idx) : val_main_v62 (F := Ideal) i = Cert.Gcn.zero := by
  rw [val_main_v62_apply, val_main_cst_15_apply]; rfl

/-- The second layer's zero array. -/
private theorem zeros2 (i : S196608x64.Idx) : val_main_v79 (F := Ideal) i = Cert.Gcn.zero := by
  rw [val_main_v79_apply, val_main_cst_18_apply]; rfl

/-- The first layer's source column: entry `k` is node `srcN k`. -/
private theorem src1 (k : Fin 327680) :
    (val_main_v58 (F := Ideal) (ix2 k ⟨0, Nat.one_pos⟩)).toInt = (Cert.Gcn.srcN k : ℤ) := by
  rw [val_main_v58_apply, v57_eq,
    show idx_main_v58 (ix2 k ⟨0, Nat.one_pos⟩) = ix1 k from funext fun a => Fin.ext (by match a with | ⟨0, _⟩ => rfl)]
  exact v25_toInt k

/-- The second layer's source column. -/
private theorem src2 (k : Fin 327680) :
    (val_main_v75 (F := Ideal) (ix2 k ⟨0, Nat.one_pos⟩)).toInt = (Cert.Gcn.srcN k : ℤ) := by
  rw [val_main_v75_apply, v74_eq,
    show idx_main_v75 (ix2 k ⟨0, Nat.one_pos⟩) = ix1 k from funext fun a => Fin.ext (by match a with | ⟨0, _⟩ => rfl)]
  exact v25_toInt k

/-- The first layer's target column: entry `k` is node `dstN k`. -/
private theorem tgt1 (k : Fin 327680) :
    (val_main_v63 (F := Ideal) (ix2 k ⟨0, Nat.one_pos⟩)).toInt = (Cert.Gcn.dstN k : ℤ) := by
  rw [val_main_v63_apply,
    show idx_main_v63 (ix2 k ⟨0, Nat.one_pos⟩) = ix1 k from funext fun a => Fin.ext (by match a with | ⟨0, _⟩ => rfl)]
  exact v26_toInt k

/-- The second layer's target column. -/
private theorem tgt2 (k : Fin 327680) :
    (val_main_v80 (F := Ideal) (ix2 k ⟨0, Nat.one_pos⟩)).toInt = (Cert.Gcn.dstN k : ℤ) := by
  rw [val_main_v80_apply,
    show idx_main_v80 (ix2 k ⟨0, Nat.one_pos⟩) = ix1 k from funext fun a => Fin.ext (by match a with | ⟨0, _⟩ => rfl)]
  exact v26_toInt k

/-- The first layer's weights: every column of row `k` is the weight of edge `k`. -/
private theorem wgt1 (k : Fin 327680) (c : Fin 64) : val_main_v60 (F := Ideal) (ix2 k c) = Cert.Gcn.normW k := by
  rw [val_main_v60_apply, val_main_v50_apply,
    show idx_main_v50 (idx_main_v60 (ix2 k c)) = ix1 k from funext fun a => Fin.ext (by match a with | ⟨0, _⟩ => rfl)]
  exact v49_apply k

/-- The second layer's weights. -/
private theorem wgt2 (k : Fin 327680) (c : Fin 64) : val_main_v77 (F := Ideal) (ix2 k c) = Cert.Gcn.normW k := by
  rw [val_main_v77_apply, val_main_v50_apply,
    show idx_main_v50 (idx_main_v77 (ix2 k c)) = ix1 k from funext fun a => Fin.ext (by match a with | ⟨0, _⟩ => rfl)]
  exact v49_apply k

/-- The first convolution's aggregate. -/
theorem v64_apply (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (n : Fin 196608) (c : Fin 64) :
    val_main_v64 (F := Ideal) x0 x1 x2 x3 x4 x5 (ix2 n c)
      = Cert.Gcn.aggr (fun n' => val_main_v52 (F := Ideal) x0 x1 x2 x3 x4 x5 (ix2 n' c)) n :=
  conv_apply (val_main_v52 (F := Ideal) x0 x1 x2 x3 x4 x5) (val_main_v62 (F := Ideal)) (val_main_v58 (F := Ideal))
    (val_main_v63 (F := Ideal)) (val_main_v60 (F := Ideal)) zeros1 src1 tgt1 wgt1 n c

/-- The second convolution's aggregate. -/
theorem v81_apply (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (n : Fin 196608) (c : Fin 64) :
    val_main_v81 (F := Ideal) x0 x1 x2 x3 x4 x5 x6 x7 (ix2 n c)
      = Cert.Gcn.aggr (fun n' => val_main_v69 (F := Ideal) x0 x1 x2 x3 x4 x5 x6 x7 (ix2 n' c)) n :=
  conv_apply (val_main_v69 (F := Ideal) x0 x1 x2 x3 x4 x5 x6 x7) (val_main_v79 (F := Ideal)) (val_main_v75 (F := Ideal))
    (val_main_v80 (F := Ideal)) (val_main_v77 (F := Ideal)) zeros2 src2 tgt2 wgt2 n c

end Cert.ReferenceIdeal.RV

end
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.RefRows.lean ====
/-
  The reference's first layer, row by row.

  The node features are the three gathered embeddings stacked (users, positive items, negative items); a row of the
  transformed features is that row times the first weight matrix. After the convolution, the bias and the clip at zero,
  the user's row and its positive item's row are both `x1U` of the two embedding rows (half the sum of the two transformed
  rows: `a · ½ + b · ½ = ½ · (b + a)`), and the negative item's row is `x1N` of its embedding row.
-/
import proofs.«412559_j43920335569005_3_alg».proof.Proof.RefConv
import proofs.«412559_j43920335569005_3_alg».proof.Proof.Spec
import proofs.«412559_j43920335569005_3_alg».proof.Proof.LibRowGather
import proofs.«412559_j43920335569005_3_alg».proof.Proof.LibOneAxisContraction
import Idealize.ShloMosaic.Lib.Pipeline.Value

noncomputable section

namespace Cert.ReferenceIdeal.RV

open Cert.ReferenceIdeal Cert.ReferenceIdeal.Gen Cert.ReferenceIdeal.ReadP Idealize.ShloMosaic Idealize.ShloMosaic.ValueIdx
open scoped BigOperators

/-! ## The three gathered embeddings, row by row -/

/-- Row r of the gathered user embedding: the user table's row the wrapped, clamped index names. -/
private theorem v6_apply (x0 : (⟨S65536, .i32⟩ : BufTy).Contents (Elt Ideal)) (x3 : (⟨S1000000x64, .f32⟩ : BufTy).Contents (Elt Ideal))
    (r : Fin 65536) (k : Fin 64) : val_main_v6 (F := Ideal) x0 x3 (ix2 r k) = Cert.Gcn.embRow x3 x0 r k := by
  unfold val_main_v6
  rw [Cert.RowGather.gather_rows_apply gather_S1000000x64_S65536x1_S65536x64_1_0_n_n_0_1_164 rfl rfl rfl rfl rfl rfl rfl (by decide)]
  unfold Cert.Gcn.embRow
  refine congrArg x3 (congrArg (fun p => ix2 p k) (Fin.ext ?_))
  show min (val_main_v5 (F := Ideal) x0 (ix2 r ⟨0, Nat.one_pos⟩)).toInt.toNat (1000000 - 1)
    = min (Cert.Gcn.wrapIdx (x0 (ix1 r))).toInt.toNat 999999
  have hi : idx_main_v5 (ix2 r (⟨0, Nat.one_pos⟩ : Fin 1)) = ix1 r := funext fun a => match a with | ⟨0, _⟩ => rfl
  rw [val_main_v5_apply, hi]
  rfl

/-- Row r of the gathered positive-item embedding. -/
private theorem v13_apply (x1 : (⟨S65536, .i32⟩ : BufTy).Contents (Elt Ideal)) (x4 : (⟨S1000000x64, .f32⟩ : BufTy).Contents (Elt Ideal))
    (r : Fin 65536) (k : Fin 64) : val_main_v13 (F := Ideal) x1 x4 (ix2 r k) = Cert.Gcn.embRow x4 x1 r k := by
  unfold val_main_v13
  rw [Cert.RowGather.gather_rows_apply gather_S1000000x64_S65536x1_S65536x64_1_0_n_n_0_1_164 rfl rfl rfl rfl rfl rfl rfl (by decide)]
  unfold Cert.Gcn.embRow
  refine congrArg x4 (congrArg (fun p => ix2 p k) (Fin.ext ?_))
  show min (val_main_v12 (F := Ideal) x1 (ix2 r ⟨0, Nat.one_pos⟩)).toInt.toNat (1000000 - 1)
    = min (Cert.Gcn.wrapIdx (x1 (ix1 r))).toInt.toNat 999999
  have hi : idx_main_v12 (ix2 r (⟨0, Nat.one_pos⟩ : Fin 1)) = ix1 r := funext fun a => match a with | ⟨0, _⟩ => rfl
  rw [val_main_v12_apply, hi]
  rfl

/-- Row r of the gathered negative-item embedding. -/
private theorem v20_apply (x2 : (⟨S65536, .i32⟩ : BufTy).Contents (Elt Ideal)) (x4 : (⟨S1000000x64, .f32⟩ : BufTy).Contents (Elt Ideal))
    (r : Fin 65536) (k : Fin 64) : val_main_v20 (F := Ideal) x2 x4 (ix2 r k) = Cert.Gcn.embRow x4 x2 r k := by
  unfold val_main_v20
  rw [Cert.RowGather.gather_rows_apply gather_S1000000x64_S65536x1_S65536x64_1_0_n_n_0_1_164 rfl rfl rfl rfl rfl rfl rfl (by decide)]
  unfold Cert.Gcn.embRow
  refine congrArg x4 (congrArg (fun p => ix2 p k) (Fin.ext ?_))
  show min (val_main_v19 (F := Ideal) x2 (ix2 r ⟨0, Nat.one_pos⟩)).toInt.toNat (1000000 - 1)
    = min (Cert.Gcn.wrapIdx (x2 (ix1 r))).toInt.toNat 999999
  have hi : idx_main_v19 (ix2 r (⟨0, Nat.one_pos⟩ : Fin 1)) = ix1 r := funext fun a => match a with | ⟨0, _⟩ => rfl
  rw [val_main_v19_apply, hi]
  rfl

/-! ## The stacked node features: three blocks of 65536 rows -/

/-- A row of the first block is the user embedding's row. -/
private theorem v51_user (x0 x1 x2 : (⟨S65536, .i32⟩ : BufTy).Contents (Elt Ideal)) (x3 x4 : (⟨S1000000x64, .f32⟩ : BufTy).Contents (Elt Ideal)) (n : Fin 196608) (r : Fin 65536)
    (hn : n.val = r.val) (k : Fin 64) :
    val_main_v51 (F := Ideal) x0 x1 x2 x3 x4 (ix2 n k) = val_main_v6 (F := Ideal) x0 x3 (ix2 r k) := by
  unfold val_main_v51
  refine concatenate_apply_piece (t := S196608x64) (0 : Fin 2)
    ([⟨S65536x64, val_main_v6 (F := Ideal) x0 x3⟩, ⟨S65536x64, val_main_v13 (F := Ideal) x1 x4⟩, ⟨S65536x64, val_main_v20 (F := Ideal) x2 x4⟩] : List ((s : Shape) × (s.Idx → EReal)))
    concatenates_S65536x64_S65536x64_S65536x64_S196608x64_d0 (ix2 n k) 0 ?_ S65536x64 (val_main_v6 (F := Ideal) x0 x3) rfl rfl 0 rfl
    (ix2 r k) (fun b hb => ?_) ?_
  · show 0 < 3
    omega
  · match b with
    | ⟨0, _⟩ => exact absurd rfl hb
    | ⟨1, _⟩ => rfl
  · show 0 + r.val = n.val
    omega

/-- A row of the second block is the positive-item embedding's row. -/
private theorem v51_pos (x0 x1 x2 : (⟨S65536, .i32⟩ : BufTy).Contents (Elt Ideal)) (x3 x4 : (⟨S1000000x64, .f32⟩ : BufTy).Contents (Elt Ideal)) (n : Fin 196608) (r : Fin 65536)
    (hn : n.val = r.val + 65536) (k : Fin 64) :
    val_main_v51 (F := Ideal) x0 x1 x2 x3 x4 (ix2 n k) = val_main_v13 (F := Ideal) x1 x4 (ix2 r k) := by
  unfold val_main_v51
  refine concatenate_apply_piece (t := S196608x64) (0 : Fin 2)
    ([⟨S65536x64, val_main_v6 (F := Ideal) x0 x3⟩, ⟨S65536x64, val_main_v13 (F := Ideal) x1 x4⟩, ⟨S65536x64, val_main_v20 (F := Ideal) x2 x4⟩] : List ((s : Shape) × (s.Idx → EReal)))
    concatenates_S65536x64_S65536x64_S65536x64_S196608x64_d0 (ix2 n k) 1 ?_ S65536x64 (val_main_v13 (F := Ideal) x1 x4) rfl rfl 65536 rfl
    (ix2 r k) (fun b hb => ?_) ?_
  · show 1 < 3
    omega
  · match b with
    | ⟨0, _⟩ => exact absurd rfl hb
    | ⟨1, _⟩ => rfl
  · show 65536 + r.val = n.val
    omega

/-- A row of the third block is the negative-item embedding's row. -/
private theorem v51_neg (x0 x1 x2 : (⟨S65536, .i32⟩ : BufTy).Contents (Elt Ideal)) (x3 x4 : (⟨S1000000x64, .f32⟩ : BufTy).Contents (Elt Ideal)) (n : Fin 196608) (r : Fin 65536)
    (hn : n.val = r.val + 131072) (k : Fin 64) :
    val_main_v51 (F := Ideal) x0 x1 x2 x3 x4 (ix2 n k) = val_main_v20 (F := Ideal) x2 x4 (ix2 r k) := by
  unfold val_main_v51
  refine concatenate_apply_piece (t := S196608x64) (0 : Fin 2)
    ([⟨S65536x64, val_main_v6 (F := Ideal) x0 x3⟩, ⟨S65536x64, val_main_v13 (F := Ideal) x1 x4⟩, ⟨S65536x64, val_main_v20 (F := Ideal) x2 x4⟩] : List ((s : Shape) × (s.Idx → EReal)))
    concatenates_S65536x64_S65536x64_S65536x64_S196608x64_d0 (ix2 n k) 2 ?_ S65536x64 (val_main_v20 (F := Ideal) x2 x4) rfl rfl 131072 rfl
    (ix2 r k) (fun b hb => ?_) ?_
  · show 2 < 3
    omega
  · match b with
    | ⟨0, _⟩ => exact absurd rfl hb
    | ⟨1, _⟩ => rfl
  · show 131072 + r.val = n.val
    omega

/-! ## The transformed features and the layer's output -/

/-- Row n, column c of the transformed features: row n of the stacked features times the weight matrix. -/
private def hrow (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (c : Fin 64) (n : Fin 196608) : EReal :=
  Cert.Gcn.lin (fun k => val_main_v51 (F := Ideal) x0 x1 x2 x3 x4 (ix2 n k)) x5 c

private theorem v52_row (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (n : Fin 196608) (c : Fin 64) :
    val_main_v52 (F := Ideal) x0 x1 x2 x3 x4 x5 (ix2 n c) = hrow x0 x1 x2 x3 x4 x5 c n := by
  rw [val_main_v52_apply]
  unfold hrow Cert.Gcn.lin
  refine Finset.sum_congr rfl fun k _ => ?_
  have el : lidx_main_v52 (ix2 n c) k = ix2 n k := funext fun a => match a with | ⟨0, _⟩ => rfl | ⟨1, _⟩ => rfl
  have er : ridx_main_v52 (ix2 n c) k = ix2 k c := funext fun a => match a with | ⟨0, _⟩ => rfl | ⟨1, _⟩ => rfl
  rw [el, er]

private theorem hrow_user (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (c : Fin 64) (n : Fin 196608) (r : Fin 65536) (hn : n.val = r.val) :
    hrow x0 x1 x2 x3 x4 x5 c n = Cert.Gcn.lin (Cert.Gcn.embRow x3 x0 r) x5 c := by
  unfold hrow
  exact congrArg (fun e => Cert.Gcn.lin e x5 c) (funext fun k => (v51_user x0 x1 x2 x3 x4 n r hn k).trans (v6_apply x0 x3 r k))

private theorem hrow_pos (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (c : Fin 64) (n : Fin 196608) (r : Fin 65536) (hn : n.val = r.val + 65536) :
    hrow x0 x1 x2 x3 x4 x5 c n = Cert.Gcn.lin (Cert.Gcn.embRow x4 x1 r) x5 c := by
  unfold hrow
  exact congrArg (fun e => Cert.Gcn.lin e x5 c) (funext fun k => (v51_pos x0 x1 x2 x3 x4 n r hn k).trans (v13_apply x1 x4 r k))

private theorem hrow_neg (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (c : Fin 64) (n : Fin 196608) (r : Fin 65536) (hn : n.val = r.val + 131072) :
    hrow x0 x1 x2 x3 x4 x5 c n = Cert.Gcn.lin (Cert.Gcn.embRow x4 x2 r) x5 c := by
  unfold hrow
  exact congrArg (fun e => Cert.Gcn.lin e x5 c) (funext fun k => (v51_neg x0 x1 x2 x3 x4 n r hn k).trans (v20_apply x2 x4 r k))

/-- The bias broadcast over the rows reads the bias at the column. -/
private theorem v66_row (x6 : (⟨S64, .f32⟩ : BufTy).Contents (Elt Ideal)) (n : Fin 196608) (c : Fin 64) :
    val_main_v66 (F := Ideal) x6 (ix2 n c) = Cert.Gcn.biasRow x6 c := by
  rw [val_main_v66_apply, val_main_v65_apply]
  unfold Cert.Gcn.biasRow
  exact congrArg x6 (funext fun a => match a with | ⟨0, _⟩ => rfl)

/-- The layer's output at (n, c): the aggregate of column c of the transformed features at node n, plus the bias, clipped
    at zero. -/
private theorem v68_eq (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (n : Fin 196608) (c : Fin 64) :
    val_main_v68 (F := Ideal) x0 x1 x2 x3 x4 x5 x6 (ix2 n c)
      = max (Cert.Gcn.aggr (hrow x0 x1 x2 x3 x4 x5 c) n + Cert.Gcn.biasRow x6 c) Cert.Gcn.zero := by
  rw [val_main_v68_apply, val_main_v67_apply, v64_apply, v66_row]
  have hf : (fun n' => val_main_v52 (F := Ideal) x0 x1 x2 x3 x4 x5 (ix2 n' c)) = hrow x0 x1 x2 x3 x4 x5 c :=
    funext fun n' => v52_row x0 x1 x2 x3 x4 x5 n' c
  rw [hf]
  rfl

/-- A row of the first block: half the sum of the user's and its positive item's transformed rows, plus the bias, clipped. -/
private theorem v68_of_user (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (n : Fin 196608) (r : Fin 65536) (hn : n.val = r.val) (c : Fin 64) :
    val_main_v68 (F := Ideal) x0 x1 x2 x3 x4 x5 x6 (ix2 n c)
      = Cert.Gcn.x1U (Cert.Gcn.embRow x3 x0 r) (Cert.Gcn.embRow x4 x1 r) x5 (Cert.Gcn.biasRow x6) c := by
  have hlt : n.val < 65536 := by have := r.isLt; omega
  rw [v68_eq]
  unfold Cert.Gcn.aggr Cert.Gcn.x1U
  rw [dif_pos hlt, hrow_pos x0 x1 x2 x3 x4 x5 c ⟨n.val + 65536, by omega⟩ r (by show n.val + 65536 = r.val + 65536; omega),
    hrow_user x0 x1 x2 x3 x4 x5 c n r hn, Cert.Gcn.zero_eq, zero_add, ← Cert.Gcn.zero_eq, Cert.Gcn.half_mul_add,
    add_comm (Cert.Gcn.lin (Cert.Gcn.embRow x4 x1 r) x5 c * Cert.Gcn.half)]

/-- A row of the second block: the same value. -/
private theorem v68_of_pos (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (n : Fin 196608) (r : Fin 65536) (hn : n.val = r.val + 65536) (c : Fin 64) :
    val_main_v68 (F := Ideal) x0 x1 x2 x3 x4 x5 x6 (ix2 n c)
      = Cert.Gcn.x1U (Cert.Gcn.embRow x3 x0 r) (Cert.Gcn.embRow x4 x1 r) x5 (Cert.Gcn.biasRow x6) c := by
  have h1 : ¬ n.val < 65536 := by omega
  have h2 : n.val < 131072 := by have := r.isLt; omega
  rw [v68_eq]
  unfold Cert.Gcn.aggr Cert.Gcn.x1U
  rw [dif_neg h1, dif_pos h2, hrow_user x0 x1 x2 x3 x4 x5 c ⟨n.val - 65536, by omega⟩ r (by show n.val - 65536 = r.val; omega),
    hrow_pos x0 x1 x2 x3 x4 x5 c n r hn, Cert.Gcn.zero_eq, zero_add, ← Cert.Gcn.zero_eq, Cert.Gcn.half_mul_add]

/-- A row of the third block: the negative item's transformed row plus the bias, clipped. -/
private theorem v68_of_neg (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (n : Fin 196608) (r : Fin 65536) (hn : n.val = r.val + 131072) (c : Fin 64) :
    val_main_v68 (F := Ideal) x0 x1 x2 x3 x4 x5 x6 (ix2 n c)
      = Cert.Gcn.x1N (Cert.Gcn.embRow x4 x2 r) x5 (Cert.Gcn.biasRow x6) c := by
  have h1 : ¬ n.val < 65536 := by omega
  have h2 : ¬ n.val < 131072 := by omega
  rw [v68_eq]
  unfold Cert.Gcn.aggr Cert.Gcn.x1N
  rw [dif_neg h1, dif_neg h2, hrow_neg x0 x1 x2 x3 x4 x5 c n r hn, Cert.Gcn.zero_eq, zero_add, ← Cert.Gcn.zero_eq, mul_one]

/-- The user's row after the first layer. -/
theorem v68_user (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (r : Fin 65536) (c : Fin 64) :
    val_main_v68 (F := Ideal) x0 x1 x2 x3 x4 x5 x6 (ix2 (⟨r.val, by omega⟩ : Fin 196608) c)
      = Cert.Gcn.x1U (Cert.Gcn.embRow x3 x0 r) (Cert.Gcn.embRow x4 x1 r) x5 (Cert.Gcn.biasRow x6) c :=
  v68_of_user x0 x1 x2 x3 x4 x5 x6 _ r rfl c

/-- The positive item's row after the first layer: the same. -/
theorem v68_pos (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (r : Fin 65536) (c : Fin 64) :
    val_main_v68 (F := Ideal) x0 x1 x2 x3 x4 x5 x6 (ix2 (⟨r.val + 65536, by omega⟩ : Fin 196608) c)
      = Cert.Gcn.x1U (Cert.Gcn.embRow x3 x0 r) (Cert.Gcn.embRow x4 x1 r) x5 (Cert.Gcn.biasRow x6) c :=
  v68_of_pos x0 x1 x2 x3 x4 x5 x6 _ r rfl c

/-- The negative item's row after the first layer. -/
theorem v68_neg (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (r : Fin 65536) (c : Fin 64) :
    val_main_v68 (F := Ideal) x0 x1 x2 x3 x4 x5 x6 (ix2 (⟨r.val + 131072, by omega⟩ : Fin 196608) c)
      = Cert.Gcn.x1N (Cert.Gcn.embRow x4 x2 r) x5 (Cert.Gcn.biasRow x6) c :=
  v68_of_neg x0 x1 x2 x3 x4 x5 x6 _ r rfl c

end Cert.ReferenceIdeal.RV

end
-- ==== Proof.RefOut.lean ====
/-
  The reference's four results.

  The second layer repeats the first without the clip: a user's row and its positive item's row are both `uu` (the two
  transformed rows are equal, and `a · ½ + a · ½ = a`), a negative item's row is `ng`. The results are the slices of the
  three blocks: the user rows, the row sums of user · positive item (= user · user) and user · negative item, and the
  positive and negative rows side by side.
-/
import proofs.«412559_j43920335569005_3_alg».proof.Proof.RefRows
import proofs.«412559_j43920335569005_3_alg».proof.Proof.RefConv
import proofs.«412559_j43920335569005_3_alg».proof.Proof.Spec
import proofs.«412559_j43920335569005_3_alg».proof.Proof.LibOneAxisContraction
import Idealize.ShloMosaic.Lib.Pipeline.Value

noncomputable section

namespace Cert.ReferenceIdeal.RV

open Cert.ReferenceIdeal Cert.ReferenceIdeal.Gen Cert.ReferenceIdeal.ReadP Idealize.ShloMosaic Idealize.ShloMosaic.ValueIdx
open scoped BigOperators

/-! ## The second layer's transformed features and bias, read at an index -/

/-- Row `n` of the second layer's transformed features: row `n` of the first layer's result times the second weight matrix. -/
private theorem v69_lin (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (n : Fin 196608) (c : Fin 64) :
    val_main_v69 (F := Ideal) x0 x1 x2 x3 x4 x5 x6 x7 (ix2 n c)
      = Cert.Gcn.lin (fun k => val_main_v68 (F := Ideal) x0 x1 x2 x3 x4 x5 x6 (ix2 n k)) x7 c := by
  rw [val_main_v69_apply]
  unfold Cert.Gcn.lin
  refine Finset.sum_congr rfl fun k _ => ?_
  have el : lidx_main_v69 (ix2 n c) k = ix2 n k :=
    funext fun a => Fin.ext (by match a with | ⟨0, _⟩ => rfl | ⟨1, _⟩ => rfl)
  have er : ridx_main_v69 (ix2 n c) k = ix2 k c :=
    funext fun a => Fin.ext (by match a with | ⟨0, _⟩ => rfl | ⟨1, _⟩ => rfl)
  rw [el, er]

/-- The second bias broadcast down the rows. -/
private theorem v83_bias (x8 : (⟨S64, .f32⟩ : BufTy).Contents (Elt Ideal)) (n : Fin 196608) (c : Fin 64) :
    val_main_v83 (F := Ideal) x8 (ix2 n c) = Cert.Gcn.biasRow x8 c := by
  rw [val_main_v83_apply, val_main_v82_apply]
  unfold Cert.Gcn.biasRow
  exact congrArg x8 (funext fun a => Fin.ext (by match a with | ⟨0, _⟩ => rfl))

/-- The transformed row of a user: its first-layer row, shared with its positive item, times the second weight matrix. -/
private theorem v69_user (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (n : Fin 196608) (r : Fin 65536) (h : n.val = r.val) (c : Fin 64) :
    val_main_v69 (F := Ideal) x0 x1 x2 x3 x4 x5 x6 x7 (ix2 n c)
      = Cert.Gcn.lin (Cert.Gcn.x1U (Cert.Gcn.embRow x3 x0 r) (Cert.Gcn.embRow x4 x1 r) x5 (Cert.Gcn.biasRow x6)) x7 c := by
  have hn : n = ⟨r.val, by have := r.isLt; omega⟩ := Fin.ext h
  rw [hn]
  rw [v69_lin]
  exact congrArg (fun u => Cert.Gcn.lin u x7 c) (funext fun k => v68_user x0 x1 x2 x3 x4 x5 x6 r k)

/-- The transformed row of a positive item: the same. -/
private theorem v69_pos (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (n : Fin 196608) (r : Fin 65536) (h : n.val = r.val + 65536) (c : Fin 64) :
    val_main_v69 (F := Ideal) x0 x1 x2 x3 x4 x5 x6 x7 (ix2 n c)
      = Cert.Gcn.lin (Cert.Gcn.x1U (Cert.Gcn.embRow x3 x0 r) (Cert.Gcn.embRow x4 x1 r) x5 (Cert.Gcn.biasRow x6)) x7 c := by
  have hn : n = ⟨r.val + 65536, by have := r.isLt; omega⟩ := Fin.ext h
  rw [hn]
  rw [v69_lin]
  exact congrArg (fun u => Cert.Gcn.lin u x7 c) (funext fun k => v68_pos x0 x1 x2 x3 x4 x5 x6 r k)

/-- The transformed row of a negative item. -/
private theorem v69_neg (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (n : Fin 196608) (r : Fin 65536) (h : n.val = r.val + 131072) (c : Fin 64) :
    val_main_v69 (F := Ideal) x0 x1 x2 x3 x4 x5 x6 x7 (ix2 n c)
      = Cert.Gcn.lin (Cert.Gcn.x1N (Cert.Gcn.embRow x4 x2 r) x5 (Cert.Gcn.biasRow x6)) x7 c := by
  have hn : n = ⟨r.val + 131072, by have := r.isLt; omega⟩ := Fin.ext h
  rw [hn]
  rw [v69_lin]
  exact congrArg (fun u => Cert.Gcn.lin u x7 c) (funext fun k => v68_neg x0 x1 x2 x3 x4 x5 x6 r k)

/-! ## The node features after the second layer -/

/-- The user's row after the second layer. -/
theorem v84_user (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (r : Fin 65536) (c : Fin 64) :
    val_main_v84 (F := Ideal) x0 x1 x2 x3 x4 x5 x6 x7 x8 (ix2 (⟨r.val, by omega⟩ : Fin 196608) c)
      = Cert.Gcn.uRow x0 x1 x3 x4 x5 x6 x7 x8 r c := by
  have hr : r.val < 65536 := r.isLt
  rw [val_main_v84_apply, v81_apply, v83_bias, Ideal.addf_def]
  unfold Cert.Gcn.aggr
  rw [dif_pos (show (⟨r.val, by omega⟩ : Fin 196608).val < 65536 from hr)]
  dsimp only
  rw [v69_pos x0 x1 x2 x3 x4 x5 x6 x7 _ r rfl, v69_user x0 x1 x2 x3 x4 x5 x6 x7 _ r rfl, Cert.Gcn.half_add_half,
    Cert.Gcn.zero_eq, zero_add]
  rfl

/-- The positive item's row after the second layer: the same. -/
theorem v84_pos (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (r : Fin 65536) (c : Fin 64) :
    val_main_v84 (F := Ideal) x0 x1 x2 x3 x4 x5 x6 x7 x8 (ix2 (⟨r.val + 65536, by omega⟩ : Fin 196608) c)
      = Cert.Gcn.uRow x0 x1 x3 x4 x5 x6 x7 x8 r c := by
  have hr : r.val < 65536 := r.isLt
  rw [val_main_v84_apply, v81_apply, v83_bias, Ideal.addf_def]
  unfold Cert.Gcn.aggr
  rw [dif_neg (show ¬ (⟨r.val + 65536, by omega⟩ : Fin 196608).val < 65536 from by show ¬ r.val + 65536 < 65536; omega),
    dif_pos (show (⟨r.val + 65536, by omega⟩ : Fin 196608).val < 131072 from by show r.val + 65536 < 131072; omega)]
  dsimp only
  rw [v69_user x0 x1 x2 x3 x4 x5 x6 x7 _ r (by show r.val + 65536 - 65536 = r.val; omega),
    v69_pos x0 x1 x2 x3 x4 x5 x6 x7 _ r rfl, Cert.Gcn.half_add_half, Cert.Gcn.zero_eq, zero_add]
  rfl

/-- The negative item's row after the second layer. -/
theorem v84_neg (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (r : Fin 65536) (c : Fin 64) :
    val_main_v84 (F := Ideal) x0 x1 x2 x3 x4 x5 x6 x7 x8 (ix2 (⟨r.val + 131072, by omega⟩ : Fin 196608) c)
      = Cert.Gcn.nRow x2 x4 x5 x6 x7 x8 r c := by
  have hr : r.val < 65536 := r.isLt
  rw [val_main_v84_apply, v81_apply, v83_bias, Ideal.addf_def]
  unfold Cert.Gcn.aggr
  rw [dif_neg (show ¬ (⟨r.val + 131072, by omega⟩ : Fin 196608).val < 65536 from by show ¬ r.val + 131072 < 65536; omega),
    dif_neg (show ¬ (⟨r.val + 131072, by omega⟩ : Fin 196608).val < 131072 from by show ¬ r.val + 131072 < 131072; omega)]
  dsimp only
  rw [v69_neg x0 x1 x2 x3 x4 x5 x6 x7 _ r rfl, mul_one, Cert.Gcn.zero_eq, zero_add]
  rfl

/-! ## The slices of the three blocks -/

/-- Row `r` of the first slice: the user's row. -/
private theorem v85_row (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (r : Fin 65536) (q : Fin 64) :
    val_main_v85 (F := Ideal) x0 x1 x2 x3 x4 x5 x6 x7 x8 (ix2 r q) = Cert.Gcn.uRow x0 x1 x3 x4 x5 x6 x7 x8 r q := by
  have hr : r.val < 65536 := r.isLt
  have e : idx_main_v85 (ix2 r q) = ix2 (⟨r.val, by omega⟩ : Fin 196608) q :=
    funext fun a => Fin.ext (by match a with | ⟨0, _⟩ => rfl | ⟨1, _⟩ => rfl)
  rw [val_main_v85_apply, e, v84_user]

/-- Row `r` of the second slice: the positive item's row, the same. -/
private theorem v86_row (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (r : Fin 65536) (q : Fin 64) :
    val_main_v86 (F := Ideal) x0 x1 x2 x3 x4 x5 x6 x7 x8 (ix2 r q) = Cert.Gcn.uRow x0 x1 x3 x4 x5 x6 x7 x8 r q := by
  have hr : r.val < 65536 := r.isLt
  have e : idx_main_v86 (ix2 r q) = ix2 (⟨r.val + 65536, by omega⟩ : Fin 196608) q :=
    funext fun a => Fin.ext (by
      match a with
      | ⟨0, _⟩ => exact Nat.add_comm 65536 r.val
      | ⟨1, _⟩ => rfl)
  rw [val_main_v86_apply, e, v84_pos]

/-- Row `r` of the third slice: the negative item's row. -/
private theorem v87_row (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (r : Fin 65536) (q : Fin 64) :
    val_main_v87 (F := Ideal) x0 x1 x2 x3 x4 x5 x6 x7 x8 (ix2 r q) = Cert.Gcn.nRow x2 x4 x5 x6 x7 x8 r q := by
  have hr : r.val < 65536 := r.isLt
  have e : idx_main_v87 (ix2 r q) = ix2 (⟨r.val + 131072, by omega⟩ : Fin 196608) q :=
    funext fun a => Fin.ext (by
      match a with
      | ⟨0, _⟩ => exact Nat.add_comm 131072 r.val
      | ⟨1, _⟩ => rfl)
  rw [val_main_v87_apply, e, v84_neg]

/-- The four results. -/
theorem v85_eq (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v85 (F := Ideal) x0 x1 x2 x3 x4 x5 x6 x7 x8 = Cert.Gcn.outU x0 x1 x3 x4 x5 x6 x7 x8 := by
  funext j
  obtain ⟨r, q, rfl⟩ : ∃ (r : Fin 65536) (q : Fin 64), j = ix2 r q := ⟨j 0, j 1, eq_ix2 j⟩
  rw [v85_row]
  rfl

theorem v90_eq (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v90 (F := Ideal) x0 x1 x2 x3 x4 x5 x6 x7 x8 = Cert.Gcn.outPos x0 x1 x3 x4 x5 x6 x7 x8 := by
  funext j
  obtain ⟨r, q, rfl⟩ : ∃ (r : Fin 65536) (q : Fin 1), j = ix2 r q := ⟨j 0, j 1, eq_ix2 j⟩
  have hz : (val_main_cst_19 (F := Ideal)) (Shape.Idx.first h_S_) = 0 := Ideal.ofBits_zero_f32
  rw [val_main_v90_apply, val_main_v89_apply, hz, zero_add]
  unfold Cert.Gcn.outPos Cert.Gcn.posScore
  refine Finset.sum_congr rfl fun k _ => ?_
  have e : idx_main_v89 (idx_main_v90 (ix2 r q)) k = ix2 r k :=
    funext fun a => Fin.ext (by match a with | ⟨0, _⟩ => rfl | ⟨1, _⟩ => rfl)
  rw [e, val_main_v88_apply, v85_row, v86_row, Ideal.mulf_def]

theorem v93_eq (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v93 (F := Ideal) x0 x1 x2 x3 x4 x5 x6 x7 x8 = Cert.Gcn.outNeg x0 x1 x2 x3 x4 x5 x6 x7 x8 := by
  funext j
  obtain ⟨r, q, rfl⟩ : ∃ (r : Fin 65536) (q : Fin 1), j = ix2 r q := ⟨j 0, j 1, eq_ix2 j⟩
  have hz : (val_main_cst_20 (F := Ideal)) (Shape.Idx.first h_S_) = 0 := Ideal.ofBits_zero_f32
  rw [val_main_v93_apply, val_main_v92_apply, hz, zero_add]
  unfold Cert.Gcn.outNeg Cert.Gcn.negScore
  refine Finset.sum_congr rfl fun k _ => ?_
  have e : idx_main_v92 (idx_main_v93 (ix2 r q)) k = ix2 r k :=
    funext fun a => Fin.ext (by match a with | ⟨0, _⟩ => rfl | ⟨1, _⟩ => rfl)
  rw [e, val_main_v91_apply, v85_row, v87_row, Ideal.mulf_def]

theorem v94_eq (x0 x1 x2 : (⟨S65536, .i32⟩ : BufTy).Contents (Elt Ideal)) (x3 x4 : (⟨S1000000x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v94 (F := Ideal) x0 x1 x2 x3 x4 x5 x6 x7 x8 = Cert.Gcn.outCat x0 x1 x2 x3 x4 x5 x6 x7 x8 := by
  funext j
  obtain ⟨r, q, rfl⟩ : ∃ (r : Fin 65536) (q : Fin 128), j = ix2 r q := ⟨j 0, j 1, eq_ix2 j⟩
  show val_main_v94 (F := Ideal) x0 x1 x2 x3 x4 x5 x6 x7 x8 (ix2 r q)
    = Cert.Gcn.catRow (Cert.Gcn.uRow x0 x1 x3 x4 x5 x6 x7 x8 r) (Cert.Gcn.nRow x2 x4 x5 x6 x7 x8 r) q
  unfold val_main_v94 Cert.Gcn.catRow
  by_cases hq : q.val < 64
  · rw [dif_pos hq, concatenate_pair_apply_left (t := S65536x128) (s₁ := S65536x64) (s₂ := S65536x64) (1 : Fin 2)
      (val_main_v86 (F := Ideal) x0 x1 x2 x3 x4 x5 x6 x7 x8) (val_main_v87 (F := Ideal) x0 x1 x2 x3 x4 x5 x6 x7 x8)
      concatenates_S65536x64_S65536x64_S65536x128_d1 (ix2 r q) rfl
      (ix2 r (⟨q.val, hq⟩ : Fin 64)) (fun b => by match b with | ⟨0, _⟩ => rfl | ⟨1, _⟩ => rfl), v86_row]
  · rw [dif_neg hq, concatenate_pair_apply_right (t := S65536x128) (s₁ := S65536x64) (s₂ := S65536x64) (1 : Fin 2)
      (val_main_v86 (F := Ideal) x0 x1 x2 x3 x4 x5 x6 x7 x8) (val_main_v87 (F := Ideal) x0 x1 x2 x3 x4 x5 x6 x7 x8)
      concatenates_S65536x64_S65536x64_S65536x128_d1 (ix2 r q) rfl rfl
      (ix2 r (⟨q.val - 64, by have := q.isLt; omega⟩ : Fin 64))
      (fun b hb => by match b with | ⟨0, _⟩ => rfl | ⟨1, _⟩ => exact absurd rfl hb)
      (by show q.val - 64 + 64 = q.val; omega), v87_row]

end Cert.ReferenceIdeal.RV

end
-- ==== Proof.KernelPrelude.lean ====
/-
  The arrays the pallas_call is launched on, read at an index.

  Before the call the program gathers three embedding matrices (a `take` with a fill for out-of-range indices: where an
  index, after numpy's wrap of negative values, lies in [0, 1000000) the gathered row is the table's row; elsewhere the
  fill), narrows them and the two weight matrices to bf16 (the identity on extended reals) and views the two biases as
  1 × 64 rows. Under the index range the launched arrays are therefore the embedding rows, the weights and the biases.
-/
import proofs.«412559_j43920335569005_3_alg».proof.Proof.Gen.KernelIdeal.Frame
import proofs.«412559_j43920335569005_3_alg».proof.Proof.Spec
import proofs.«412559_j43920335569005_3_alg».proof.Proof.LibRowGather

noncomputable section

namespace Cert.KernelIdeal.KV

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The nine argument arrays on device `c`, at their literal types. -/
abbrev aUser (c : Dev nD) : IVec S65536 32 := m ((c.tc : Thread nD τ).loc main_arg0)
abbrev aPos (c : Dev nD) : IVec S65536 32 := m ((c.tc : Thread nD τ).loc main_arg1)
abbrev aNeg (c : Dev nD) : IVec S65536 32 := m ((c.tc : Thread nD τ).loc main_arg2)
abbrev aTblU (c : Dev nD) : FVec Ideal S1000000x64 .f32 := m ((c.tc : Thread nD τ).loc main_arg3)
abbrev aTblI (c : Dev nD) : FVec Ideal S1000000x64 .f32 := m ((c.tc : Thread nD τ).loc main_arg4)
abbrev aW1 (c : Dev nD) : FVec Ideal S64x64 .f32 := m ((c.tc : Thread nD τ).loc main_arg5)
abbrev aB1 (c : Dev nD) : FVec Ideal S64 .f32 := m ((c.tc : Thread nD τ).loc main_arg6)
abbrev aW2 (c : Dev nD) : FVec Ideal S64x64 .f32 := m ((c.tc : Thread nD τ).loc main_arg7)
abbrev aB2 (c : Dev nD) : FVec Ideal S64 .f32 := m ((c.tc : Thread nD τ).loc main_arg8)

/-- Every entry of the three index vectors lies in [0, 1000000). -/
def InRange : Prop := ∀ c : Dev nD, ∀ i : S65536.Idx,
  (0 ≤ (aUser m c i).toInt ∧ (aUser m c i).toInt < 1000000) ∧ (0 ≤ (aPos m c i).toInt ∧ (aPos m c i).toInt < 1000000)
    ∧ (0 ≤ (aNeg m c i).toInt ∧ (aNeg m c i).toInt < 1000000)

/-- A left fold by `and` from one over words that are all one is one. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- A reduction by `and` from one over an array that is one everywhere is one. -/
private theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun i _ => hx i)

/-- An index in [0, 1000000) is not wrapped. -/
private theorem wrapIdx_of_range (v : BitVec 32) (h : 0 ≤ v.toInt ∧ v.toInt < 1000000) : Cert.Gcn.wrapIdx v = v := by
  unfold Cert.Gcn.wrapIdx
  have z : (0#32 : BitVec 32).toInt = 0 := by decide
  have hc : IntOp.cmpi .slt v 0#32 = 0#1 := eq_zero_of_ne_one (fun e => by
    have := IntOp.cmpi_slt.1 e
    rw [z] at this
    omega)
  rw [hc, select_zero]

/-- A vector laid down the rows of a rectangle reads, at (p, q), the vector at p (the vector's extent is not one). -/
private theorem bcast_col {α : Type} {n mm : Nat} (hb : (⟨1, ![n]⟩ : Shape).BroadcastsInDim ⟨2, ![n, mm]⟩ ![0]) (hn : ¬ n = 1)
    (w : (⟨1, ![n]⟩ : Shape).Idx → α) (p : Fin n) (q : Fin mm) :
    broadcastInDim ⟨2, ![n, mm]⟩ ![0] hb w (ix2 p q) = w (ix1 p) := by
  unfold broadcastInDim
  refine congrArg w (funext fun a => ?_)
  match a with
  | ⟨0, _⟩ => exact dif_neg hn

/-! ## The take with fill, as the program prints it -/

/-- The index vector with negative entries wrapped (a negative index counts from the end of the table). -/
def wrapVec (idx : IVec S65536 32) : IVec S65536 32 :=
  select (cmpi .slt idx (broadcastInDim S65536 ![] bcast_S_S65536 (constantI S_ 32 0#32)))
    (addi idx (broadcastInDim S65536 ![] bcast_S_S65536 (constantI S_ 32 1000000#32))) idx

/-- The wrapped indices as a 65536 × 1 column. -/
def idxCol (idx : IVec S65536 32) : IVec S65536x1 32 := broadcastInDim S65536x1 ![0] bcast_S65536_S65536x1_0 (wrapVec idx)

/-- The range mask: row p is one when 0 ≤ index p ≤ 999999 (the conjunction reduced over the column's unit axis). -/
def rangeMask (idx : IVec S65536 32) : IVec S65536 1 :=
  Host.reduce IntOp.andi
    (andi (cmpi .sge (idxCol idx) (broadcastInDim S65536x1 ![] bcast_S_S65536x1 (constantI S_ 32 0#32)))
      (cmpi .sle (idxCol idx) (broadcastInDim S65536x1 ![0, 1] bcast_S1x1_S65536x1_0_1
        (broadcastInDim S1x1 ![1] bcast_S1_S1x1_1 (constantI S1 32 999999#32)))))
    (constantI S_ 1 1#1) reducesTo_S65536x1_S65536_d1 h_S_

/-- The gathered rows where the mask is one, the fill elsewhere. -/
def takeFill (tbl : FVec Ideal S1000000x64 .f32) (idx : IVec S65536 32) : FVec Ideal S65536x64 .f32 :=
  select (broadcastInDim S65536x64 ![0] bcast_S65536_S65536x64_0 (rangeMask idx))
    (Host.gather gather_S1000000x64_S65536x1_S65536x64_1_0_n_n_0_1_164 tbl (idxCol idx))
    (broadcastInDim S65536x64 ![] bcast_S_S65536x64 (constant (F := Ideal) S_ .f32 0x7FC00000#32))

/-- The index column at (p, q) is the wrapped index p. -/
theorem idxCol_apply (idx : IVec S65536 32) (p : Fin 65536) (q : Fin 1) :
    idxCol idx (ix2 p q) = Cert.Gcn.wrapIdx (idx (ix1 p)) := by
  unfold idxCol
  rw [bcast_col _ (by decide)]
  rfl

/-- With every index in range the mask is one everywhere: each index is unwrapped and lies between 0 and 999999. -/
theorem rangeMask_apply (idx : IVec S65536 32) (h : ∀ q : S65536.Idx, 0 ≤ (idx q).toInt ∧ (idx q).toInt < 1000000)
    (j : S65536.Idx) : rangeMask idx j = 1#1 := by
  unfold rangeMask
  refine reduce_andi_one _ _ _ _ _ rfl (fun i => ?_)
  obtain ⟨p, q, rfl⟩ : ∃ (p : Fin 65536) (q : Fin 1), i = ix2 p q := ⟨i 0, i 1, eq_ix2 i⟩
  show IntOp.andi (IntOp.cmpi .sge (idxCol idx (ix2 p q)) 0#32) (IntOp.cmpi .sle (idxCol idx (ix2 p q)) 999999#32) = 1#1
  rw [idxCol_apply, wrapIdx_of_range _ (h (ix1 p))]
  have z : (0#32 : BitVec 32).toInt = 0 := by decide
  have t : (999999#32 : BitVec 32).toInt = 999999 := by decide
  have hp := h (ix1 p)
  exact IntOp.andi_eq_one.2 ⟨IntOp.cmpi_sge.2 (by rw [z]; exact hp.1), IntOp.cmpi_sle.2 (by rw [t]; omega)⟩

/-- The take with fill at row r, column k, when every index is in range: the table's row the index names. The mask is
    one, so the select keeps the gathered row; the gather reads the table at the wrapped index clamped into the table,
    which is the row the specification names. -/
theorem takeFill_apply (tbl : FVec Ideal S1000000x64 .f32) (idx : IVec S65536 32)
    (h : ∀ q : S65536.Idx, 0 ≤ (idx q).toInt ∧ (idx q).toInt < 1000000) (r : Fin 65536) (k : Fin 64) :
    takeFill tbl idx (ix2 r k) = Cert.Gcn.embRow tbl idx r k := by
  unfold takeFill
  rw [select_apply, bcast_col _ (by decide), rangeMask_apply idx h, select_one,
    Cert.RowGather.gather_rows_apply gather_S1000000x64_S65536x1_S65536x64_1_0_n_n_0_1_164 rfl rfl rfl rfl rfl rfl rfl (by decide)]
  -- the clamped row number is the specification's
  unfold Cert.Gcn.embRow
  refine congrArg tbl (congrArg (fun p => ix2 p k) (Fin.ext ?_))
  show min (idxCol idx (ix2 r ⟨0, Nat.one_pos⟩)).toInt.toNat (1000000 - 1) = min (Cert.Gcn.wrapIdx (idx (ix1 r))).toInt.toNat 999999
  rw [idxCol_apply]

/-- A vector viewed as a 1 × 64 row reads, at (0, k), the vector at k (the same row-major position). -/
private theorem row_apply {α : Type} (b : S64.Idx → α) (hc : S64.ShapeCasts S1x64) (k : Fin 64) :
    shapeCast S1x64 b hc (ix2 (0 : Fin 1) k) = b (ix1 k) := by
  unfold shapeCast
  refine congrArg b (Shape.reshapeEquiv_eq_of_rowMajor hc ?_)
  rw [Shape.rowMajor_val_one, Shape.rowMajor_val_two]
  show k.val = 0 * 64 + k.val
  omega

/-! ## The launched arrays as the operations before the call compute them -/

set_option maxRecDepth 16384

set_option maxHeartbeats 1000000 in
/-- The user embedding as launched: the take with fill of the user table at the user indices, narrowed. -/
private theorem e_v1 (c : Dev nD) :
    (V m c main_v1 : S65536x64.Idx → EReal) = truncf .bf16 (takeFill (aTblU m c) (aUser m c)) bitsLt_bf16_f32 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  simp only [StableHlo.TRef.ofBuf, StableHlo.TRef.toBuf, cast_eq]
  rfl

set_option maxHeartbeats 1000000 in
/-- The positive-item embedding as launched. -/
private theorem e_v3 (c : Dev nD) :
    (V m c main_v3 : S65536x64.Idx → EReal) = truncf .bf16 (takeFill (aTblI m c) (aPos m c)) bitsLt_bf16_f32 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  simp only [StableHlo.TRef.ofBuf, StableHlo.TRef.toBuf, cast_eq]
  rfl

set_option maxHeartbeats 1000000 in
/-- The negative-item embedding as launched. -/
private theorem e_v5 (c : Dev nD) :
    (V m c main_v5 : S65536x64.Idx → EReal) = truncf .bf16 (takeFill (aTblI m c) (aNeg m c)) bitsLt_bf16_f32 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  simp only [StableHlo.TRef.ofBuf, StableHlo.TRef.toBuf, cast_eq]
  rfl

set_option maxHeartbeats 1000000 in
/-- The first weight matrix as launched: the argument narrowed. -/
private theorem e_v6 (c : Dev nD) :
    (V m c main_v6 : S64x64.Idx → EReal) = truncf .bf16 (aW1 m c) bitsLt_bf16_f32 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp

set_option maxHeartbeats 1000000 in
/-- The second weight matrix as launched. -/
private theorem e_v7 (c : Dev nD) :
    (V m c main_v7 : S64x64.Idx → EReal) = truncf .bf16 (aW2 m c) bitsLt_bf16_f32 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp

set_option maxHeartbeats 1000000 in
/-- The first bias as launched: the argument viewed as a 1 × 64 row. -/
private theorem e_v8 (c : Dev nD) :
    (V m c main_v8 : S1x64.Idx → EReal) = shapeCast S1x64 (aB1 m c) shapeCasts_S64_S1x64 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

set_option maxHeartbeats 1000000 in
/-- The second bias as launched. -/
private theorem e_v9 (c : Dev nD) :
    (V m c main_v9 : S1x64.Idx → EReal) = shapeCast S1x64 (aB2 m c) shapeCasts_S64_S1x64 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

/-- The launched user embedding: row `r` is the user table's row `user[r]`. -/
theorem V_v1 (h : InRange m) (c : Dev nD) (r : Fin 65536) (k : Fin 64) :
    (V m c main_v1 : FVec Ideal S65536x64 .bf16) (ix2 r k) = Cert.Gcn.embRow (aTblU m c) (aUser m c) r k := by
  have e := congrFun (e_v1 m c) (ix2 r k)
  rw [truncf_apply] at e
  exact e.trans (takeFill_apply (aTblU m c) (aUser m c) (fun q => (h c q).1) r k)

/-- The launched positive-item embedding. -/
theorem V_v3 (h : InRange m) (c : Dev nD) (r : Fin 65536) (k : Fin 64) :
    (V m c main_v3 : FVec Ideal S65536x64 .bf16) (ix2 r k) = Cert.Gcn.embRow (aTblI m c) (aPos m c) r k := by
  have e := congrFun (e_v3 m c) (ix2 r k)
  rw [truncf_apply] at e
  exact e.trans (takeFill_apply (aTblI m c) (aPos m c) (fun q => (h c q).2.1) r k)

/-- The launched negative-item embedding. -/
theorem V_v5 (h : InRange m) (c : Dev nD) (r : Fin 65536) (k : Fin 64) :
    (V m c main_v5 : FVec Ideal S65536x64 .bf16) (ix2 r k) = Cert.Gcn.embRow (aTblI m c) (aNeg m c) r k := by
  have e := congrFun (e_v5 m c) (ix2 r k)
  rw [truncf_apply] at e
  exact e.trans (takeFill_apply (aTblI m c) (aNeg m c) (fun q => (h c q).2.2) r k)

/-- The launched first weight matrix is the argument's (narrowing is the identity on extended reals). -/
theorem V_v6 (c : Dev nD) (a b : Fin 64) :
    (V m c main_v6 : FVec Ideal S64x64 .bf16) (ix2 a b) = aW1 m c (ix2 a b) :=
  congrFun (e_v6 m c) (ix2 a b)

/-- The launched second weight matrix. -/
theorem V_v7 (c : Dev nD) (a b : Fin 64) :
    (V m c main_v7 : FVec Ideal S64x64 .bf16) (ix2 a b) = aW2 m c (ix2 a b) :=
  congrFun (e_v7 m c) (ix2 a b)

/-- The first bias as a 1 × 64 row. -/
theorem V_v8 (c : Dev nD) (k : Fin 64) :
    (V m c main_v8 : FVec Ideal S1x64 .f32) (ix2 (0 : Fin 1) k) = aB1 m c (ix1 k) :=
  (congrFun (e_v8 m c) (ix2 (0 : Fin 1) k)).trans (row_apply (aB1 m c) shapeCasts_S64_S1x64 k)

/-- The second bias as a 1 × 64 row. -/
theorem V_v9 (c : Dev nD) (k : Fin 64) :
    (V m c main_v9 : FVec Ideal S1x64 .f32) (ix2 (0 : Fin 1) k) = aB2 m c (ix1 k) :=
  (congrFun (e_v9 m c) (ix2 (0 : Fin 1) k)).trans (row_apply (aB2 m c) shapeCasts_S64_S1x64 k)

end Cert.KernelIdeal.KV

end
-- ==== Proof.KernelBody.lean ====
/-
  The kernel body's arithmetic on one tile of 4096 rows, read at an index.

  Row `p` of the tile: two matrix products of the user's and the positive item's embedding rows with the first weight
  matrix, half their sum plus the bias, clipped at zero, times the second weight matrix plus the second bias (`uu`); the
  same without the averaging for the negative item (`ng`); the two row sums of products, laid out 32 × 128 (entry
  (a, b) is row 128·a + b); and the row `uu ++ ng`.
-/
import proofs.«412559_j43920335569005_3_alg».proof.Proof.Gen.KernelIdeal.Skeleton
import proofs.«412559_j43920335569005_3_alg».proof.Proof.Spec
import proofs.«412559_j43920335569005_3_alg».proof.Proof.LibOneAxisContraction
import Idealize.ShloMosaic.Lib.Pipeline.Value
import Idealize.ShloMosaic.Lib.ValueLayout

noncomputable section

namespace Cert.KernelIdeal.KV

open Cert.KernelIdeal Cert.KernelIdeal.Gen Idealize.ShloMosaic Idealize.ShloMosaic.ValueIdx
open scoped BigOperators

/-! ## The layout and contraction operations of the body at an index -/

/-- The left operand's index off the contracted axis reads the result's row. -/
private theorem lhs_axis0 (j : S4096x64.Idx) (k : dot_S4096x64_S64x64_S4096x64_1_0_0_1_n_n.contr.Idx) :
    (dot_S4096x64_S64x64_S4096x64_1_0_0_1_n_n.lhsIdx j k (0 : Fin 2)).val = (j (0 : Fin 2)).val := by
  rfl

/-- The left operand's index on the contracted axis reads the contraction position. -/
private theorem lhs_axis1 (j : S4096x64.Idx) (k : dot_S4096x64_S64x64_S4096x64_1_0_0_1_n_n.contr.Idx) :
    (dot_S4096x64_S64x64_S4096x64_1_0_0_1_n_n.lhsIdx j k (1 : Fin 2)).val = (k ⟨0, Nat.one_pos⟩).val :=
  dot_S4096x64_S64x64_S4096x64_1_0_0_1_n_n.lhsIdx_val_of_single (cl := (1 : Fin 2)) rfl j k

/-- The right operand's index on the contracted axis reads the contraction position. -/
private theorem rhs_axis0 (j : S4096x64.Idx) (k : dot_S4096x64_S64x64_S4096x64_1_0_0_1_n_n.contr.Idx) :
    (dot_S4096x64_S64x64_S4096x64_1_0_0_1_n_n.rhsIdx j k (0 : Fin 2)).val = (k ⟨0, Nat.one_pos⟩).val :=
  dot_S4096x64_S64x64_S4096x64_1_0_0_1_n_n.rhsIdx_val_of_single (cr := (0 : Fin 2)) rfl j k

/-- The right operand's index off the contracted axis reads the result's column. -/
private theorem rhs_axis1 (j : S4096x64.Idx) (k : dot_S4096x64_S64x64_S4096x64_1_0_0_1_n_n.contr.Idx) :
    (dot_S4096x64_S64x64_S4096x64_1_0_0_1_n_n.rhsIdx j k (1 : Fin 2)).val = (j (1 : Fin 2)).val := by
  rfl

/-- A product with a 64 × 64 matrix into the zero accumulator, at row `p` and column `q`: row `p` of the left operand
    times the matrix, at column `q`. -/
theorem matmul_row {φ₁ φ₂ : FTy} (lhs : FVec Ideal S4096x64 φ₁) (rhs : FVec Ideal S64x64 φ₂) (p : Fin 4096) (q : Fin 64) :
    matmul dot_S4096x64_S64x64_S4096x64_1_0_0_1_n_n none lhs rhs (constant (F := Ideal) S4096x64 .f32 0x00000000#32) (ix2 p q)
      = Cert.Gcn.lin (fun k => lhs (ix2 p k)) rhs q := by
  unfold Cert.Gcn.lin
  refine Cert.Dots.matmul_zero_apply_of dot_S4096x64_S64x64_S4096x64_1_0_0_1_n_n 64 rfl rfl none lhs rhs (ix2 p q)
    (fun c => ix2 p c) (fun c => ix2 c q) ?_ ?_
  · intro c
    funext a
    refine Fin.ext ?_
    match a with
    | ⟨0, _⟩ => exact lhs_axis0 _ _
    | ⟨1, _⟩ => exact (lhs_axis1 _ _).trans (contrEquiv1_symm_val _ 64 rfl rfl c)
  · intro c
    funext a
    refine Fin.ext ?_
    match a with
    | ⟨0, _⟩ => exact (rhs_axis0 _ _).trans (contrEquiv1_symm_val _ 64 rfl rfl c)
    | ⟨1, _⟩ => exact rhs_axis1 _ _

/-- A 1 × 64 row broadcast over 4096 rows reads, at row `p` and column `q`, the row's entry `q`. -/
theorem bcast_row (b : FVec Ideal S1x64 .f32) (p : Fin 4096) (q : Fin 64) :
    broadcastTo S4096x64 b broadcasts_S1x64_S4096x64 (ix2 p q) = b (ix2 (0 : Fin 1) q) := by
  refine broadcastTo_apply b _ (ix2 p q) (ix2 (0 : Fin 1) q) ?_
  intro a
  match a with
  | ⟨0, _⟩ => rfl
  | ⟨1, _⟩ => rfl

/-- The sum over the 64 columns of a 4096 × 64 array, at row `r`. -/
theorem rowsum_apply (src : FVec Ideal S4096x64 .f32) (r : Fin 4096) :
    multiReduction (F := Ideal) .add [1] S4096 src 0x00000000#32 reduces_S4096x64_S4096 (.inl rfl) rfl (ix1 r)
      = ∑ c : Fin 64, src (ix2 r c) := by
  refine (Ideal.multiReduction_add_single src 0x00000000#32 reduces_S4096x64_S4096 (.inl rfl) rfl (ix1 r)).trans ?_
  refine Finset.sum_congr rfl fun c _ => congrArg src ?_
  funext a
  refine Fin.ext ?_
  match a with
  | ⟨0, _⟩ => rfl
  | ⟨1, _⟩ => rfl

/-- A vector of 4096 entries laid out 32 × 128: entry (a, b) is entry 128·a + b. -/
theorem tile_apply (x : FVec Ideal S4096 .f32) (a : Fin 32) (b : Fin 128) :
    shapeCast S32x128 x shapeCasts_S4096_S32x128 (ix2 a b) = x (ix1 (⟨a.val * 128 + b.val, by omega⟩ : Fin 4096)) := by
  refine shapeCast_apply x _ (ix2 a b) (ix1 (⟨a.val * 128 + b.val, by omega⟩ : Fin 4096)) ?_
  rw [Shape.rowMajor_val_one, Shape.rowMajor_val_two]
  rfl

/-! ## The payloads at an index -/

/-- Row `p`, column `q` of the user / positive-item branch. -/
theorem pay8_apply (v0 v2 : Vec Ideal S4096x64 .bf16) (v6 v8 : Vec Ideal S64x64 .bf16) (v10 v12 : Vec Ideal S1x64 .f32)
    (p : Fin 4096) (q : Fin 64) :
    k0_pay8 (F := Ideal) v0 v2 v6 v8 v10 v12 (ix2 p q)
      = Cert.Gcn.uu (fun k => v0 (ix2 p k)) (fun k => v2 (ix2 p k)) v6 (fun k => v10 (ix2 (0 : Fin 1) k)) v8
          (fun k => v12 (ix2 (0 : Fin 1) k)) q := by
  unfold k0_pay8 k0_pay4 k0_pay5 k0_pay6 k0_pay7
  dsimp only
  simp only [shapeCast_self]
  rw [addf_apply, matmul_row, bcast_row]
  unfold Cert.Gcn.uu
  congr 2
  funext k
  rw [truncf_apply, maximumf_apply, addf_apply, mulf_apply, addf_apply, matmul_row, matmul_row, bcast_row, broadcast_apply,
    broadcast_apply]
  rfl

/-- Row `p`, column `q` of the negative-item branch. -/
theorem pay9_apply (v4 : Vec Ideal S4096x64 .bf16) (v6 v8 : Vec Ideal S64x64 .bf16) (v10 v12 : Vec Ideal S1x64 .f32)
    (p : Fin 4096) (q : Fin 64) :
    k0_pay9 (F := Ideal) v4 v6 v8 v10 v12 (ix2 p q)
      = Cert.Gcn.ng (fun k => v4 (ix2 p k)) v6 (fun k => v10 (ix2 (0 : Fin 1) k)) v8 (fun k => v12 (ix2 (0 : Fin 1) k)) q := by
  unfold k0_pay9 k0_pay4 k0_pay5 k0_pay6 k0_pay7
  dsimp only
  simp only [shapeCast_self]
  rw [addf_apply, matmul_row, bcast_row]
  unfold Cert.Gcn.ng
  congr 2
  funext k
  rw [truncf_apply, maximumf_apply, addf_apply, matmul_row, bcast_row, broadcast_apply]
  rfl

/-- The squares of the first branch. -/
theorem pay10_apply (v0 v2 : Vec Ideal S4096x64 .bf16) (v6 v8 : Vec Ideal S64x64 .bf16) (v10 v12 : Vec Ideal S1x64 .f32)
    (p : Fin 4096) (q : Fin 64) :
    k0_pay10 (F := Ideal) v0 v2 v6 v8 v10 v12 (ix2 p q)
      = k0_pay8 (F := Ideal) v0 v2 v6 v8 v10 v12 (ix2 p q) * k0_pay8 (F := Ideal) v0 v2 v6 v8 v10 v12 (ix2 p q) := by
  unfold k0_pay10
  exact mulf_apply _ _ _

/-- Entry (a, b) of the first score tile: the sum of row 128·a + b. -/
theorem pay1_apply (v36 : FVec Ideal S4096x64 .f32) (a : Fin 32) (b : Fin 128) :
    k0_pay1 (F := Ideal) v36 (ix2 a b) = ∑ c : Fin 64, v36 (ix2 (⟨a.val * 128 + b.val, by omega⟩ : Fin 4096) c) := by
  unfold k0_pay1
  dsimp only
  exact (tile_apply _ a b).trans (rowsum_apply v36 _)

/-- Entry (a, b) of the second score tile: the sum over the columns of the products at row 128·a + b. -/
theorem pay2_apply (v33 v35 : FVec Ideal S4096x64 .f32) (a : Fin 32) (b : Fin 128) :
    k0_pay2 (F := Ideal) v33 v35 (ix2 a b)
      = ∑ c : Fin 64, v33 (ix2 (⟨a.val * 128 + b.val, by omega⟩ : Fin 4096) c)
          * v35 (ix2 (⟨a.val * 128 + b.val, by omega⟩ : Fin 4096) c) := by
  unfold k0_pay2
  dsimp only
  exact (tile_apply _ a b).trans (rowsum_apply (mulf v33 v35) _)

/-- Row `p` of the concatenated tile. -/
theorem pay3_apply (v33 v35 : FVec Ideal S4096x64 .f32) (p : Fin 4096) (q : Fin 128) :
    k0_pay3 (F := Ideal) v33 v35 (ix2 p q) = Cert.Gcn.catRow (fun c => v33 (ix2 p c)) (fun c => v35 (ix2 p c)) q := by
  unfold k0_pay3 Cert.Gcn.catRow
  dsimp only
  by_cases h : q.val < 64
  · -- a column below 64 falls in the first piece, at the same coordinates
    rw [dif_pos h]
    refine concatenate_pair_apply_left _ v33 v35 concatenates_S4096x64_S4096x64_S4096x128_d1 (ix2 p q) rfl
      (ix2 p (⟨q.val, h⟩ : Fin 64)) ?_
    intro b
    match b with
    | ⟨0, _⟩ => rfl
    | ⟨1, _⟩ => rfl
  · -- a column from 64 on falls in the second piece, 64 columns to the left
    rw [dif_neg h]
    refine concatenate_pair_apply_right _ v33 v35 concatenates_S4096x64_S4096x64_S4096x128_d1 (ix2 p q) rfl rfl
      (ix2 p (⟨q.val - 64, by omega⟩ : Fin 64)) ?_ ?_
    · intro b hb
      match b, hb with
      | ⟨0, _⟩, _ => rfl
      | ⟨1, _⟩, hb => exact absurd rfl hb
    · show q.val - 64 + 64 = q.val
      omega

end Cert.KernelIdeal.KV

end
-- ==== Proof.KernelTile.lean ====
/-
  One tile of the kernel's grid in terms of the whole arrays.

  Grid point `t` (of 16) works on rows 4096·t … 4096·t + 4095: its three embedding blocks are those rows of the launched
  embeddings, the weight and bias blocks are the whole weights and biases. So row `p` of the tile's two branch results is
  row 4096·t + p of the specification's `uRow` and `nRow`.
-/
import proofs.«412559_j43920335569005_3_alg».proof.Proof.KernelPrelude
import proofs.«412559_j43920335569005_3_alg».proof.Proof.KernelBody

set_option maxRecDepth 16384

noncomputable section

namespace Cert.KernelIdeal.KV

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- Row `r` of the specification's shared user / positive-item result, on device `c`'s arguments. -/
abbrev specU (c : Dev nD) (r : Fin 65536) : Fin 64 → EReal :=
  Cert.Gcn.uRow (aUser m c) (aPos m c) (aTblU m c) (aTblI m c) (aW1 m c) (aB1 m c) (aW2 m c) (aB2 m c) r

/-- Row `r` of the specification's negative-item result. -/
abbrev specN (c : Dev nD) (r : Fin 65536) : Fin 64 → EReal :=
  Cert.Gcn.nRow (aNeg m c) (aTblI m c) (aW1 m c) (aB1 m c) (aW2 m c) (aB2 m c) r

theorem N_eq : cfg0.N = 16 := N_0

/-- Row `p` of tile `t` is a row of the batch. -/
theorem tile_row_lt (t : Fin cfg0.N) (p : Fin 4096) : t.val * 4096 + p.val < 65536 := by
  have h1 : t.val < 16 := lt_of_lt_of_eq t.isLt N_eq
  omega

/-- The loads of the body start at the origin of their blocks. -/
private theorem hz : (![0, 0] : Fin 2 → Nat) = fun _ => 0 := funext fun a => by fin_cases a <;> rfl

/-- The printed index maps over the grid: the three embedding windows move down one block of 4096 rows per grid point, the
    weight and bias windows stay at block (0, 0). -/
private theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Block `t` of the user embedding is its rows 4096·t … 4096·t + 4095. -/
private theorem iblk0_apply (c : Dev nD) (t : Fin cfg0.N) (p : Fin 4096) (k : Fin 64) :
    (iblk m c 0 t : Vec Ideal S4096x64 .bf16) (ix2 p k)
      = (V m c main_v1 : FVec Ideal S65536x64 .bf16) (ix2 (⟨t.val * 4096 + p.val, tile_row_lt t p⟩ : Fin 65536) k) := by
  obtain ⟨e0, e1⟩ := (idx_facts t).1
  unfold iblk
  rw [View.read_apply]
  show V m c main_v1 _ = V m c main_v1 _
  congr 1
  funext a
  apply Fin.ext
  match a with
  | ⟨0, _⟩ => show win0_0.index t (0 : Fin 2) * 4096 + 1 * p.val = t.val * 4096 + p.val; rw [e0]; omega
  | ⟨1, _⟩ => show win0_0.index t (1 : Fin 2) * 64 + 1 * k.val = k.val; rw [e1]; omega

/-- Block `t` of the positive-item embedding is its rows 4096·t … 4096·t + 4095. -/
private theorem iblk1_apply (c : Dev nD) (t : Fin cfg0.N) (p : Fin 4096) (k : Fin 64) :
    (iblk m c 1 t : Vec Ideal S4096x64 .bf16) (ix2 p k)
      = (V m c main_v3 : FVec Ideal S65536x64 .bf16) (ix2 (⟨t.val * 4096 + p.val, tile_row_lt t p⟩ : Fin 65536) k) := by
  obtain ⟨e0, e1⟩ := (idx_facts t).2.1
  unfold iblk
  rw [View.read_apply]
  show V m c main_v3 _ = V m c main_v3 _
  congr 1
  funext a
  apply Fin.ext
  match a with
  | ⟨0, _⟩ => show win0_1.index t (0 : Fin 2) * 4096 + 1 * p.val = t.val * 4096 + p.val; rw [e0]; omega
  | ⟨1, _⟩ => show win0_1.index t (1 : Fin 2) * 64 + 1 * k.val = k.val; rw [e1]; omega

/-- Block `t` of the negative-item embedding is its rows 4096·t … 4096·t + 4095. -/
private theorem iblk2_apply (c : Dev nD) (t : Fin cfg0.N) (p : Fin 4096) (k : Fin 64) :
    (iblk m c 2 t : Vec Ideal S4096x64 .bf16) (ix2 p k)
      = (V m c main_v5 : FVec Ideal S65536x64 .bf16) (ix2 (⟨t.val * 4096 + p.val, tile_row_lt t p⟩ : Fin 65536) k) := by
  obtain ⟨e0, e1⟩ := (idx_facts t).2.2.1
  unfold iblk
  rw [View.read_apply]
  show V m c main_v5 _ = V m c main_v5 _
  congr 1
  funext a
  apply Fin.ext
  match a with
  | ⟨0, _⟩ => show win0_2.index t (0 : Fin 2) * 4096 + 1 * p.val = t.val * 4096 + p.val; rw [e0]; omega
  | ⟨1, _⟩ => show win0_2.index t (1 : Fin 2) * 64 + 1 * k.val = k.val; rw [e1]; omega

/-- The first weight matrix's one block is the whole matrix. -/
private theorem iblk3_apply (c : Dev nD) (t : Fin cfg0.N) (a b : Fin 64) :
    (iblk m c 3 t : Vec Ideal S64x64 .bf16) (ix2 a b) = (V m c main_v6 : FVec Ideal S64x64 .bf16) (ix2 a b) := by
  obtain ⟨e0, e1⟩ := (idx_facts t).2.2.2.1
  unfold iblk
  rw [View.read_apply]
  show V m c main_v6 _ = V m c main_v6 _
  congr 1
  funext d
  apply Fin.ext
  match d with
  | ⟨0, _⟩ => show win0_3.index t (0 : Fin 2) * 64 + 1 * a.val = a.val; rw [e0]; omega
  | ⟨1, _⟩ => show win0_3.index t (1 : Fin 2) * 64 + 1 * b.val = b.val; rw [e1]; omega

/-- The second weight matrix's one block is the whole matrix. -/
private theorem iblk5_apply (c : Dev nD) (t : Fin cfg0.N) (a b : Fin 64) :
    (iblk m c 5 t : Vec Ideal S64x64 .bf16) (ix2 a b) = (V m c main_v7 : FVec Ideal S64x64 .bf16) (ix2 a b) := by
  obtain ⟨e0, e1⟩ := (idx_facts t).2.2.2.2.2.1
  unfold iblk
  rw [View.read_apply]
  show V m c main_v7 _ = V m c main_v7 _
  congr 1
  funext d
  apply Fin.ext
  match d with
  | ⟨0, _⟩ => show win0_5.index t (0 : Fin 2) * 64 + 1 * a.val = a.val; rw [e0]; omega
  | ⟨1, _⟩ => show win0_5.index t (1 : Fin 2) * 64 + 1 * b.val = b.val; rw [e1]; omega

/-- The first bias row's one block is the whole row. -/
private theorem iblk4_apply (c : Dev nD) (t : Fin cfg0.N) (k : Fin 64) :
    (iblk m c 4 t : Vec Ideal S1x64 .f32) (ix2 (0 : Fin 1) k) = (V m c main_v8 : FVec Ideal S1x64 .f32) (ix2 (0 : Fin 1) k) := by
  obtain ⟨e0, e1⟩ := (idx_facts t).2.2.2.2.1
  unfold iblk
  rw [View.read_apply]
  show V m c main_v8 _ = V m c main_v8 _
  congr 1
  funext d
  apply Fin.ext
  match d with
  | ⟨0, _⟩ => show win0_4.index t (0 : Fin 2) * 1 + 1 * (0 : Fin 1).val = (0 : Fin 1).val; rw [e0]; rfl
  | ⟨1, _⟩ => show win0_4.index t (1 : Fin 2) * 64 + 1 * k.val = k.val; rw [e1]; omega

/-- The second bias row's one block is the whole row. -/
private theorem iblk6_apply (c : Dev nD) (t : Fin cfg0.N) (k : Fin 64) :
    (iblk m c 6 t : Vec Ideal S1x64 .f32) (ix2 (0 : Fin 1) k) = (V m c main_v9 : FVec Ideal S1x64 .f32) (ix2 (0 : Fin 1) k) := by
  obtain ⟨e0, e1⟩ := (idx_facts t).2.2.2.2.2.2
  unfold iblk
  rw [View.read_apply]
  show V m c main_v9 _ = V m c main_v9 _
  congr 1
  funext d
  apply Fin.ext
  match d with
  | ⟨0, _⟩ => show win0_6.index t (0 : Fin 2) * 1 + 1 * (0 : Fin 1).val = (0 : Fin 1).val; rw [e0]; rfl
  | ⟨1, _⟩ => show win0_6.index t (1 : Fin 2) * 64 + 1 * k.val = k.val; rw [e1]; omega

/-- Row `p` of tile `t`'s user block is the user's embedding row. -/
private theorem blk_user (h : InRange m) (c : Dev nD) (t : Fin cfg0.N) (p : Fin 4096) :
    (fun k => (iblk m c 0 t : Vec Ideal S4096x64 .bf16) (ix2 p k))
      = Cert.Gcn.embRow (aTblU m c) (aUser m c) ⟨t.val * 4096 + p.val, tile_row_lt t p⟩ :=
  funext fun k => (iblk0_apply m c t p k).trans (V_v1 m h c _ k)

/-- Row `p` of tile `t`'s positive-item block. -/
private theorem blk_pos (h : InRange m) (c : Dev nD) (t : Fin cfg0.N) (p : Fin 4096) :
    (fun k => (iblk m c 1 t : Vec Ideal S4096x64 .bf16) (ix2 p k))
      = Cert.Gcn.embRow (aTblI m c) (aPos m c) ⟨t.val * 4096 + p.val, tile_row_lt t p⟩ :=
  funext fun k => (iblk1_apply m c t p k).trans (V_v3 m h c _ k)

/-- Row `p` of tile `t`'s negative-item block. -/
private theorem blk_neg (h : InRange m) (c : Dev nD) (t : Fin cfg0.N) (p : Fin 4096) :
    (fun k => (iblk m c 2 t : Vec Ideal S4096x64 .bf16) (ix2 p k))
      = Cert.Gcn.embRow (aTblI m c) (aNeg m c) ⟨t.val * 4096 + p.val, tile_row_lt t p⟩ :=
  funext fun k => (iblk2_apply m c t p k).trans (V_v5 m h c _ k)

/-- Every tile's first weight block is the first weight matrix. -/
private theorem blk_W1 (c : Dev nD) (t : Fin cfg0.N) : (iblk m c 3 t : Vec Ideal S64x64 .bf16) = aW1 m c :=
  funext fun i => by
    obtain ⟨a, b, rfl⟩ : ∃ a b, i = ix2 a b := ⟨i 0, i 1, eq_ix2 i⟩
    exact (iblk3_apply m c t a b).trans (V_v6 m c a b)

/-- Every tile's second weight block is the second weight matrix. -/
private theorem blk_W2 (c : Dev nD) (t : Fin cfg0.N) : (iblk m c 5 t : Vec Ideal S64x64 .bf16) = aW2 m c :=
  funext fun i => by
    obtain ⟨a, b, rfl⟩ : ∃ a b, i = ix2 a b := ⟨i 0, i 1, eq_ix2 i⟩
    exact (iblk5_apply m c t a b).trans (V_v7 m c a b)

/-- Every tile's first bias block, as a function of the column, is the first bias. -/
private theorem blk_b1 (c : Dev nD) (t : Fin cfg0.N) :
    (fun k => (iblk m c 4 t : Vec Ideal S1x64 .f32) (ix2 (0 : Fin 1) k)) = Cert.Gcn.biasRow (aB1 m c) :=
  funext fun k => (iblk4_apply m c t k).trans (V_v8 m c k)

/-- Every tile's second bias block is the second bias. -/
private theorem blk_b2 (c : Dev nD) (t : Fin cfg0.N) :
    (fun k => (iblk m c 6 t : Vec Ideal S1x64 .f32) (ix2 (0 : Fin 1) k)) = Cert.Gcn.biasRow (aB2 m c) :=
  funext fun k => (iblk6_apply m c t k).trans (V_v9 m c k)

/-- The first branch of the body on tile `t`, row `p`: the specification's row 4096·t + p. -/
theorem tile_uu (h : InRange m) (c : Dev nD) (t : Fin cfg0.N) (p : Fin 4096) (q : Fin 64) :
    k0_pay8 (F := Ideal) (View.ld (iblk m c 0 t) r0_0) (View.ld (iblk m c 1 t) r0_0) (View.ld (iblk m c 3 t) r0_1)
        (View.ld (iblk m c 5 t) r0_1) (View.ld (iblk m c 4 t) r0_2) (View.ld (iblk m c 6 t) r0_2) (ix2 p q)
      = specU m c ⟨t.val * 4096 + p.val, tile_row_lt t p⟩ q := by
  simp only [View.ld_unit_zero (S := S4096x64) hz, View.ld_unit_zero (S := S64x64) hz, View.ld_unit_zero (S := S1x64) hz]
  refine (pay8_apply (iblk m c 0 t) (iblk m c 1 t) (iblk m c 3 t) (iblk m c 5 t) (iblk m c 4 t) (iblk m c 6 t) p q).trans ?_
  rw [blk_user m h c t p, blk_pos m h c t p, blk_W1 m c t, blk_W2 m c t, blk_b1 m c t, blk_b2 m c t]
  rfl

/-- The second branch of the body on tile `t`, row `p`. -/
theorem tile_ng (h : InRange m) (c : Dev nD) (t : Fin cfg0.N) (p : Fin 4096) (q : Fin 64) :
    k0_pay9 (F := Ideal) (View.ld (iblk m c 2 t) r0_0) (View.ld (iblk m c 3 t) r0_1) (View.ld (iblk m c 5 t) r0_1)
        (View.ld (iblk m c 4 t) r0_2) (View.ld (iblk m c 6 t) r0_2) (ix2 p q)
      = specN m c ⟨t.val * 4096 + p.val, tile_row_lt t p⟩ q := by
  simp only [View.ld_unit_zero (S := S4096x64) hz, View.ld_unit_zero (S := S64x64) hz, View.ld_unit_zero (S := S1x64) hz]
  refine (pay9_apply (iblk m c 2 t) (iblk m c 3 t) (iblk m c 5 t) (iblk m c 4 t) (iblk m c 6 t) p q).trans ?_
  rw [blk_neg m h c t p, blk_W1 m c t, blk_W2 m c t, blk_b1 m c t, blk_b2 m c t]
  rfl

end Cert.KernelIdeal.KV

end
-- ==== Proof.KernelScores.lean ====
/-
  The two score results of the kernel's program.

  The pallas_call writes each score as a 512 × 128 array whose block `t` (32 × 128) holds the scores of rows
  4096·t … 4096·t + 4095, entry (a, b) of the block being row 4096·t + 128·a + b; so entry (A, B) of the array is the
  score of row 128·A + B, and the row-major reshape to 65536 × 1 after the call puts the score of row `r` at (r, 0).
-/
import proofs.«412559_j43920335569005_3_alg».proof.Proof.KernelTile
import Idealize.ShloMosaic.Lib.Pipeline.Value
import Idealize.ShloMosaic.Lib.StableHlo.Run

set_option maxRecDepth 16384

noncomputable section

namespace Cert.KernelIdeal.KV

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-! ## The layout of a score array -/

/-- A score block sits at offset (0, 0) of its staging buffer. -/
private theorem offs_zero : (![0, 0] : Fin 2 → Nat) = fun _ => 0 := funext fun a => by fin_cases a <;> rfl

/-- Entry (A, B) of a 512 × 128 score array stands for row 128·A + B of the batch. -/
private theorem score_row_lt (i : S512x128.Idx) : (i 0).val * 128 + (i 1).val < 65536 := by
  have h0 : (i 0).val < 512 := (i 0).isLt
  have h1 : (i 1).val < 128 := (i 1).isLt
  omega

/-- Grid point `t` writes block (t, 0) of either score array. -/
private theorem score_idx : ∀ t : Fin cfg0.N, win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The positive scores -/

/-- The positive scores laid out 512 × 128: entry (A, B) is the score of row 128·A + B. -/
private def posArr (c : Dev nD) : S512x128.Idx → EReal := fun i =>
  Cert.Gcn.posScore (specU m c ⟨(i 0).val * 128 + (i 1).val, score_row_lt i⟩)

/-- The entry of the layout that stands for row `r`. -/
private theorem posArr_of_row (c : Dev nD) (i : S512x128.Idx) (r : Fin 65536) (hr : r.val = (i 0).val * 128 + (i 1).val) :
    posArr m c i = Cert.Gcn.posScore (specU m c r) := by
  obtain rfl : r = ⟨(i 0).val * 128 + (i 1).val, score_row_lt i⟩ := Fin.ext hr
  rfl

/-- What grid point `t` writes back to the first score array is block `t` of the layout: entry (a, b) of the block is
    the sum of squares of the tile's row 128·a + b, which is row 4096·t + 128·a + b of the batch, and the block's entry
    (a, b) is the array's entry (32·t + a, b). -/
private theorem pos_flushed (h : InRange m) (c : Dev nD) (t : Fin cfg0.N) :
    (dats m 0 c).flushed 7 t = ((cfg0.win 7).blk t).view.read (Elt Ideal) (posArr m c) := by
  show (cfg0.win 7).cut (grid0.coords t) ((dats m 0 c).after 7 t) = _
  rw [after0_7]
  unfold out0_7
  rw [View.canon_unit_zero offs_zero]
  funext y
  obtain ⟨a, b, rfl⟩ : ∃ (a : Fin 32) (b : Fin 128), y = ix2 a b := ⟨y 0, y 1, eq_ix2 y⟩
  show k0_pay1 (F := Ideal) _ (ix2 a b) = posArr m c (((cfg0.win 7).blk t).view.emb (ix2 a b))
  obtain ⟨e0, e1, -, -⟩ := score_idx t
  have ht : t.val < 16 := lt_of_lt_of_eq t.isLt N_eq
  have ha : a.val < 32 := a.isLt
  have hb : b.val < 128 := b.isLt
  rw [pay1_apply, posArr_of_row m c _ ⟨t.val * 4096 + (a.val * 128 + b.val), by omega⟩
    (by show t.val * 4096 + (a.val * 128 + b.val)
          = (win0_7.index t (0 : Fin 2) * 32 + 1 * a.val) * 128 + (win0_7.index t (1 : Fin 2) * 128 + 1 * b.val)
        rw [e0, e1]; omega)]
  unfold Cert.Gcn.posScore
  refine Finset.sum_congr rfl fun q _ => ?_
  have hu := tile_uu m h c t ⟨a.val * 128 + b.val, by omega⟩ q
  rw [pay10_apply]
  exact congrArg₂ (· * ·) hu hu

/-- An entry of the first score array lies in point `t`'s block iff each coordinate lies in the block's range. -/
private theorem pos_mem_blk (t : Fin cfg0.N) (i : S512x128.Idx) :
    i ∈ ((cfg0.win 7).blk t).view.set ↔ ∀ a : Fin 2, win0_7.index t a * S32x128.size a ≤ (i a).val
      ∧ (i a).val < win0_7.index t a * S32x128.size a + S32x128.size a := by
  show i ∈ ((View.whole main_v10_0).slice (win0_7.rect t)).set ↔ _
  rw [View.set_slice_whole, Rect.mem_set_unit]
  exact Iff.rfl

/-- Entry (A, B) is written by grid point A / 32. -/
private theorem pos_cover (i : S512x128.Idx) :
    ∃ t : Fin cfg0.N, (cfg0.win 7).flush t = true ∧ i ∈ ((cfg0.win 7).blk t).view.set := by
  have h0 : (i 0).val < 512 := (i 0).isLt
  have h1 : (i 1).val < 128 := (i 1).isLt
  have hN : cfg0.N = 16 := N_eq
  refine ⟨⟨(i 0).val / 32, by omega⟩, flush0_7 _, ?_⟩
  rw [pos_mem_blk]
  obtain ⟨e0, e1, -, -⟩ := score_idx ⟨(i 0).val / 32, by omega⟩
  intro a
  match a with
  | ⟨0, _⟩ =>
    show win0_7.index _ (0 : Fin 2) * 32 ≤ (i 0).val ∧ (i 0).val < win0_7.index _ (0 : Fin 2) * 32 + 32
    rw [e0]; show (i 0).val / 32 * 32 ≤ (i 0).val ∧ (i 0).val < (i 0).val / 32 * 32 + 32; omega
  | ⟨1, _⟩ =>
    show win0_7.index _ (1 : Fin 2) * 128 ≤ (i 1).val ∧ (i 1).val < win0_7.index _ (1 : Fin 2) * 128 + 128
    rw [e1]; omega

/-- After the call the first score array is the layout of the positive scores. -/
private theorem pos_final (h : InRange m) (c : Dev nD) : (dats m 0 c).arrAt 7 cfg0.N = posArr m c :=
  (dats m 0 c).arrAt_eq_of_cover 7 (posArr m c) (fun t _ => pos_flushed m h c t) pos_cover

/-- The first result of @main after the call and the reshape: the positive scores. -/
theorem res_v11 (h : InRange m) (c : Dev nD) :
    (Pipeline.afterTail₀ cfgs (dats m) 0 (V0 m) [hostOps1] c main_v11 : FVec Ideal S65536x1 .f32)
      = Cert.Gcn.outPos (aUser m c) (aPos m c) (aTblU m c) (aTblI m c) (aW1 m c) (aB1 m c) (aW2 m c) (aB2 m c) := by
  unfold Pipeline.afterTail₀
  show StableHlo.after hostOps1 _ (Proc.devRef .tc main_v11) = _
  after_results
  funext j
  have hj0 : (j 0).val < 65536 := (j 0).isLt
  have hj1 : (j 1).val < 1 := (j 1).isLt
  show shapeCast S65536x1 (Pipeline.withArrays spec0 c (V0 m c) (fun w => (dats m 0 c).arrAt w cfg0.N)
      (Proc.devRef .tc (Pipeline.arrRef spec0 7))) shapeCasts_S512x128_S65536x1 j = _
  rw [Pipeline.withArrays_arr spec0 launch0.win.arr_inj c _ _ 7, pos_final m h c,
    shapeCast_apply (posArr m c) shapeCasts_S512x128_S65536x1 j
      (ix2 (⟨(j 0).val / 128, by omega⟩ : Fin 512) (⟨(j 0).val % 128, by omega⟩ : Fin 128))
      (by rw [Shape.rowMajor_val_two, Shape.rowMajor_val_two]
          show (j 0).val / 128 * 128 + (j 0).val % 128 = (j 0).val * 1 + (j 1).val
          omega)]
  rw [posArr_of_row m c _ ⟨(j 0).val, hj0⟩ (by show (j 0).val = (j 0).val / 128 * 128 + (j 0).val % 128; omega)]
  rfl

/-! ## The negative scores -/

/-- The negative scores laid out 512 × 128: entry (A, B) is the score of row 128·A + B. -/
private def negArr (c : Dev nD) : S512x128.Idx → EReal := fun i =>
  Cert.Gcn.negScore (specU m c ⟨(i 0).val * 128 + (i 1).val, score_row_lt i⟩)
    (specN m c ⟨(i 0).val * 128 + (i 1).val, score_row_lt i⟩)

/-- The entry of the layout that stands for row `r`. -/
private theorem negArr_of_row (c : Dev nD) (i : S512x128.Idx) (r : Fin 65536) (hr : r.val = (i 0).val * 128 + (i 1).val) :
    negArr m c i = Cert.Gcn.negScore (specU m c r) (specN m c r) := by
  obtain rfl : r = ⟨(i 0).val * 128 + (i 1).val, score_row_lt i⟩ := Fin.ext hr
  rfl

/-- What grid point `t` writes back to the second score array is block `t` of the layout: entry (a, b) of the block is
    the sum over the columns of the products of the two branches at the tile's row 128·a + b. -/
private theorem neg_flushed (h : InRange m) (c : Dev nD) (t : Fin cfg0.N) :
    (dats m 0 c).flushed 8 t = ((cfg0.win 8).blk t).view.read (Elt Ideal) (negArr m c) := by
  show (cfg0.win 8).cut (grid0.coords t) ((dats m 0 c).after 8 t) = _
  rw [after0_8]
  unfold out0_8
  rw [View.canon_unit_zero offs_zero]
  funext y
  obtain ⟨a, b, rfl⟩ : ∃ (a : Fin 32) (b : Fin 128), y = ix2 a b := ⟨y 0, y 1, eq_ix2 y⟩
  show k0_pay2 (F := Ideal) _ _ (ix2 a b) = negArr m c (((cfg0.win 8).blk t).view.emb (ix2 a b))
  obtain ⟨-, -, e0, e1⟩ := score_idx t
  have ht : t.val < 16 := lt_of_lt_of_eq t.isLt N_eq
  have ha : a.val < 32 := a.isLt
  have hb : b.val < 128 := b.isLt
  rw [pay2_apply, negArr_of_row m c _ ⟨t.val * 4096 + (a.val * 128 + b.val), by omega⟩
    (by show t.val * 4096 + (a.val * 128 + b.val)
          = (win0_8.index t (0 : Fin 2) * 32 + 1 * a.val) * 128 + (win0_8.index t (1 : Fin 2) * 128 + 1 * b.val)
        rw [e0, e1]; omega)]
  unfold Cert.Gcn.negScore
  refine Finset.sum_congr rfl fun q _ => ?_
  have hu := tile_uu m h c t ⟨a.val * 128 + b.val, by omega⟩ q
  have hn := tile_ng m h c t ⟨a.val * 128 + b.val, by omega⟩ q
  exact congrArg₂ (· * ·) hu hn

/-- An entry of the second score array lies in point `t`'s block iff each coordinate lies in the block's range. -/
private theorem neg_mem_blk (t : Fin cfg0.N) (i : S512x128.Idx) :
    i ∈ ((cfg0.win 8).blk t).view.set ↔ ∀ a : Fin 2, win0_8.index t a * S32x128.size a ≤ (i a).val
      ∧ (i a).val < win0_8.index t a * S32x128.size a + S32x128.size a := by
  show i ∈ ((View.whole main_v10_1).slice (win0_8.rect t)).set ↔ _
  rw [View.set_slice_whole, Rect.mem_set_unit]
  exact Iff.rfl

/-- Entry (A, B) is written by grid point A / 32. -/
private theorem neg_cover (i : S512x128.Idx) :
    ∃ t : Fin cfg0.N, (cfg0.win 8).flush t = true ∧ i ∈ ((cfg0.win 8).blk t).view.set := by
  have h0 : (i 0).val < 512 := (i 0).isLt
  have h1 : (i 1).val < 128 := (i 1).isLt
  have hN : cfg0.N = 16 := N_eq
  refine ⟨⟨(i 0).val / 32, by omega⟩, flush0_8 _, ?_⟩
  rw [neg_mem_blk]
  obtain ⟨-, -, e0, e1⟩ := score_idx ⟨(i 0).val / 32, by omega⟩
  intro a
  match a with
  | ⟨0, _⟩ =>
    show win0_8.index _ (0 : Fin 2) * 32 ≤ (i 0).val ∧ (i 0).val < win0_8.index _ (0 : Fin 2) * 32 + 32
    rw [e0]; show (i 0).val / 32 * 32 ≤ (i 0).val ∧ (i 0).val < (i 0).val / 32 * 32 + 32; omega
  | ⟨1, _⟩ =>
    show win0_8.index _ (1 : Fin 2) * 128 ≤ (i 1).val ∧ (i 1).val < win0_8.index _ (1 : Fin 2) * 128 + 128
    rw [e1]; omega

/-- After the call the second score array is the layout of the negative scores. -/
private theorem neg_final (h : InRange m) (c : Dev nD) : (dats m 0 c).arrAt 8 cfg0.N = negArr m c :=
  (dats m 0 c).arrAt_eq_of_cover 8 (negArr m c) (fun t _ => neg_flushed m h c t) neg_cover

/-- The second result: the negative scores. -/
theorem res_v12 (h : InRange m) (c : Dev nD) :
    (Pipeline.afterTail₀ cfgs (dats m) 0 (V0 m) [hostOps1] c main_v12 : FVec Ideal S65536x1 .f32)
      = Cert.Gcn.outNeg (aUser m c) (aPos m c) (aNeg m c) (aTblU m c) (aTblI m c) (aW1 m c) (aB1 m c) (aW2 m c) (aB2 m c) := by
  unfold Pipeline.afterTail₀
  show StableHlo.after hostOps1 _ (Proc.devRef .tc main_v12) = _
  after_results
  funext j
  have hj0 : (j 0).val < 65536 := (j 0).isLt
  have hj1 : (j 1).val < 1 := (j 1).isLt
  show shapeCast S65536x1 (Pipeline.withArrays spec0 c (V0 m c) (fun w => (dats m 0 c).arrAt w cfg0.N)
      (Proc.devRef .tc (Pipeline.arrRef spec0 8))) shapeCasts_S512x128_S65536x1 j = _
  rw [Pipeline.withArrays_arr spec0 launch0.win.arr_inj c _ _ 8, neg_final m h c,
    shapeCast_apply (negArr m c) shapeCasts_S512x128_S65536x1 j
      (ix2 (⟨(j 0).val / 128, by omega⟩ : Fin 512) (⟨(j 0).val % 128, by omega⟩ : Fin 128))
      (by rw [Shape.rowMajor_val_two, Shape.rowMajor_val_two]
          show (j 0).val / 128 * 128 + (j 0).val % 128 = (j 0).val * 1 + (j 1).val
          omega)]
  rw [negArr_of_row m c _ ⟨(j 0).val, hj0⟩ (by show (j 0).val = (j 0).val / 128 * 128 + (j 0).val % 128; omega)]
  rfl

end Cert.KernelIdeal.KV

end
-- ==== Proof.KernelMatrices.lean ====
/-
  The two matrix results of the kernel's program.

  The pallas_call writes the concatenated result (65536 × 128) and the user result (65536 × 64) block by block: block `t`
  (4096 rows) holds rows 4096·t … 4096·t + 4095, whole rows. The sixteen blocks tile each array, so each array is the
  specification's function of the arguments.
-/
import proofs.«412559_j43920335569005_3_alg».proof.Proof.KernelTile
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The stores of both results start at the origin of their blocks. -/
private theorem origin2 : (![0, 0] : Fin 2 → Nat) = fun _ => 0 := funext fun a => by fin_cases a <;> rfl

/-- Grid point `t` writes block (t, 0) of each of the two matrices. -/
private theorem block_index : ∀ t : Fin cfg0.N, win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-! ## The user result (65536 × 64) -/

/-- The specification's user result on device `c`'s arguments. -/
private abbrev specOutU (c : Dev nD) : FVec Ideal S65536x64 .f32 :=
  Cert.Gcn.outU (aUser m c) (aPos m c) (aTblU m c) (aTblI m c) (aW1 m c) (aB1 m c) (aW2 m c) (aB2 m c)

/-- Entry `y` of the tile that grid point `t` computes is the specification's entry at row 4096·t + y₀, column y₁. -/
private theorem tileU_apply (h : InRange m) (c : Dev nD) (t : Fin cfg0.N) (y : S4096x64.Idx) :
    k0_pay8 (F := Ideal) (View.ld (iblk m c 0 t) r0_0) (View.ld (iblk m c 1 t) r0_0) (View.ld (iblk m c 3 t) r0_1)
        (View.ld (iblk m c 5 t) r0_1) (View.ld (iblk m c 4 t) r0_2) (View.ld (iblk m c 6 t) r0_2) y
      = specOutU m c (((cfg0.win 10).blk t).view.emb y) := by
  obtain ⟨p, q, rfl⟩ : ∃ (p : Fin 4096) (q : Fin 64), y = ix2 p q := ⟨y 0, y 1, eq_ix2 y⟩
  rw [tile_uu m h c t p q]
  obtain ⟨-, -, e0, e1⟩ := block_index t
  have hr : ((((cfg0.win 10).blk t).view.emb (ix2 p q)) 0).val = t.val * 4096 + p.val := by
    show win0_10.index t (0 : Fin 2) * 4096 + 1 * p.val = _
    rw [e0]; omega
  have hq : ((((cfg0.win 10).blk t).view.emb (ix2 p q)) 1).val = q.val := by
    show win0_10.index t (1 : Fin 2) * 64 + 1 * q.val = _
    rw [e1]; omega
  show specU m c _ _ = specU m c ⟨_, _⟩ ⟨_, _⟩
  exact congrArg₂ (specU m c) (Fin.ext hr.symm) (Fin.ext hq.symm)

/-- What grid point `t` writes back to the user result is block `t` of the specification's array. -/
private theorem flushedU_eq (h : InRange m) (c : Dev nD) (t : Fin cfg0.N) :
    (dats m 0 c).flushed 10 t = ((cfg0.win 10).blk t).view.read (Elt Ideal) (specOutU m c) := by
  show (cfg0.win 10).cut (grid0.coords t) ((dats m 0 c).after 10 t) = _
  rw [after0_10]
  unfold out0_10
  rw [View.canon_unit_zero origin2]
  funext y
  exact tileU_apply m h c t y

/-- An index of the user result is in block `t` iff each coordinate is in the block's range. -/
private theorem mem_blockU (t : Fin cfg0.N) (i : S65536x64.Idx) :
    i ∈ ((cfg0.win 10).blk t).view.set ↔ ∀ a : Fin 2, win0_10.index t a * S4096x64.size a ≤ (i a).val ∧ (i a).val < win0_10.index t a * S4096x64.size a + S4096x64.size a := by
  show i ∈ ((View.whole main_v10_3).slice (win0_10.rect t)).set ↔ _
  rw [View.set_slice_whole, Rect.mem_set_unit]
  exact Iff.rfl

/-- Row `r` of the user result lies in block `r / 4096`. -/
private theorem coverU (i : S65536x64.Idx) :
    ∃ t : Fin cfg0.N, (cfg0.win 10).flush t = true ∧ i ∈ ((cfg0.win 10).blk t).view.set := by
  have hi0 : (i 0).val < 65536 := (i 0).isLt
  have hi1 : (i 1).val < 64 := (i 1).isLt
  obtain ⟨t, ht⟩ : ∃ t : Fin cfg0.N, t.val = (i 0).val / 4096 :=
    ⟨⟨(i 0).val / 4096, lt_of_lt_of_eq (by omega) N_eq.symm⟩, rfl⟩
  obtain ⟨-, -, e0, e1⟩ := block_index t
  refine ⟨t, flush0_10 t, ?_⟩
  rw [mem_blockU]
  intro a
  match a with
  | ⟨0, _⟩ => show win0_10.index t (0 : Fin 2) * 4096 ≤ (i 0).val ∧ (i 0).val < win0_10.index t (0 : Fin 2) * 4096 + 4096; omega
  | ⟨1, _⟩ => show win0_10.index t (1 : Fin 2) * 64 ≤ (i 1).val ∧ (i 1).val < win0_10.index t (1 : Fin 2) * 64 + 64; omega

/-! ## The concatenated result (65536 × 128) -/

/-- The specification's concatenated result on device `c`'s arguments. -/
private abbrev specOutCat (c : Dev nD) : FVec Ideal S65536x128 .f32 :=
  Cert.Gcn.outCat (aUser m c) (aPos m c) (aNeg m c) (aTblU m c) (aTblI m c) (aW1 m c) (aB1 m c) (aW2 m c) (aB2 m c)

/-- Row `p` of a concatenated tile whose two halves have rows `u` and `n` there is `u ++ n`. -/
private theorem cat_row (v33 v35 : FVec Ideal S4096x64 .f32) (p : Fin 4096) (q : Fin 128) (u n : Fin 64 → EReal)
    (hu : ∀ k, v33 (ix2 p k) = u k) (hn : ∀ k, v35 (ix2 p k) = n k) :
    k0_pay3 (F := Ideal) v33 v35 (ix2 p q) = Cert.Gcn.catRow u n q := by
  rw [pay3_apply, show (fun k => v33 (ix2 p k)) = u from funext hu, show (fun k => v35 (ix2 p k)) = n from funext hn]

/-- Entry `y` of the tile that grid point `t` computes is the specification's entry at row 4096·t + y₀, column y₁. -/
private theorem tileCat_apply (h : InRange m) (c : Dev nD) (t : Fin cfg0.N) (y : S4096x128.Idx) :
    k0_pay3 (F := Ideal)
        (k0_pay8 (F := Ideal) (View.ld (iblk m c 0 t) r0_0) (View.ld (iblk m c 1 t) r0_0) (View.ld (iblk m c 3 t) r0_1)
          (View.ld (iblk m c 5 t) r0_1) (View.ld (iblk m c 4 t) r0_2) (View.ld (iblk m c 6 t) r0_2))
        (k0_pay9 (F := Ideal) (View.ld (iblk m c 2 t) r0_0) (View.ld (iblk m c 3 t) r0_1) (View.ld (iblk m c 5 t) r0_1)
          (View.ld (iblk m c 4 t) r0_2) (View.ld (iblk m c 6 t) r0_2)) y
      = specOutCat m c (((cfg0.win 9).blk t).view.emb y) := by
  obtain ⟨p, q, rfl⟩ : ∃ (p : Fin 4096) (q : Fin 128), y = ix2 p q := ⟨y 0, y 1, eq_ix2 y⟩
  refine (cat_row _ _ p q (specU m c ⟨t.val * 4096 + p.val, tile_row_lt t p⟩)
    (specN m c ⟨t.val * 4096 + p.val, tile_row_lt t p⟩) (fun k => tile_uu m h c t p k) (fun k => tile_ng m h c t p k)).trans ?_
  obtain ⟨e0, e1, -, -⟩ := block_index t
  have hr : ((((cfg0.win 9).blk t).view.emb (ix2 p q)) 0).val = t.val * 4096 + p.val := by
    show win0_9.index t (0 : Fin 2) * 4096 + 1 * p.val = _
    rw [e0]; omega
  have hq : ((((cfg0.win 9).blk t).view.emb (ix2 p q)) 1).val = q.val := by
    show win0_9.index t (1 : Fin 2) * 128 + 1 * q.val = _
    rw [e1]; omega
  show Cert.Gcn.catRow (specU m c _) (specN m c _) _ = Cert.Gcn.catRow (specU m c ⟨_, _⟩) (specN m c ⟨_, _⟩) ⟨_, _⟩
  exact congrArg₂ (fun r k => Cert.Gcn.catRow (specU m c r) (specN m c r) k) (Fin.ext hr.symm) (Fin.ext hq.symm)

/-- What grid point `t` writes back to the concatenated result is block `t` of the specification's array. -/
private theorem flushedCat_eq (h : InRange m) (c : Dev nD) (t : Fin cfg0.N) :
    (dats m 0 c).flushed 9 t = ((cfg0.win 9).blk t).view.read (Elt Ideal) (specOutCat m c) := by
  show (cfg0.win 9).cut (grid0.coords t) ((dats m 0 c).after 9 t) = _
  rw [after0_9]
  unfold out0_9
  rw [View.canon_unit_zero origin2]
  funext y
  exact tileCat_apply m h c t y

/-- An index of the concatenated result is in block `t` iff each coordinate is in the block's range. -/
private theorem mem_blockCat (t : Fin cfg0.N) (i : S65536x128.Idx) :
    i ∈ ((cfg0.win 9).blk t).view.set ↔ ∀ a : Fin 2, win0_9.index t a * S4096x128.size a ≤ (i a).val ∧ (i a).val < win0_9.index t a * S4096x128.size a + S4096x128.size a := by
  show i ∈ ((View.whole main_v10_2).slice (win0_9.rect t)).set ↔ _
  rw [View.set_slice_whole, Rect.mem_set_unit]
  exact Iff.rfl

/-- Row `r` of the concatenated result lies in block `r / 4096`. -/
private theorem coverCat (i : S65536x128.Idx) :
    ∃ t : Fin cfg0.N, (cfg0.win 9).flush t = true ∧ i ∈ ((cfg0.win 9).blk t).view.set := by
  have hi0 : (i 0).val < 65536 := (i 0).isLt
  have hi1 : (i 1).val < 128 := (i 1).isLt
  obtain ⟨t, ht⟩ : ∃ t : Fin cfg0.N, t.val = (i 0).val / 4096 :=
    ⟨⟨(i 0).val / 4096, lt_of_lt_of_eq (by omega) N_eq.symm⟩, rfl⟩
  obtain ⟨e0, e1, -, -⟩ := block_index t
  refine ⟨t, flush0_9 t, ?_⟩
  rw [mem_blockCat]
  intro a
  match a with
  | ⟨0, _⟩ => show win0_9.index t (0 : Fin 2) * 4096 ≤ (i 0).val ∧ (i 0).val < win0_9.index t (0 : Fin 2) * 4096 + 4096; omega
  | ⟨1, _⟩ => show win0_9.index t (1 : Fin 2) * 128 ≤ (i 1).val ∧ (i 1).val < win0_9.index t (1 : Fin 2) * 128 + 128; omega

/-- The third result of @main: the array of the call's window 9 after the run. -/
theorem res_v10_2 (h : InRange m) (c : Dev nD) :
    ((dats m 0 c).arrAt 9 cfg0.N : FVec Ideal S65536x128 .f32)
      = Cert.Gcn.outCat (aUser m c) (aPos m c) (aNeg m c) (aTblU m c) (aTblI m c) (aW1 m c) (aB1 m c) (aW2 m c) (aB2 m c) :=
  (dats m 0 c).arrAt_eq_of_cover 9 (specOutCat m c) (fun t _ => flushedCat_eq m h c t) coverCat

/-- The fourth result of @main: the array of the call's window 10 after the run. -/
theorem res_v10_3 (h : InRange m) (c : Dev nD) :
    ((dats m 0 c).arrAt 10 cfg0.N : FVec Ideal S65536x64 .f32)
      = Cert.Gcn.outU (aUser m c) (aPos m c) (aTblU m c) (aTblI m c) (aW1 m c) (aB1 m c) (aW2 m c) (aB2 m c) :=
  (dats m 0 c).arrAt_eq_of_cover 10 (specOutU m c) (fun t _ => flushedU_eq m h c t) coverU

end Cert.KernelIdeal.KV

end
-- ==== Proof.KernelRun.lean ====
/-
  The kernel's program run: its four results as the specification's functions of the arguments.

  The generated frame run leaves every array of the pallas_call at what the proof data computes and every other buffer
  at what the operations after the call leave; the two matrix results are arrays of the call (windows 9 and 10), the two
  score results come out of the reshapes after it. Under the index range each is the specification's function.
-/
import proofs.«412559_j43920335569005_3_alg».proof.Proof.KernelScores
import proofs.«412559_j43920335569005_3_alg».proof.Proof.KernelMatrices

set_option maxRecDepth 16384

noncomputable section

namespace Cert.KernelIdeal.KV

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- Every weakly fair execution of the kernel's program ends with the four results at the specification's functions of
    the argument arrays, the arguments unchanged. -/
theorem run_value (h : InRange m) :
    θ_run defs (onTc (τ := τ) (main (F := Ideal))) ⟨m, fun _ => 0, ρ⟩ (fun r => ∀ c : Dev nD,
      r.2.mem ((c.tc : Thread nD τ).loc main_v11)
          = Cert.Gcn.outPos (aUser m c) (aPos m c) (aTblU m c) (aTblI m c) (aW1 m c) (aB1 m c) (aW2 m c) (aB2 m c)
      ∧ r.2.mem ((c.tc : Thread nD τ).loc main_v12)
          = Cert.Gcn.outNeg (aUser m c) (aPos m c) (aNeg m c) (aTblU m c) (aTblI m c) (aW1 m c) (aB1 m c) (aW2 m c) (aB2 m c)
      ∧ r.2.mem ((c.tc : Thread nD τ).loc main_v10_2)
          = Cert.Gcn.outCat (aUser m c) (aPos m c) (aNeg m c) (aTblU m c) (aTblI m c) (aW1 m c) (aB1 m c) (aW2 m c) (aB2 m c)
      ∧ r.2.mem ((c.tc : Thread nD τ).loc main_v10_3)
          = Cert.Gcn.outU (aUser m c) (aPos m c) (aTblU m c) (aTblI m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ hh c =>
    ⟨((hh c).2 main_v11 (Pipeline.mem_restRefs_of main_v11 (by decide) (by decide))).trans (res_v11 m h c),
      ((hh c).2 main_v12 (Pipeline.mem_restRefs_of main_v12 (by decide) (by decide))).trans (res_v12 m h c),
      ((hh c).1 9).trans (res_v10_2 m h c),
      ((hh c).1 10).trans (res_v10_3 m h c),
      (((hh c).2 main_arg0 (Pipeline.mem_restRefs_of main_arg0 (by decide) (by decide))).trans (W_main_arg0 m (dats m) c)),
      (((hh c).2 main_arg1 (Pipeline.mem_restRefs_of main_arg1 (by decide) (by decide))).trans (W_main_arg1 m (dats m) c)),
      (((hh c).2 main_arg2 (Pipeline.mem_restRefs_of main_arg2 (by decide) (by decide))).trans (W_main_arg2 m (dats m) c)),
      (((hh c).2 main_arg3 (Pipeline.mem_restRefs_of main_arg3 (by decide) (by decide))).trans (W_main_arg3 m (dats m) c)),
      (((hh c).2 main_arg4 (Pipeline.mem_restRefs_of main_arg4 (by decide) (by decide))).trans (W_main_arg4 m (dats m) c)),
      (((hh c).2 main_arg5 (Pipeline.mem_restRefs_of main_arg5 (by decide) (by decide))).trans (W_main_arg5 m (dats m) c)),
      (((hh c).2 main_arg6 (Pipeline.mem_restRefs_of main_arg6 (by decide) (by decide))).trans (W_main_arg6 m (dats m) c)),
      (((hh c).2 main_arg7 (Pipeline.mem_restRefs_of main_arg7 (by decide) (by decide))).trans (W_main_arg7 m (dats m) c)),
      (((hh c).2 main_arg8 (Pipeline.mem_restRefs_of main_arg8 (by decide) (by decide))).trans (W_main_arg8 m (dats m) c))⟩)
    (run_main m ρ)

end Cert.KernelIdeal.KV

end
-- ==== Proof.PreIdx.lean ====
/-
  The index range, read out of the precondition.

  The precondition is the conjunction of six finiteness tests on the float inputs and, for each of the three index
  vectors, `all ((v ≥ 0) & (v < 1000000))`. If the whole conjunction is true then every entry of each index vector, read
  as a signed integer, lies in [0, 1000000).
-/
import proofs.«412559_j43920335569005_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreIdx

open Idealize.ShloMosaic Idealize.ShloMosaic.ValueIdx Cert.Pre_finite_inputs

variable [Cert.Pre_finite_inputs.Facts]

/-- A conjunction of two bit vectors that is one at an index has both conjuncts one there. -/
private theorem andi_at {s : Shape} (x y : IVec s 1) (j : s.Idx) (h : andi x y j = 1#1) : x j = 1#1 ∧ y j = 1#1 :=
  IntOp.andi_eq_one.1 h

/-- One index test: if `all ((v ≥ 0) & (v < 1000000))` is true then every entry of v, read signed, is in [0, 1000000).
    The conjunction over all entries being one makes each entry's conjunct one; that conjunct is the pair of signed
    comparisons of the entry with the constants 0 and 1000000 (a scalar broadcast reads the scalar everywhere). -/
private theorem range_of_all (v : IVec S65536 32) (j : S_.Idx)
    (e : Host.reduce IntOp.andi
        (andi (cmpi .sge v (broadcastInDim S65536 ![] Facts.bcast_S_S65536 (constantI S_ 32 0#32)))
          (cmpi .slt v (broadcastInDim S65536 ![] Facts.bcast_S_S65536 (constantI S_ 32 1000000#32))))
        (constantI S_ 1 1#1) Facts.reducesTo_S65536_S_d0 Facts.h_S_ j = 1#1) (i : S65536.Idx) :
    0 ≤ (v i).toInt ∧ (v i).toInt < 1000000 := by
  -- the scalar shape has one index
  haveI : Subsingleton S_.Idx := ⟨fun a b => funext fun d => d.elim0⟩
  have hi := Host.reduce_andi_all _ _ _ _ j e i
  obtain ⟨hge, hlt⟩ := andi_at _ _ _ hi
  have hge' : (0#32 : BitVec 32).toInt ≤ (v i).toInt := IntOp.cmpi_sge.1 hge
  have hlt' : (v i).toInt < (1000000#32 : BitVec 32).toInt := IntOp.cmpi_slt.1 hlt
  have z : (0#32 : BitVec 32).toInt = 0 := by decide
  have m : (1000000#32 : BitVec 32).toInt = 1000000 := by decide
  rw [z] at hge'
  rw [m] at hlt'
  exact ⟨hge', hlt'⟩

/-- If the precondition holds then every index entry lies in [0, 1000000). -/
theorem idx_range_of_pre (a0 a1 a2 : IVec S65536 32) (a3 a4 : FVec Ideal S1000000x64 .f32) (a5 : FVec Ideal S64x64 .f32)
    (a6 : FVec Ideal S64 .f32) (a7 : FVec Ideal S64x64 .f32) (a8 : FVec Ideal S64 .f32)
    (h : Cert.Pre_finite_inputs.fn (F := Ideal) a0 a1 a2 a3 a4 a5 a6 a7 a8 = fun _ => 1#1) (i : S65536.Idx) :
    (0 ≤ (a0 i).toInt ∧ (a0 i).toInt < 1000000) ∧ (0 ≤ (a1 i).toInt ∧ (a1 i).toInt < 1000000)
      ∧ (0 ≤ (a2 i).toInt ∧ (a2 i).toInt < 1000000) := by
  -- the whole conjunction at the one index of the scalar result
  have h0 := congrFun h (fun d => d.elim0)
  dsimp only [fn, fn_part1, fn_part2] at h0
  -- the last three conjuncts are the three index tests; the rest (the float tests) is dropped
  obtain ⟨h1, hc⟩ := andi_at _ _ _ h0
  obtain ⟨h2, hb⟩ := andi_at _ _ _ h1
  obtain ⟨_, ha⟩ := andi_at _ _ _ h2
  exact ⟨range_of_all a0 _ ha i, range_of_all a1 _ hb i, range_of_all a2 _ hc i⟩

end Cert.PreIdx

end
-- ==== Proof.lean ====
/-
  The certificate's five claims.

  The three frames: the kernel's program at the word level and at the ideal values by its generated frame run, the
  reference by its run with the results dropped. The idealization rewrote nothing, so the sanctioned-idealization claim
  is trivially true. The equivalence over the extended reals: under the precondition every index lies in [0, 1000000),
  so the kernel's three gathers never take their out-of-range fill and the kernel's program ends with its four results
  at the row-wise specification of the nine arguments (scores, the concatenated rows, the user rows); the reference,
  whose graph convolution over the fixed edge lists collapses to the same rows (each user and its positive item average
  their two transformed rows with weight one half, each negative item keeps its own), ends with the same four functions
  of arguments that agree.
-/
import proofs.«412559_j43920335569005_3_alg».proof.Defs
import proofs.«412559_j43920335569005_3_alg».proof.Proof.Gen.Kernel
import proofs.«412559_j43920335569005_3_alg».proof.Proof.Gen.Kernel.Frame
import proofs.«412559_j43920335569005_3_alg».proof.Proof.Gen.KernelIdeal
import proofs.«412559_j43920335569005_3_alg».proof.Proof.Gen.KernelIdeal.Frame
import proofs.«412559_j43920335569005_3_alg».proof.Proof.Gen.ReferenceIdeal
import proofs.«412559_j43920335569005_3_alg».proof.Proof.Gen.Pre_finite_inputs
import proofs.«412559_j43920335569005_3_alg».proof.Proof.RefRun
import proofs.«412559_j43920335569005_3_alg».proof.Proof.RefRead
import proofs.«412559_j43920335569005_3_alg».proof.Proof.RefOut
import proofs.«412559_j43920335569005_3_alg».proof.Proof.KernelRun
import proofs.«412559_j43920335569005_3_alg».proof.Proof.PreIdx
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the four results dropped. -/
theorem frame_referenceIdeal : Cert.frame_ReferenceIdeal := fun m ρ _ =>
  (θ_run Cert.ReferenceIdeal.defs _ _).mono (fun _ h c => (h c).2.2.2.2)
    (Cert.ReferenceIdeal.ValueP.run (F := Ideal) m ρ)

/-- The idealization pass rewrote no operation. -/
theorem preserves : Cert.preserves_Kernel_KernelIdeal := trivial

/-- The precondition puts every index in [0, 1000000). -/
theorem inRange_of_pre (m : (ℓ : Loc Cert.KernelIdeal.nD Cert.KernelIdeal.τ Cert.KernelIdeal.sig) → Buf (Elt Ideal) ℓ)
    (hpre : Cert.Pre_KernelIdeal m) : Cert.KernelIdeal.KV.InRange m :=
  fun c i => Cert.PreIdx.idx_range_of_pre _ _ _ _ _ _ _ _ _ (hpre c) i

/-- Both programs end with the specification's four functions of the arguments. -/
theorem algebraic : Cert.algebraic_KernelIdeal_ReferenceIdeal := by
  intro m ρ m' ρ' hpre hagree
  refine ⟨_, _, _, _, Cert.KernelIdeal.KV.run_value m ρ (inRange_of_pre m hpre), ?_⟩
  refine (θ_run Cert.ReferenceIdeal.defs _ _).mono (fun _ h c => ⟨?_, ?_, ?_, ?_, (h c).2.2.2.2⟩)
    (Cert.ReferenceIdeal.ValueP.run (F := Ideal) m' ρ')
  · rw [(h c).1, Cert.ReferenceIdeal.ReadP.val_main_v90_eq, Cert.ReferenceIdeal.RV.v90_eq, (hagree c).1, (hagree c).2.1,
      (hagree c).2.2.2.1, (hagree c).2.2.2.2.1, (hagree c).2.2.2.2.2.1, (hagree c).2.2.2.2.2.2.1,
      (hagree c).2.2.2.2.2.2.2.1, (hagree c).2.2.2.2.2.2.2.2]
  · rw [(h c).2.1, Cert.ReferenceIdeal.ReadP.val_main_v93_eq, Cert.ReferenceIdeal.RV.v93_eq, (hagree c).1, (hagree c).2.1,
      (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2]
  · rw [(h c).2.2.1, Cert.ReferenceIdeal.ReadP.val_main_v94_eq, Cert.ReferenceIdeal.RV.v94_eq, (hagree c).1, (hagree c).2.1,
      (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2]
  · rw [(h c).2.2.2.1, Cert.ReferenceIdeal.ReadP.val_main_v85_eq, Cert.ReferenceIdeal.RV.v85_eq, (hagree c).1, (hagree c).2.1,
      (hagree c).2.2.2.1, (hagree c).2.2.2.2.1, (hagree c).2.2.2.2.2.1, (hagree c).2.2.2.2.2.2.1,
      (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
